-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x1 .f32) (main_arg12 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S3x128 .f32) (main_arg7 : FVec F S3x128 .f32) (main_arg8 : FVec F S3x128 .f32) (main_arg9 : FVec F S128x64 .f32) (main_arg10 : FVec F S64 .f32) (main_arg11 : FVec F S64x1 .f32) (main_arg12 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128 .f32) (main_arg6 : FVec F S3x128 .f32) (main_arg7 : FVec F S3x128 .f32) (main_arg8 : FVec F S3x128 .f32) (main_arg9 : FVec F S128x64 .f32) (main_arg10 : FVec F S64 .f32) (main_arg11 : FVec F S64x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128x128 : Shape := ⟨3, ![1, 128, 128]⟩
abbrev S128x128 : Shape := ⟨2, ![128, 128]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S128 : Shape := ⟨1, ![128]⟩
abbrev S1024x128 : Shape := ⟨2, ![1024, 128]⟩
abbrev S1x1024 : Shape := ⟨2, ![1, 1024]⟩
abbrev S1000x128 : Shape := ⟨2, ![1000, 128]⟩
abbrev S1000x1 : Shape := ⟨2, ![1000, 1]⟩
abbrev S1000x1024 : Shape := ⟨2, ![1000, 1024]⟩
abbrev S1024 : Shape := ⟨1, ![1024]⟩
abbrev S1024x1 : Shape := ⟨2, ![1024, 1]⟩
abbrev S1x64 : Shape := ⟨2, ![1, 64]⟩
abbrev S1x1 : Shape := ⟨2, ![1, 1]⟩
abbrev S1024x64 : Shape := ⟨2, ![1024, 64]⟩

abbrev nBuf : Space → Nat
  | .hbm => 141
  | .vmem => 50
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S128x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S50000, .i32⟩
  | 18 => ⟨S850000, .i32⟩
  | 19 => ⟨S850000, .i32⟩
  | 20 => ⟨S_, .f32⟩
  | 21 => ⟨S50000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S_, .f32⟩
  | 31 => ⟨S850000, .f32⟩
  | 32 => ⟨S50000, .f32⟩
  | 33 => ⟨S50000, .f32⟩
  | 34 => ⟨S50000x1, .f32⟩
  | 35 => ⟨S1x128x128, .f32⟩
  | 36 => ⟨S128x128, .f32⟩
  | 37 => ⟨S50000x128, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000x128, .f32⟩
  | 47 => ⟨S_, .f32⟩
  | 48 => ⟨S50000x128, .f32⟩
  | 49 => ⟨S850000x1, .i32⟩
  | 50 => ⟨S50000x128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128x128, .f32⟩
  | 62 => ⟨S128x128, .f32⟩
  | 63 => ⟨S1x128, .f32⟩
  | 64 => ⟨S1x128, .f32⟩
  | 65 => ⟨S1x128, .f32⟩
  | 66 => ⟨S1x128, .f32⟩
  | 67 => ⟨S1x128, .f32⟩
  | 68 => ⟨S50000x128, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x128, .f32⟩
  | 78 => ⟨S_, .f32⟩
  | 79 => ⟨S50000x128, .f32⟩
  | 80 => ⟨S850000x1, .i32⟩
  | 81 => ⟨S50000x128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S128, .f32⟩
  | 92 => ⟨S1x128x128, .f32⟩
  | 93 => ⟨S128x128, .f32⟩
  | 94 => ⟨S1x128, .f32⟩
  | 95 => ⟨S1x128, .f32⟩
  | 96 => ⟨S1x128, .f32⟩
  | 97 => ⟨S1x128, .f32⟩
  | 98 => ⟨S1x128, .f32⟩
  | 99 => ⟨S50000x128, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S50000x128, .f32⟩

abbrev hbmTy0_1 (i : Nat) : BufTy := match i % 128 with
  | 0 => ⟨S50000x1, .i32⟩
  | 1 => ⟨S1024x128, .f32⟩
  | 2 => ⟨S1x1024, .f32⟩
  | 3 => ⟨S1024x1, .f32⟩
  | 4 => ⟨S_, .f32⟩
  | 5 => ⟨S1024x1, .f32⟩
  | 6 => ⟨S1024x1, .f32⟩
  | 7 => ⟨S1024x128, .f32⟩
  | 8 => ⟨S1024x128, .f32⟩
  | 9 => ⟨S1x64, .f32⟩
  | 10 => ⟨S1x1, .f32⟩
  | 11 => ⟨S1024x1, .f32⟩
  | 12 => ⟨S1024, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S1000x128, .f32⟩
  | .local _ .vmem, ⟨32, _⟩ => ⟨S1000x128, .f32⟩
  | .local _ .vmem, ⟨33, _⟩ => ⟨S1000x1, .f32⟩
  | .local _ .vmem, ⟨34, _⟩ => ⟨S1000x1, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1000x1, .i32⟩
  | .local _ .vmem, ⟨41, _⟩ => ⟨S1000x1, .i32⟩
  | .local _ .vmem, ⟨42, _⟩ => ⟨S1024x128, .f32⟩
  | .local _ .vmem, ⟨43, _⟩ => ⟨S1x1024, .f32⟩
  | .local _ .vmem, ⟨44, _⟩ => ⟨S1024x128, .f32⟩
  | .local _ .vmem, ⟨45, _⟩ => ⟨S128x64, .f32⟩
  | .local _ .vmem, ⟨46, _⟩ => ⟨S1x64, .f32⟩
  | .local _ .vmem, ⟨47, _⟩ => ⟨S64x1, .f32⟩
  | .local _ .vmem, ⟨48, _⟩ => ⟨S1x1, .f32⟩
  | .local _ .vmem, ⟨49, _⟩ => ⟨S1024x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_5 : Ref sig .tc := ⟨.hbm, 69, rfl⟩
abbrev main_v49 : Ref sig .tc := ⟨.hbm, 70, rfl⟩
abbrev main_v50 : Ref sig .tc := ⟨.hbm, 71, rfl⟩
abbrev main_c_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_8 : Ref sig .tc := ⟨.hbm, 100, rfl⟩
abbrev main_v77 : Ref sig .tc := ⟨.hbm, 101, rfl⟩
abbrev main_v78 : Ref sig .tc := ⟨.hbm, 102, rfl⟩
abbrev main_c_9 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_10 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103_0 : Ref sig .tc := ⟨.hbm, 129, rfl⟩
abbrev main_v103_1 : Ref sig .tc := ⟨.hbm, 130, rfl⟩
abbrev main_v104 : Ref sig .tc := ⟨.hbm, 131, rfl⟩
abbrev main_cst_11 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg8_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc3_stg8_0 : Ref sig .tc := ⟨.vmem, 42, rfl⟩
abbrev cc3_stg9_0 : Ref sig .tc := ⟨.vmem, 43, rfl⟩
abbrev cc4_stg0_0 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem8_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41
abbrev cc3_sem8_0 : DmaSem sig := 42
abbrev cc3_sem9_0 : DmaSem sig := 43
abbrev cc4_sem0_0 : DmaSem sig := 44
abbrev cc4_sem1_0 : DmaSem sig := 45
abbrev cc4_sem2_0 : DmaSem sig := 46
abbrev cc4_sem3_0 : DmaSem sig := 47
abbrev cc4_sem4_0 : DmaSem sig := 48
abbrev cc4_sem5_0 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1000x1 .i32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S1024x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  shapeCasts_S50000_S50000x1 : S50000.ShapeCasts S50000x1
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S1024x128_S1024x128_0_0 : ∀ a, (![0, 0] : Fin 2 → Nat) a + S1024x128.size a ≤ S1024x128.size a
  h_S1024x128 : 0 < S1024x128.numel
  inb_S1x1024_S1x1024_0_0 : ∀ a, (![0, 0] : Fin 2 → Nat) a + S1x1024.size a ≤ S1x1024.size a
  h_S1x1024 : 0 < S1x1024.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  broadcasts_S1x128_S1000x128 : S1x128.Broadcasts S1000x128
  iota_S1000x1024_d1_w32 : S1000x1024.Iotas .tc 32 [1]
  broadcasts_S1000x1_S1000x1024 : S1000x1.Broadcasts S1000x1024
  natLt_1_32 : 1 < 32
  shapeCasts_S1024x128_S1024x128 : S1024x128.ShapeCasts S1024x128
  shapeCasts_S1x1024_S1x1024 : S1x1024.ShapeCasts S1x1024
  reduces_S1000x1024_S1024 : S1000x1024.Reduces [0] S1024
  shapeCasts_S1024_S1x1024 : S1024.ShapeCasts S1x1024
  shapeCasts_S1x1024_S1024x1 : S1x1024.ShapeCasts S1024x1
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  shapeCasts_S64_S1x64 : S64.ShapeCasts S1x64
  shapeCasts_S1_S1x1 : S1.ShapeCasts S1x1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S1024x1_S1024 : S1024x1.ShapeCasts S1024
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S1000x1024_S1000x128_S1024x128_0_0_1_1_n_n_wf : DotDims.WF S1000x1024 S1000x128 S1024x128 [0] [0] [1] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S50000x1.size a
  hwx3_1 : ∀ i : grid3.Coords, EltTy.bits .f32 = 32 ∨ (Rect.block (s := S50000x1) S1000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x1.size a ≤ S50000x1.size a
  hwx3_7 : ∀ i : grid3.Coords, EltTy.bits .i32 = 32 ∨ (Rect.block (s := S50000x1) S1000x1.size (cc3_transform_7 i) (hinb3_7 i)).WholeWords (EltTy.packing .i32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1024x128.size a ≤ S1024x128.size a
  hwx3_8 : ∀ i : grid3.Coords, EltTy.bits .f32 = 32 ∨ (Rect.block (s := S1024x128) S1024x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1024.size a ≤ S1x1024.size a
  hwx3_9 : ∀ i : grid3.Coords, EltTy.bits .f32 = 32 ∨ (Rect.block (s := S1x1024) S1x1024.size (cc3_transform_9 i) (hinb3_9 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S1024x128.size a
  hwx4_0 : ∀ i : grid4.Coords, EltTy.bits .f32 = 32 ∨ (Rect.block (s := S1024x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x1.size a ≤ S1024x1.size a
  hwx4_5 : ∀ i : grid4.Coords, EltTy.bits .f32 = 32 ∨ (Rect.block (s := S1024x1) S1024x1.size (cc4_transform_5 i) (hinb4_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S1000x1024_S1000x128_S1024x128_0_0_1_1_n_n : DotDims S1000x1024 S1000x128 S1024x128 where
  lhsContracting := [0]
  rhsContracting := [0]
  lhsNonContracting := [1]
  rhsNonContracting := [1]
  lhsBatch := []
  rhsBatch := []
  wf := dot_S1000x1024_S1000x128_S1024x128_0_0_1_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v48) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v75) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v70) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v76) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v86) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v97) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v98) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v99) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v100) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v101) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v102) S1000x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v103_0) S1024x128.size cc3_transform_8 reads3_8 true true 1 stage3_8 sem3_8
    hrank3 hreads3_8 hinb3_8 nbuf3_8 (Memref.isWhole_whole _) hwx3_8 hstage3_8

abbrev win3_9 : Pipeline.Window sig grid3 :=
  Pipeline.Window.ofSpec (Memref.whole main_v103_1) S1x1024.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v108) S1024x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v109) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v110) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v111) S1024x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1024x128 : Shape := ⟨2, ![1024, 128]⟩
abbrev S50000x1 : Shape := ⟨2, ![50000, 1]⟩
abbrev S1024 : Shape := ⟨1, ![1024]⟩
abbrev S1024x1 : Shape := ⟨2, ![1024, 1]⟩
abbrev S1024x64 : Shape := ⟨2, ![1024, 64]⟩
abbrev S1x64 : Shape := ⟨2, ![1, 64]⟩
abbrev S1x1 : Shape := ⟨2, ![1, 1]⟩

abbrev nBuf : Space → Nat
  | .hbm => 303
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S128x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S1x128x128, .f32⟩
  | 18 => ⟨S128x128, .f32⟩
  | 19 => ⟨S1x128, .f32⟩
  | 20 => ⟨S128, .f32⟩
  | 21 => ⟨S50000x128, .f32⟩
  | 22 => ⟨S50000, .i32⟩
  | 23 => ⟨S850000, .i32⟩
  | 24 => ⟨S850000, .i32⟩
  | 25 => ⟨S_, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S_, .f32⟩
  | 36 => ⟨S850000, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S850000x1, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x128, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S50000x128, .f32⟩
  | 76 => ⟨S50000x128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S_, .f32⟩
  | 89 => ⟨S128, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S1x128x128, .f32⟩
  | 105 => ⟨S128x128, .f32⟩
  | 106 => ⟨S1x128, .f32⟩
  | 107 => ⟨S128, .f32⟩
  | 108 => ⟨S50000x128, .f32⟩
  | 109 => ⟨S50000, .i32⟩
  | 110 => ⟨S850000, .i32⟩
  | 111 => ⟨S850000, .i32⟩
  | 112 => ⟨S_, .f32⟩
  | 113 => ⟨S50000, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S_, .f32⟩
  | 123 => ⟨S850000, .f32⟩
  | 124 => ⟨S50000, .f32⟩
  | 125 => ⟨S50000, .f32⟩
  | 126 => ⟨S_, .i32⟩
  | 127 => ⟨S850000, .i32⟩
  | _ => ⟨S50000x128, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000, .f32⟩
  | 16 => ⟨S850000, .f32⟩
  | 17 => ⟨S850000x1, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000x128, .f32⟩
  | 27 => ⟨S850000x128, .f32⟩
  | 28 => ⟨S850000x128, .f32⟩
  | 29 => ⟨S_, .f32⟩
  | 30 => ⟨S50000x128, .f32⟩
  | 31 => ⟨S850000x1, .i32⟩
  | 32 => ⟨S50000x128, .f32⟩
  | 33 => ⟨S1x128, .f32⟩
  | 34 => ⟨S50000x128, .f32⟩
  | 35 => ⟨S50000x128, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S_, .f32⟩
  | 48 => ⟨S128, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S1x128x128, .f32⟩
  | 64 => ⟨S128x128, .f32⟩
  | 65 => ⟨S1x128, .f32⟩
  | 66 => ⟨S128, .f32⟩
  | 67 => ⟨S50000x128, .f32⟩
  | 68 => ⟨S50000, .i32⟩
  | 69 => ⟨S850000, .i32⟩
  | 70 => ⟨S850000, .i32⟩
  | 71 => ⟨S_, .f32⟩
  | 72 => ⟨S50000, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S_, .f32⟩
  | 82 => ⟨S850000, .f32⟩
  | 83 => ⟨S50000, .f32⟩
  | 84 => ⟨S50000, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S850000, .f32⟩
  | 104 => ⟨S850000x1, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x128, .f32⟩
  | 115 => ⟨S850000x128, .f32⟩
  | 116 => ⟨S_, .f32⟩
  | 117 => ⟨S50000x128, .f32⟩
  | 118 => ⟨S850000x1, .i32⟩
  | 119 => ⟨S50000x128, .f32⟩
  | 120 => ⟨S1x128, .f32⟩
  | 121 => ⟨S50000x128, .f32⟩
  | 122 => ⟨S50000x128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S50000x128, .f32⟩

abbrev hbmTy0_2 (i : Nat) : BufTy := match i % 128 with
  | 0 => ⟨S128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S1024x128, .f32⟩
  | 21 => ⟨S50000x1, .i32⟩
  | 22 => ⟨S1024x128, .f32⟩
  | 23 => ⟨S_, .f32⟩
  | 24 => ⟨S50000, .f32⟩
  | 25 => ⟨S_, .f32⟩
  | 26 => ⟨S1024, .f32⟩
  | 27 => ⟨S50000x1, .i32⟩
  | 28 => ⟨S1024, .f32⟩
  | 29 => ⟨S_, .f32⟩
  | 30 => ⟨S1024, .f32⟩
  | 31 => ⟨S1024, .f32⟩
  | 32 => ⟨S1024x1, .f32⟩
  | 33 => ⟨S1024x128, .f32⟩
  | 34 => ⟨S1024x128, .f32⟩
  | 35 => ⟨S1024x64, .f32⟩
  | 36 => ⟨S1x64, .f32⟩
  | 37 => ⟨S1024x64, .f32⟩
  | 38 => ⟨S1024x64, .f32⟩
  | 39 => ⟨S_, .f32⟩
  | 40 => ⟨S1024x64, .f32⟩
  | 41 => ⟨S1024x64, .f32⟩
  | 42 => ⟨S1024x1, .f32⟩
  | 43 => ⟨S1x1, .f32⟩
  | 44 => ⟨S1024x1, .f32⟩
  | 45 => ⟨S1024x1, .f32⟩
  | 46 => ⟨S1024, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_9 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call0_cst : Ref sig .tc := ⟨.hbm, 101, rfl⟩
abbrev main_call0_v0 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_10 : Ref sig .tc := ⟨.hbm, 112, rfl⟩
abbrev main_v85 : Ref sig .tc := ⟨.hbm, 113, rfl⟩
abbrev main_c_11 : Ref sig .tc := ⟨.hbm, 114, rfl⟩
abbrev main_v86 : Ref sig .tc := ⟨.hbm, 115, rfl⟩
abbrev main_v87 : Ref sig .tc := ⟨.hbm, 116, rfl⟩
abbrev main_c_12 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_13 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_14 : Ref sig .tc := ⟨.hbm, 126, rfl⟩
abbrev main_v95 : Ref sig .tc := ⟨.hbm, 127, rfl⟩
abbrev main_v96 : Ref sig .tc := ⟨.hbm, 128, rfl⟩
abbrev main_c_15 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_16 : Ref sig .tc := ⟨.hbm, 135, rfl⟩
abbrev main_v102 : Ref sig .tc := ⟨.hbm, 136, rfl⟩
abbrev main_v103 : Ref sig .tc := ⟨.hbm, 137, rfl⟩
abbrev main_c_17 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_18 : Ref sig .tc := ⟨.hbm, 146, rfl⟩
abbrev main_v111 : Ref sig .tc := ⟨.hbm, 147, rfl⟩
abbrev main_v112 : Ref sig .tc := ⟨.hbm, 148, rfl⟩
abbrev main_c_19 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_20 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_21 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_call1_cst : Ref sig .tc := ⟨.hbm, 188, rfl⟩
abbrev main_call1_v0 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_22 : Ref sig .tc := ⟨.hbm, 199, rfl⟩
abbrev main_v158 : Ref sig .tc := ⟨.hbm, 200, rfl⟩
abbrev main_c_23 : Ref sig .tc := ⟨.hbm, 201, rfl⟩
abbrev main_v159 : Ref sig .tc := ⟨.hbm, 202, rfl⟩
abbrev main_v160 : Ref sig .tc := ⟨.hbm, 203, rfl⟩
abbrev main_c_24 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_cst_25 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_c_26 : Ref sig .tc := ⟨.hbm, 213, rfl⟩
abbrev main_v168 : Ref sig .tc := ⟨.hbm, 214, rfl⟩
abbrev main_v169 : Ref sig .tc := ⟨.hbm, 215, rfl⟩
abbrev main_c_27 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_c_28 : Ref sig .tc := ⟨.hbm, 222, rfl⟩
abbrev main_v175 : Ref sig .tc := ⟨.hbm, 223, rfl⟩
abbrev main_v176 : Ref sig .tc := ⟨.hbm, 224, rfl⟩
abbrev main_c_29 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_c_30 : Ref sig .tc := ⟨.hbm, 233, rfl⟩
abbrev main_v184 : Ref sig .tc := ⟨.hbm, 234, rfl⟩
abbrev main_v185 : Ref sig .tc := ⟨.hbm, 235, rfl⟩
abbrev main_c_31 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_cst_32 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_cst_33 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_cst_34 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_cst_35 : Ref sig .tc := ⟨.hbm, 279, rfl⟩
abbrev main_v225 : Ref sig .tc := ⟨.hbm, 280, rfl⟩
abbrev main_cst_36 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_cst_37 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_call2_cst : Ref sig .tc := ⟨.hbm, 295, rfl⟩
abbrev main_call2_v0 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1024x128 : S_.BroadcastsInDim S1024x128 (![] : Fin 0 → Fin S1024x128.rank)
  bcast_S50000_S50000x1_0 : S50000.BroadcastsInDim S50000x1 (![0] : Fin 1 → Fin S50000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S1024x128_S50000x1_S50000x128_1_0_0_1_wf : ScatterDims.WF S1024x128 S50000x1 S50000x128 [1] [0] [0] 1
  scatter_S1024_S50000x1_S50000_n_0_0_1_wf : ScatterDims.WF S1024 S50000x1 S50000 [] [0] [0] 1
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.Spec.lean ====
/-
  The mathematics of the certificate, free of any program: a three-layer graph convolution network with eval-mode
  batch normalisation, a mean pool over graphs and a two-layer classifier, written twice over the extended reals.

  Notation. `X` the node features, `sw` / `d` / `dw` the source row each edge gathers (wrapped), the raw
  destination id each edge scatters to, and the wrapped destination id that the degree count and the normalisation
  gather use; `B` the graph id of each node. A gather reads row `clampRow w`: the word read signed, clamped into the
  table. A scatter-add at row `j` sums the updates whose id word reads exactly `j`.

  * the REFERENCE order (`refScores`): each layer multiplies every gathered row by `dinv[s] * dinv[d]` and then sums.
  * the KERNEL order (`kerScores`): each layer scales the rows by `dinv` before the gather, sums, and scales the sum
    by `dinv` of the destination row afterwards; the pool is a sum of one-hot products.
  `Bridge` proves the two equal.
-/
import Idealize.ShloMosaic.PureOps.Ideal
import Idealize.ShloMosaic.Lib.ValueIdx
import Idealize.ShloMosaic.Lib.IdealHost

noncomputable section

open scoped BigOperators

namespace Cert.Spec

open Idealize.ShloMosaic

/-- The float zero, one and the batch-norm epsilon, as the words both programs print. -/
abbrev Z0 : EReal := Ideal.ofBits .f32 0x00000000#32
abbrev ONE : EReal := Ideal.ofBits .f32 0x3F800000#32
abbrev EPS : EReal := Ideal.ofBits .f32 0x3727C5AC#32

abbrev M2 (a b : Nat) := Fin a → Fin b → EReal
abbrev Col (e : Nat) := Fin e → BitVec 32

/-- The row a gather reads from a table of `N` rows: the word read signed, clamped into `[0, N - 1]`. -/
def clampRow (N : Nat) (hN : 0 < N) (w : BitVec 32) : Fin N := ⟨min w.toInt.toNat (N - 1), by omega⟩

abbrev cr (w : BitVec 32) : Fin 50000 := clampRow 50000 (by norm_num) w

/-- The degree count: the number of wrapped destination ids that read `j`, as a sum of float ones onto zero. -/
def deg (dw : Col 850000) (j : Fin 50000) : EReal :=
  Z0 + ∑ e : Fin 850000, if (dw e).toInt = (j.val : ℤ) then ONE else 0

/-- The symmetric normalisation's factor `deg ^ (-1/2)`. -/
def dinv (dw : Col 850000) (j : Fin 50000) : EReal := Ideal.rsqrt (deg dw j)

/-- One layer's linear map: `A` times the layer's weight matrix. -/
def mm (A : M2 50000 128) (Ws : Fin 3 → Fin 128 → Fin 128 → EReal) (l : Fin 3) : M2 50000 128 :=
  fun n h => ∑ k : Fin 128, A n k * Ws l k h

/-- Eval-mode batch normalisation of one element of column `k` at layer `l`. -/
def bn (g be mu va : M2 3 128) (l : Fin 3) (k : Fin 128) (x : EReal) : EReal :=
  (x - mu l k) * Ideal.rsqrt (va l k + EPS) * g l k + be l k

def relu (x : EReal) : EReal := max x Z0

/-- The kernel's aggregation: the plain scatter-add of gathered rows. -/
def aggK (sw d : Col 850000) (xs : M2 50000 128) : M2 50000 128 := fun j h =>
  Z0 + ∑ e : Fin 850000, if (d e).toInt = (j.val : ℤ) then xs (cr (sw e)) h else 0

/-- The reference's aggregation: each gathered row times `dinv[s] * dinv[d]`, then the scatter-add. -/
def aggR (sw d dw : Col 850000) (dv : Fin 50000 → EReal) (xw : M2 50000 128) : M2 50000 128 := fun j h =>
  Z0 + ∑ e : Fin 850000, if (d e).toInt = (j.val : ℤ) then xw (cr (sw e)) h * (dv (cr (sw e)) * dv (cr (dw e))) else 0

section Layers
variable (sw d dw : Col 850000) (Ws : Fin 3 → Fin 128 → Fin 128 → EReal) (bs g be mu va : M2 3 128)

/-- The reference's layer `l` before any activation: aggregate `h W_l`, add the bias, normalise. -/
def refPre (l : Fin 3) (h : M2 50000 128) : M2 50000 128 := fun n k =>
  bn g be mu va l k (aggR sw d dw (dinv dw) (mm h Ws l) n k + bs l k)

def refH1 (X : M2 50000 128) : M2 50000 128 := fun n k => relu (refPre sw d dw Ws bs g be mu va 0 X n k)
def refH2 (X : M2 50000 128) : M2 50000 128 := fun n k =>
  relu (refPre sw d dw Ws bs g be mu va 1 (refH1 sw d dw Ws bs g be mu va X) n k)
def refH3 (X : M2 50000 128) : M2 50000 128 :=
  refPre sw d dw Ws bs g be mu va 2 (refH2 sw d dw Ws bs g be mu va X)

/-- The kernel's scaled linear output: `(A W_l) * dinv` row by row. -/
def kerLin (l : Fin 3) (A : M2 50000 128) : M2 50000 128 := fun n h => mm A Ws l n h * dinv dw n

/-- The kernel's layer `l` before any activation, from the scaled linear output `xs` of the layer. -/
def kerPre (l : Fin 3) (xs : M2 50000 128) : M2 50000 128 := fun n k =>
  bn g be mu va l k (aggK sw d xs n k * dinv dw n + bs l k)

def kerXs0 (X : M2 50000 128) : M2 50000 128 := kerLin dw Ws 0 X
def kerXs1 (X : M2 50000 128) : M2 50000 128 :=
  kerLin dw Ws 1 (fun n k => relu (kerPre sw d dw bs g be mu va 0 (kerXs0 dw Ws X) n k))
def kerXs2 (X : M2 50000 128) : M2 50000 128 :=
  kerLin dw Ws 2 (fun n k => relu (kerPre sw d dw bs g be mu va 1 (kerXs1 sw d dw Ws bs g be mu va X) n k))
def kerY3 (X : M2 50000 128) : M2 50000 128 :=
  kerPre sw d dw bs g be mu va 2 (kerXs2 sw d dw Ws bs g be mu va X)

end Layers

/-- The reference's pool: per graph, the sum of the rows whose id word reads the graph, and their number. -/
def sumsR (B : Col 50000) (Y : M2 50000 128) : M2 1024 128 := fun gph h =>
  Z0 + ∑ n : Fin 50000, if (B n).toInt = (gph.val : ℤ) then Y n h else 0
def cntR (B : Col 50000) : Fin 1024 → EReal := fun gph =>
  Z0 + ∑ n : Fin 50000, if (B n).toInt = (gph.val : ℤ) then ONE else 0

/-- The kernel's one-hot entry: the compare bit widened and converted. -/
def oneHot (b : BitVec 32) (gph : Fin 1024) : EReal :=
  (FloatOps.sitofp (F := Ideal) .f32 ((IntOp.cmpi .eq b (BitVec.ofNat 32 gph.val)).setWidth 32) : EReal)

/-- The kernel's pool: sums of one-hot products over all nodes (the tiles' partial sums added up from zero). -/
def sumsK (B : Col 50000) (Y : M2 50000 128) : M2 1024 128 := fun gph h =>
  ∑ n : Fin 50000, oneHot (B n) gph * Y n h
def cntK (B : Col 50000) : Fin 1024 → EReal := fun gph => ∑ n : Fin 50000, oneHot (B n) gph

/-- The mean and the classifier, shared by both programs. -/
def pooled (S : M2 1024 128) (C : Fin 1024 → EReal) : M2 1024 128 := fun gph h => Ideal.div (S gph h) (max (C gph) ONE)
def classify (P : M2 1024 128) (W1 : M2 128 64) (b1 : Fin 64 → EReal) (W2 : M2 64 1) (b2 : EReal) : Fin 1024 → EReal :=
  fun gph => (∑ j : Fin 64, max ((∑ k : Fin 128, P gph k * W1 k j) + b1 j) Z0 * W2 j 0) + b2

section Scores
variable (sw d dw : Col 850000) (B : Col 50000) (Ws : Fin 3 → Fin 128 → Fin 128 → EReal) (bs g be mu va : M2 3 128)
  (W1 : M2 128 64) (b1 : Fin 64 → EReal) (W2 : M2 64 1) (b2 : EReal) (X : M2 50000 128)

def refScores : Fin 1024 → EReal :=
  classify (pooled (sumsR B (refH3 sw d dw Ws bs g be mu va X)) (cntR B)) W1 b1 W2 b2

def kerScores : Fin 1024 → EReal :=
  classify (pooled (sumsK B (kerY3 sw d dw Ws bs g be mu va X)) (cntK B)) W1 b1 W2 b2

end Scores

end Cert.Spec

end
-- ==== Proof.Adapt.lean ====
/-
  Arrays as the specification's curried functions: an array of rank 1, 2 or 3 read at an index built from its
  coordinates.
-/
import proofs.«406701_j21981642621452_2_alg».proof.Proof.Spec

noncomputable section

namespace Cert.Spec

open Idealize.ShloMosaic Idealize.ShloMosaic.ValueIdx

/-- A rank-2 array as a function of its two coordinates. -/
def m2 {α : Type} {a b : Nat} (A : (⟨2, ![a, b]⟩ : Shape).Idx → α) : Fin a → Fin b → α := fun i j => A (ix2 i j)
/-- A rank-3 array as a function of its three coordinates. -/
def m3 {α : Type} {a b c : Nat} (A : (⟨3, ![a, b, c]⟩ : Shape).Idx → α) : Fin a → Fin b → Fin c → α := fun i j k => A (ix3 i j k)
/-- A rank-1 array as a function of its coordinate. -/
def v1 {α : Type} {a : Nat} (A : (⟨1, ![a]⟩ : Shape).Idx → α) : Fin a → α := fun i => A (ix1 i)

theorem m2_apply {α : Type} {a b : Nat} (A : (⟨2, ![a, b]⟩ : Shape).Idx → α) (i : Fin a) (j : Fin b) : m2 A i j = A (ix2 i j) := rfl
theorem m3_apply {α : Type} {a b c : Nat} (A : (⟨3, ![a, b, c]⟩ : Shape).Idx → α) (i : Fin a) (j : Fin b) (k : Fin c) : m3 A i j k = A (ix3 i j k) := rfl
theorem v1_apply {α : Type} {a : Nat} (A : (⟨1, ![a]⟩ : Shape).Idx → α) (i : Fin a) : v1 A i = A (ix1 i) := rfl

end Cert.Spec

end
-- ==== Proof.LibGather.lean ====
/-
  Two gathers read at an index, and the words of a wrapped row number. What `x[idx]` lowers to when `idx` is a flat
  array of `E` row numbers reshaped to one column `[E, 1]`: a `stablehlo.gather` whose start index map names operand
  axis 0, whose index vector lies along axis 1 of the start indices and whose slice is one element of a flat operand
  `[N]` (result `[E]`) or one whole row of a matrix `[N, D]` (result `[E, D]`, the row along the one offset axis). Result
  element `e` (or `(e, k)`) is the operand at the row number `idx[e, 0]`, read as a signed integer and clamped into
  `[0, N − 1]` as StableHLO clamps every start index: a negative word reads row 0, a word past the end reads row
  `N − 1`. The column `k` passes through untouched. Then the words: the index wrap `x < 0 ? x + n : x` leaves a
  non-negative word alone, and a 32-bit word reads as the natural number `g < 2³¹` exactly when it is `g`'s word.
-/
import Idealize.ShloMosaic.PureOps.Ideal
import Idealize.ShloMosaic.PureOps.Contract
import Idealize.ShloMosaic.Lib.ValueIdx

noncomputable section

namespace Cert.LibGather

open Idealize.ShloMosaic Idealize.ShloMosaic.ValueIdx

/-! ## A flat operand: one element per row number -/

section Vec
variable {α : Type}

/-- The dimension numbers of an element gather: no offset axes, operand axis 0 collapsed and the one the single index
    component names, the index vector along axis 1 of the start indices, slices of one element. -/
abbrev vecGatherDims (N E : Nat)
    (wf : GatherDims.WF (⟨1, ![N]⟩ : Shape) (⟨2, ![E, 1]⟩ : Shape) (⟨1, ![E]⟩ : Shape) [] [0] [] [0] [] 1 ![1]) :
    GatherDims (⟨1, ![N]⟩ : Shape) (⟨2, ![E, 1]⟩ : Shape) (⟨1, ![E]⟩ : Shape) where
  offsetDims := []
  collapsedSliceDims := [0]
  operandBatchingDims := []
  startIndicesBatchingDims := []
  startIndexMap := [0]
  indexVectorDim := 1
  sliceSizes := ![1]
  wf := wf

/-- Result element `e` reads its start index at `[e, 0]`: its batch coordinate, and component 0 of the index vector. -/
private theorem vec_siIdx {N E : Nat}
    (wf : GatherDims.WF (⟨1, ![N]⟩ : Shape) (⟨2, ![E, 1]⟩ : Shape) (⟨1, ![E]⟩ : Shape) [] [0] [] [0] [] 1 ![1])
    (e : Fin E) (c : Fin (vecGatherDims N E wf).startIndexMap.length) :
    (vecGatherDims N E wf).siIdx (ix1 e) c = ix2 e (0 : Fin 1) := by
  have hc : c.val = 0 := Nat.lt_one_iff.mp c.isLt
  funext b; refine Fin.ext ?_
  match b with
  | ⟨0, _⟩ => rfl
  | ⟨1, _⟩ => exact hc

/-- On the operand's one axis the slice starts at row `e`'s index word, read signed and clamped into `[0, N − 1]`. -/
private theorem vec_start {N E w : Nat}
    (wf : GatherDims.WF (⟨1, ![N]⟩ : Shape) (⟨2, ![E, 1]⟩ : Shape) (⟨1, ![E]⟩ : Shape) [] [0] [] [0] [] 1 ![1])
    (idx : IVec (⟨2, ![E, 1]⟩ : Shape) w) (e : Fin E) :
    (vecGatherDims N E wf).start (ix1 e) idx 0 = min (idx (ix2 e (0 : Fin 1))).toInt.toNat (N - 1) := by
  unfold GatherDims.start
  rw [dif_pos (show (0 : Fin 1) ∈ (vecGatherDims N E wf).startIndexMap from List.mem_singleton.mpr rfl), vec_siIdx]
  rfl

/-- THE ELEMENT GATHER AT `e`: the operand at the row number `idx[e, 0]`, read signed and clamped into `[0, N − 1]`. -/
theorem vecGather_apply {N E w : Nat} (hN : 0 < N)
    (wf : GatherDims.WF (⟨1, ![N]⟩ : Shape) (⟨2, ![E, 1]⟩ : Shape) (⟨1, ![E]⟩ : Shape) [] [0] [] [0] [] 1 ![1])
    (x : (⟨1, ![N]⟩ : Shape).Idx → α) (idx : IVec (⟨2, ![E, 1]⟩ : Shape) w) (e : Fin E) :
    Host.gather (vecGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vec_start]
  rfl

end Vec

/-! ## A matrix operand: one whole row per row number -/

section Row
variable {α : Type}

/-- The dimension numbers of a row gather: result axis 1 is the offset axis (operand axis 1, taken whole), operand axis 0
    is collapsed and the one the single index component names, the index vector lies along axis 1 of the start indices,
    slices of one row. -/
abbrev rowGatherDims (N D E : Nat)
    (wf : GatherDims.WF (⟨2, ![N, D]⟩ : Shape) (⟨2, ![E, 1]⟩ : Shape) (⟨2, ![E, D]⟩ : Shape) [1] [0] [] [0] [] 1 ![1, D]) :
    GatherDims (⟨2, ![N, D]⟩ : Shape) (⟨2, ![E, 1]⟩ : Shape) (⟨2, ![E, D]⟩ : Shape) where
  offsetDims := [1]
  collapsedSliceDims := [0]
  operandBatchingDims := []
  startIndicesBatchingDims := []
  startIndexMap := [0]
  indexVectorDim := 1
  sliceSizes := ![1, D]
  wf := wf

/-- Result element `(e, k)` reads its start index at `[e, 0]`: its one batch coordinate `e`, and component 0 of the index
    vector; the column `k` plays no part. -/
private theorem row_siIdx {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) (c : Fin (rowGatherDims N D E wf).startIndexMap.length) :
    (rowGatherDims N D E wf).siIdx (ix2 e k) c = ix2 e (0 : Fin 1) := by
  have hc : c.val = 0 := Nat.lt_one_iff.mp c.isLt
  funext b; refine Fin.ext ?_
  match b with
  | ⟨0, _⟩ => rfl
  | ⟨1, _⟩ => exact hc

/-- On operand axis 0 the slice starts at row `e`'s index word, read signed and clamped into `[0, N − 1]`. -/
private theorem row_start_zero {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (e : Fin E) (k : Fin D) :
    (rowGatherDims N D E wf).start (ix2 e k) idx 0 = min (idx (ix2 e (0 : Fin 1))).toInt.toNat (N - 1) := by
  unfold GatherDims.start
  rw [dif_pos (show (0 : Fin 2) ∈ (rowGatherDims N D E wf).startIndexMap from List.mem_singleton.mpr rfl), row_siIdx]
  rfl

/-- Operand axis 1 is not named by the index vector: the slice starts at 0 there. -/
private theorem row_start_one {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (j : (⟨2, ![E, D]⟩ : Shape).Idx) :
    (rowGatherDims N D E wf).start j idx 1 = 0 := by
  unfold GatherDims.start
  rw [dif_neg (show ¬ (1 : Fin 2) ∈ (rowGatherDims N D E wf).startIndexMap from
    (by decide : ¬ (1 : Fin 2) ∈ ([0] : List (Fin 2))))]

/-- Operand axis 1 is the one kept axis, read by the result's one offset axis: the offset coordinate there is the
    result's column. -/
private theorem row_off_one {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) :
    (rowGatherDims N D E wf).offCoord (ix2 e k) 1 = k.val := by
  unfold GatherDims.offCoord
  rw [dif_pos ((GatherDims.mem_sKept _ _).mpr
    ⟨(by decide : ¬ (1 : Fin 2) ∈ ([0] : List (Fin 2))), List.not_mem_nil⟩)]
  rfl

/-- THE ROW GATHER AT `(e, k)`: column `k` of the operand's row `idx[e, 0]`, the row number read signed and clamped into
    `[0, N − 1]`. -/
theorem rowGather_apply {N D E w : Nat} (hN : 0 < N)
    (wf : GatherDims.WF (⟨2, ![N, D]⟩ : Shape) (⟨2, ![E, 1]⟩ : Shape) (⟨2, ![E, D]⟩ : Shape) [1] [0] [] [0] [] 1 ![1, D])
    (x : (⟨2, ![N, D]⟩ : Shape).Idx → α) (idx : IVec (⟨2, ![E, 1]⟩ : Shape) w) (e : Fin E) (k : Fin D) :
    Host.gather (rowGatherDims N D E wf) x idx (ix2 e k)
      = x (ix2 ⟨min (idx (ix2 e (0 : Fin 1))).toInt.toNat (N - 1), by omega⟩ k) := by
  unfold Host.gather
  congr 1
  funext a
  refine Fin.ext ?_
  revert a
  refine Fin.forall_fin_two.2 ⟨?_, ?_⟩
  · show (rowGatherDims N D E wf).start (ix2 e k) idx 0 + (rowGatherDims N D E wf).batchCoord (ix2 e k) 0
        + (rowGatherDims N D E wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl)),
      row_start_zero]
    rfl
  · show (rowGatherDims N D E wf).start (ix2 e k) idx 1 + (rowGatherDims N D E wf).batchCoord (ix2 e k) 1
        + (rowGatherDims N D E wf).offCoord (ix2 e k) 1 = k.val
    rw [GatherDims.batchCoord_eq_zero _ _ _ List.not_mem_nil, row_start_one, row_off_one]
    omega

end Row

/-! ## Words: the index wrap on a non-negative word, and a word read as a natural number -/

section Words

/-- A signed "less than zero" test on a word that reads non-negative answers the bit `0`, so a select on it is its
    second operand. -/
theorem select_slt_zero_of_nonneg {α : Type} (x : BitVec 32) (hx : 0 ≤ x.toInt) (a b : α) :
    Scalar.select (IntOp.cmpi .slt x 0#32) a b = b := by
  have h : x.slt 0#32 = false := by
    simp only [BitVec.slt, BitVec.toInt_zero, decide_eq_false_iff_not, not_lt]
    exact hx
  show Scalar.select (BitVec.ofBool (x.slt 0#32)) a b = b
  rw [h]
  exact select_zero a b

/-- The index wrap `x < 0 ? x + 50000 : x` leaves a word that reads non-negative alone. -/
theorem wrap_nonneg (x : BitVec 32) (hx : 0 ≤ x.toInt) :
    Scalar.select (IntOp.cmpi .slt x 0#32) (IntOp.addi x 50000#32) x = x :=
  select_slt_zero_of_nonneg x hx _ _

/-- The same on vectors, read at an index: where `v`'s word reads non-negative, `select (v < z) (v + c) v` with `z` the
    zero vector is `v`'s word, whatever the addend `c`. -/
theorem wrap_apply_of_nonneg {s : Shape} (v : IVec s 32) (z c : IVec s 32) (hz : ∀ i, z i = 0#32) (i : s.Idx)
    (hx : 0 ≤ (v i).toInt) : select (cmpi .slt v z) (addi v c) v i = v i := by
  show Scalar.select (IntOp.cmpi .slt (v i) (z i)) (IntOp.addi (v i) (c i)) (v i) = v i
  rw [hz i]
  exact select_slt_zero_of_nonneg (v i) hx _ _

/-- A 32-bit word reads, signed, as the natural number `g < 2³¹` exactly when it is `g`'s word. -/
theorem toInt_eq_iff_eq_ofNat (x : BitVec 32) (g : Nat) (hg : g < 2 ^ 31) :
    x.toInt = (g : ℤ) ↔ x = BitVec.ofNat 32 g := by
  have hgi : (BitVec.ofNat 32 g).toInt = (g : ℤ) := by
    rw [BitVec.toInt_eq_toNat_cond, BitVec.toNat_ofNat]
    have hm : g % 2 ^ 32 = g := Nat.mod_eq_of_lt (by omega)
    rw [hm, if_pos (by omega)]
  constructor
  · intro h
    exact BitVec.eq_of_toInt_eq (h.trans hgi.symm)
  · rintro rfl
    exact hgi

end Words

end Cert.LibGather

end
-- ==== Proof.KernelKeep.lean ====
/- Which buffers each segment of the idealized kernel program leaves alone. A host stretch changes only the buffers
  its operations write; a region changes only its output windows' arrays. So a buffer computed early (the two edge
  columns, the normalisation column, an argument) is read unchanged at every later boundary: each lemma below carries
  such buffers one segment back.
-/
import proofs.«406701_j21981642621452_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- No operation of the named stretch writes the buffer of the goal: the stretch leaves it as it found it. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## One host stretch back -/

theorem host0 (c : Dev nD) (b : Ref sig .tc) (hb : b = main_arg0 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12) :
    W1 m ρ c (Proc.devRef .tc b) = W0 m ρ c (Proc.devRef .tc b) := by
  rcases hb with rfl | rfl | rfl | rfl | rfl | rfl | rfl | rfl | rfl | rfl | rfl | rfl <;> host_keeps hostOps0

theorem host1 (c : Dev nD) (b : Ref sig .tc) (hb : b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12 ∨ b = main_v5 ∨ b = main_v6 ∨ b = main_v17) :
    W3 m ρ c (Proc.devRef .tc b) = W2 m ρ c (Proc.devRef .tc b) := by
  rcases hb with rfl | rfl | rfl | rfl | rfl | rfl | rfl | rfl | rfl | rfl | rfl | rfl | rfl | rfl <;> host_keeps hostOps1

theorem host2 (c : Dev nD) (b : Ref sig .tc) (hb : b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12 ∨ b = main_v5 ∨ b = main_v6 ∨ b = main_v17) :
    W5 m ρ c (Proc.devRef .tc b) = W4 m ρ c (Proc.devRef .tc b) := by
  rcases hb with rfl | rfl | rfl | rfl | rfl | rfl | rfl | rfl | rfl | rfl | rfl | rfl | rfl | rfl <;> host_keeps hostOps2

theorem host3 (c : Dev nD) (b : Ref sig .tc) (hb : b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12 ∨ b = main_v17) :
    W7 m ρ c (Proc.devRef .tc b) = W6 m ρ c (Proc.devRef .tc b) := by
  rcases hb with rfl | rfl | rfl | rfl | rfl | rfl | rfl | rfl | rfl | rfl | rfl | rfl <;> host_keeps hostOps3

theorem host4 (c : Dev nD) (b : Ref sig .tc) (hb : b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12) :
    W9 m ρ c (Proc.devRef .tc b) = W8 m ρ c (Proc.devRef .tc b) := by
  rcases hb with rfl | rfl | rfl | rfl | rfl | rfl | rfl | rfl | rfl | rfl | rfl <;> host_keeps hostOps4

/-! ## One region back: a buffer that is no window's array -/

theorem region0 (c : Dev nD) (b : Ref sig .tc) (hb : b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12 ∨ b = main_v5 ∨ b = main_v6) :
    W2 m ρ c (Proc.devRef .tc b) = W1 m ρ c (Proc.devRef .tc b) := by
  rcases hb with rfl | rfl | rfl | rfl | rfl | rfl | rfl | rfl | rfl | rfl | rfl | rfl | rfl <;> exact W2_of_ne m ρ c _ (by decide)

theorem region1 (c : Dev nD) (b : Ref sig .tc) (hb : b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12 ∨ b = main_v5 ∨ b = main_v6) :
    W4 m ρ c (Proc.devRef .tc b) = W3 m ρ c (Proc.devRef .tc b) := by
  rcases hb with rfl | rfl | rfl | rfl | rfl | rfl | rfl | rfl | rfl | rfl | rfl | rfl | rfl <;> exact W4_of_ne m ρ c _ (by decide)

theorem region2 (c : Dev nD) (b : Ref sig .tc) (hb : b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12 ∨ b = main_v5 ∨ b = main_v6) :
    W6 m ρ c (Proc.devRef .tc b) = W5 m ρ c (Proc.devRef .tc b) := by
  rcases hb with rfl | rfl | rfl | rfl | rfl | rfl | rfl | rfl | rfl | rfl | rfl | rfl | rfl <;> exact W6_of_ne m ρ c _ (by decide)

theorem region3 (c : Dev nD) (b : Ref sig .tc) (hb : b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12) :
    W8 m ρ c (Proc.devRef .tc b) = W7 m ρ c (Proc.devRef .tc b) := by
  rcases hb with rfl | rfl | rfl | rfl | rfl | rfl | rfl | rfl | rfl | rfl | rfl <;> exact W8_of_ne m ρ c _ (by decide)

/-! ## One region back: an input window's array (the normalisation column) -/

theorem region0_col (c : Dev nD) : W2 m ρ c (Proc.devRef .tc main_v17) = W1 m ρ c (Proc.devRef .tc main_v17) :=
  (W2_arr m ρ c 2).trans (((dat0 (V1 m ρ) c).arrAt_in 2 rfl _).trans (A_eq0 (V1 m ρ) c 2))
theorem region1_col (c : Dev nD) : W4 m ρ c (Proc.devRef .tc main_v17) = W3 m ρ c (Proc.devRef .tc main_v17) :=
  (W4_arr m ρ c 1).trans (((dat1 (V3 m ρ) c).arrAt_in 1 rfl _).trans (A_eq1 (V3 m ρ) c 1))
theorem region2_col (c : Dev nD) : W6 m ρ c (Proc.devRef .tc main_v17) = W5 m ρ c (Proc.devRef .tc main_v17) :=
  (W6_arr m ρ c 1).trans (((dat2 (V5 m ρ) c).arrAt_in 1 rfl _).trans (A_eq2 (V5 m ρ) c 1))

end Cert.KernelIdeal.Keep

end
-- ==== Proof.LibSegmentSum.lean ====
/-
  A row scatter-add read at an index. A `stablehlo.scatter` with an `add` body whose scatter indices are one column
  `[E, 1]` of row numbers, whose updates are `E` rows of width `D` and whose operand has `M` rows of width `D`
  (what `jax.ops.segment_sum` of a rank-2 array lowers to) adds update row `e` onto operand row `idx e`: the element
  `(r, k)` of the result is the operand's plus the sum, over the update rows `e` whose index is `r`, of the update's
  element `(e, k)`. An index outside `[0, M)` names no row and its update row is dropped. The column `k` plays no part
  in which rows land, so a scatter of a wide update array restricted to some columns is the scatter of those columns.
-/
import Idealize.ShloMosaic.PureOps.Ideal
import Idealize.ShloMosaic.PureOps.Contract
import Idealize.ShloMosaic.Lib.ValueIdx

noncomputable section

open scoped BigOperators

namespace Cert.LibSegmentSum

open Idealize.ShloMosaic Idealize.ShloMosaic.ValueIdx

/-- The dimension numbers of a row scatter: update axis 1 is the window (operand axis 1), operand axis 0 is the
    inserted one and the one the single index component names, the index vector lies along axis 1 of the indices. -/
abbrev rowScatterDims (M D E : Nat)
    (wf : ScatterDims.WF (⟨2, ![M, D]⟩ : Shape) (⟨2, ![E, 1]⟩ : Shape) (⟨2, ![E, D]⟩ : Shape) [1] [0] [0] 1) :
    ScatterDims (⟨2, ![M, D]⟩ : Shape) (⟨2, ![E, 1]⟩ : Shape) (⟨2, ![E, D]⟩ : Shape) where
  updateWindowDims := [1]
  insertedWindowDims := [0]
  scatterDimsToOperandDims := [0]
  indexVectorDim := 1
  wf := wf

/-- On operand axis 0 the window starts at row `e`'s index word, read signed. -/
private theorem start_zero {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) :
    (rowScatterDims M D E wf).start (ix2 e k') idx 0 = (idx (ix2 e (0 : Fin 1))).toInt := by
  unfold ScatterDims.start
  rw [dif_pos (show (0 : Fin 2) ∈ (rowScatterDims M D E wf).scatterDimsToOperandDims from List.mem_singleton.mpr rfl)]
  have hsi : (rowScatterDims M D E wf).siIdx (ix2 e k') ⟨List.idxOf (0 : Fin 2) (rowScatterDims M D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axis 1 is not named by the index vector: the window starts at 0 there. -/
private theorem start_one {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (j : (⟨2, ![E, D]⟩ : Shape).Idx) :
    (rowScatterDims M D E wf).start j idx 1 = 0 := by
  unfold ScatterDims.start
  rw [dif_neg (show ¬ (1 : Fin 2) ∈ (rowScatterDims M D E wf).scatterDimsToOperandDims from (by decide : ¬ (1 : Fin 2) ∈ ([0] : List (Fin 2))))]

/-- Operand axis 0 is inserted: the window coordinate there is 0. -/
private theorem window_zero {M D E : Nat}
    (wf : ScatterDims.WF (⟨2, ![M, D]⟩ : Shape) (⟨2, ![E, 1]⟩ : Shape) (⟨2, ![E, D]⟩ : Shape) [1] [0] [0] 1)
    (j : (⟨2, ![E, D]⟩ : Shape).Idx) :
    (rowScatterDims M D E wf).window j 0 = 0 := by
  unfold ScatterDims.window
  rw [dif_neg (show ¬ (0 : Fin 2) ∈ (rowScatterDims M D E wf).sKept from (by decide : ¬ (0 : Fin 2) ∈ (List.finRange 2).filter (· ∉ [(0 : Fin 2)])))]

/-- On operand axis 1 the window coordinate is the update's column. -/
private theorem window_one {M D E : Nat}
    (wf : ScatterDims.WF (⟨2, ![M, D]⟩ : Shape) (⟨2, ![E, 1]⟩ : Shape) (⟨2, ![E, D]⟩ : Shape) [1] [0] [0] 1)
    (e : Fin E) (k' : Fin D) :
    (rowScatterDims M D E wf).window (ix2 e k') 1 = k'.val := by
  unfold ScatterDims.window
  rw [dif_pos (show (1 : Fin 2) ∈ (rowScatterDims M D E wf).sKept from (by decide : (1 : Fin 2) ∈ (List.finRange 2).filter (· ∉ [(0 : Fin 2)])))]
  rfl

/-- Update element `(e, k')` lands on operand element `(r, k)` exactly when row `e`'s index is `r` and the columns agree. -/
theorem resultIdx?_eq_some_iff {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) (r : Fin M) (k : Fin D) :
    (rowScatterDims M D E wf).resultIdx? (ix2 e k') idx = some (ix2 r k)
      ↔ (idx (ix2 e (0 : Fin 1))).toInt = (r.val : ℤ) ∧ k' = k := by
  have hs0 := start_zero wf idx e k'
  have hs1 := start_one wf idx (ix2 e k')
  have hw0 := window_zero wf (ix2 e k')
  have hw1 := window_one wf e k'
  have hr := r.isLt
  have hk := k.isLt
  have hk' := k'.isLt
  constructor
  · intro hres
    unfold ScatterDims.resultIdx? at hres
    split_ifs at hres with h
    rw [Option.some.injEq] at hres
    have e0 : ((rowScatterDims M D E wf).start (ix2 e k') idx 0 + (rowScatterDims M D E wf).window (ix2 e k') 0).toNat = r.val :=
      congrArg Fin.val (congrFun hres 0)
    have e1 : ((rowScatterDims M D E wf).start (ix2 e k') idx 1 + (rowScatterDims M D E wf).window (ix2 e k') 1).toNat = k.val :=
      congrArg Fin.val (congrFun hres 1)
    have h0 := (h 0).1
    rw [hs0, hw0] at e0 h0
    rw [hs1, hw1] at e1
    exact ⟨by omega, Fin.ext (by omega)⟩
  · rintro ⟨hidx, rfl⟩
    unfold ScatterDims.resultIdx?
    have h : ∀ a, 0 ≤ (rowScatterDims M D E wf).start (ix2 e k') idx a + (rowScatterDims M D E wf).window (ix2 e k') a
        ∧ (rowScatterDims M D E wf).start (ix2 e k') idx a + (rowScatterDims M D E wf).window (ix2 e k') a
          < (⟨2, ![M, D]⟩ : Shape).size a := by
      refine Fin.forall_fin_two.2 ⟨?_, ?_⟩
      · rw [hs0, hw0]
        show 0 ≤ _ ∧ _ < (M : ℤ)
        omega
      · rw [hs1, hw1]
        show 0 ≤ _ ∧ _ < (D : ℤ)
        omega
    rw [dif_pos h, Option.some.injEq]
    funext a
    refine Fin.ext ?_
    revert a
    refine Fin.forall_fin_two.2 ⟨?_, ?_⟩
    · show ((rowScatterDims M D E wf).start (ix2 e k') idx 0 + (rowScatterDims M D E wf).window (ix2 e k') 0).toNat = r.val
      rw [hs0, hw0]; omega
    · show ((rowScatterDims M D E wf).start (ix2 e k') idx 1 + (rowScatterDims M D E wf).window (ix2 e k') 1).toNat = k'.val
      rw [hs1, hw1]; omega

/-- THE ROW SCATTER-ADD AT `(r, k)`: the operand's element plus the update rows whose index is `r`, at column `k`. -/
theorem rowScatterAdd_apply {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal) (r : Fin M) (k : Fin D) :
    Ideal.hostScatterAdd (rowScatterDims M D E wf) x idx u (ix2 r k)
      = x (ix2 r k) + ∑ e : Fin E, if (idx (ix2 e (0 : Fin 1))).toInt = (r.val : ℤ) then u (ix2 e k) else 0 := by
  unfold Ideal.hostScatterAdd
  congr 1
  rw [Finset.sum_filter, sum_idx2]
  refine Finset.sum_congr rfl fun e _ => ?_
  simp only [resultIdx?_eq_some_iff]
  by_cases hi : (idx (ix2 e (0 : Fin 1))).toInt = (r.val : ℤ)
  · simp only [hi, true_and, if_true]
    rw [Finset.sum_ite_eq']
    simp
  · simp only [hi, false_and, if_false, Finset.sum_const_zero]

end Cert.LibSegmentSum

end
-- ==== Proof.LibScatterVec.lean ====
/-
  A vector scatter-add read at an index. A `stablehlo.scatter` with an `add` body whose operand is a vector of
  length `M`, whose scatter indices are one column `[E, 1]` of positions and whose updates are a vector of length `E`
  (a segment sum of a vector) adds update `e` onto the operand position that index word `e` names, the word read
  signed: position `r` of the result is the operand's plus the sum of the updates whose word reads `r`. A word outside
  `[0, M)` names no position and its update is dropped.
-/
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.LibScatterVec

open Idealize.ShloMosaic Idealize.ShloMosaic.ValueIdx

/-- The dimension numbers of a vector scatter: the updates have no window axis, the operand's one axis is inserted
    and is the axis the single index component names, the index vector lies along axis 1 of the indices. -/
abbrev vecScatterDims (M E : Nat)
    (wf : ScatterDims.WF (⟨1, ![M]⟩ : Shape) (⟨2, ![E, 1]⟩ : Shape) (⟨1, ![E]⟩ : Shape) [] [0] [0] 1) :
    ScatterDims (⟨1, ![M]⟩ : Shape) (⟨2, ![E, 1]⟩ : Shape) (⟨1, ![E]⟩ : Shape) where
  updateWindowDims := []
  insertedWindowDims := [0]
  scatterDimsToOperandDims := [0]
  indexVectorDim := 1
  wf := wf

/-- Update `e` reads its start index at row `e` of the index column. -/
private theorem siIdx_eq {M E : Nat}
    (wf : ScatterDims.WF (⟨1, ![M]⟩ : Shape) (⟨2, ![E, 1]⟩ : Shape) (⟨1, ![E]⟩ : Shape) [] [0] [0] 1)
    (e : Fin E) (c : Fin (vecScatterDims M E wf).scatterDimsToOperandDims.length) :
    (vecScatterDims M E wf).siIdx (ix1 e) c = ix2 e (0 : Fin 1) := by
  have hc : c.val = 0 := by have := c.isLt; simpa using this
  funext b
  refine Fin.ext ?_
  match b with
  | ⟨0, _⟩ => rfl
  | ⟨1, _⟩ => exact hc

/-- The window on the operand's axis starts at update `e`'s index word, read signed. -/
private theorem start_eq {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) :
    (vecScatterDims M E wf).start (ix1 e) idx 0 = (idx (ix2 e (0 : Fin 1))).toInt := by
  unfold ScatterDims.start
  rw [dif_pos (show (0 : Fin 1) ∈ (vecScatterDims M E wf).scatterDimsToOperandDims from List.mem_singleton.mpr rfl),
    siIdx_eq]

/-- The operand's axis is inserted: the window coordinate there is 0. -/
private theorem window_eq {M E : Nat}
    (wf : ScatterDims.WF (⟨1, ![M]⟩ : Shape) (⟨2, ![E, 1]⟩ : Shape) (⟨1, ![E]⟩ : Shape) [] [0] [0] 1)
    (j : (⟨1, ![E]⟩ : Shape).Idx) :
    (vecScatterDims M E wf).window j 0 = 0 := by
  unfold ScatterDims.window
  rw [dif_neg (show ¬ (0 : Fin 1) ∈ (vecScatterDims M E wf).sKept from
    (by decide : ¬ (0 : Fin 1) ∈ (List.finRange 1).filter (· ∉ [(0 : Fin 1)])))]

/-- Update `e` lands on operand position `r` exactly when its index word reads `r`. -/
theorem resultIdx?_eq_some_iff {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) (r : Fin M) :
    (vecScatterDims M E wf).resultIdx? (ix1 e) idx = some (ix1 r)
      ↔ (idx (ix2 e (0 : Fin 1))).toInt = (r.val : ℤ) := by
  have hs := start_eq wf idx e
  have hw := window_eq wf (ix1 e)
  have hr := r.isLt
  constructor
  · intro hres
    unfold ScatterDims.resultIdx? at hres
    split_ifs at hres with h
    rw [Option.some.injEq] at hres
    have e0 : ((vecScatterDims M E wf).start (ix1 e) idx 0 + (vecScatterDims M E wf).window (ix1 e) 0).toNat = r.val :=
      congrArg Fin.val (congrFun hres 0)
    have h0 := (h 0).1
    rw [hs, hw] at e0 h0
    omega
  · intro hidx
    unfold ScatterDims.resultIdx?
    have h : ∀ a, 0 ≤ (vecScatterDims M E wf).start (ix1 e) idx a + (vecScatterDims M E wf).window (ix1 e) a
        ∧ (vecScatterDims M E wf).start (ix1 e) idx a + (vecScatterDims M E wf).window (ix1 e) a
          < (⟨1, ![M]⟩ : Shape).size a := by
      refine Fin.forall_fin_one.2 ?_
      rw [hs, hw]
      show 0 ≤ _ ∧ _ < (M : ℤ)
      omega
    rw [dif_pos h, Option.some.injEq]
    funext a
    refine Fin.ext ?_
    revert a
    refine Fin.forall_fin_one.2 ?_
    show ((vecScatterDims M E wf).start (ix1 e) idx 0 + (vecScatterDims M E wf).window (ix1 e) 0).toNat = r.val
    rw [hs, hw]; omega

/-- THE VECTOR SCATTER-ADD AT `r`: the operand's element plus the updates whose index word reads `r`. -/
theorem vecScatterAdd_apply {M E w : Nat}
    (wf : ScatterDims.WF (⟨1, ![M]⟩ : Shape) (⟨2, ![E, 1]⟩ : Shape) (⟨1, ![E]⟩ : Shape) [] [0] [0] 1)
    (x : (⟨1, ![M]⟩ : Shape).Idx → EReal) (idx : IVec (⟨2, ![E, 1]⟩ : Shape) w)
    (u : (⟨1, ![E]⟩ : Shape).Idx → EReal) (r : Fin M) :
    Ideal.hostScatterAdd (vecScatterDims M E wf) x idx u (ix1 r)
      = x (ix1 r) + ∑ e : Fin E, if (idx (ix2 e (0 : Fin 1))).toInt = (r.val : ℤ) then u (ix1 e) else 0 := by
  unfold Ideal.hostScatterAdd
  congr 1
  rw [Finset.sum_filter]
  refine Fintype.sum_equiv idxEquiv1 _ _ fun j => ?_
  obtain ⟨e, rfl⟩ : ∃ e, j = ix1 e := ⟨j 0, eq_ix1 j⟩
  exact if_congr (resultIdx?_eq_some_iff wf idx e r) rfl rfl

end Cert.LibScatterVec

end
-- ==== Proof.KernelHost.lean ====
/-
  The host operations of the graph network's program between its five pipelined regions, read back as pure terms of
  the buffers they read, and those terms read at an index.

  Six stretches. Before the first region: the edge list's two rows, each with the self loops 0 … 49999 appended (the
  source ids s and destination ids d), the degree count of the wrapped destination ids as a scatter-add of ones
  onto zeros, its reciprocal square root as a column, and the first layer's weight matrix as a slice. Between the
  regions, three times the same: the aggregation (gather the rows of the previous region's output at the wrapped
  source ids, scatter-add them at the raw destination ids onto zeros), the layer's five parameter rows and the next
  weight matrix as slices. After the pooling region: the mean (sums over max(count, 1)) and the classifier's bias
  vectors as rows. After the last region: the scores as a flat vector.

  An index wrap is (x < 0 ? x + 50000 : x) on 32-bit words; a gather reads the row its (wrapped) word names, read
  signed and clamped into [0, 49999]; a scatter-add at row j sums the updates whose raw word reads exactly j.
-/
import proofs.«406701_j21981642621452_2_alg».proof.Proof.Gen.KernelIdeal.Frame
import proofs.«406701_j21981642621452_2_alg».proof.Proof.Spec
import proofs.«406701_j21981642621452_2_alg».proof.Proof.LibSegmentSum
import proofs.«406701_j21981642621452_2_alg».proof.Proof.LibScatterVec
import proofs.«406701_j21981642621452_2_alg».proof.Proof.LibGather
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.KernelIdeal.HandHost

open Cert.KernelIdeal Cert.KernelIdeal.Gen Idealize.ShloMosaic Idealize.ShloMosaic.ValueIdx Idealize.ShloMosaic.StableHlo

/-! ## The terms -/

/-- An array of 32-bit words, and of floats, of a literal shape. -/
abbrev IArr (s : Shape) := IVec s 32
abbrev FArr (s : Shape) := FVec Ideal s .f32

/-- Row 0 and row 1 of the edge list, flat. -/
def edgeRow0 (x1 : IArr S2x800000) : IArr S800000 :=
  shapeCast S800000 (extractStridedSlice S1x800000 ![0, 0] x1 slices_S2x800000_S1x800000_0_0) shapeCasts_S1x800000_S800000
def edgeRow1 (x1 : IArr S2x800000) : IArr S800000 :=
  shapeCast S800000 (extractStridedSlice S1x800000 ![1, 0] x1 slices_S2x800000_S1x800000_1_0) shapeCasts_S1x800000_S800000

/-- A row of the edge list with the self loops 0, 1, …, 49999 appended. -/
def withLoops (a : IArr S800000) : IArr S850000 :=
  concatenate S850000 0 [⟨S800000, a⟩, ⟨S50000, iotaInDim S50000 32 0⟩] concatenates_S800000_S50000_S850000_d0

/-- The source and the destination id of every edge. -/
def srcIds (x1 : IArr S2x800000) : IArr S850000 := withLoops (edgeRow0 x1)
def dstIds (x1 : IArr S2x800000) : IArr S850000 := withLoops (edgeRow1 x1)

/-- The index wrap of every id: x < 0 ? x + 50000 : x. -/
def wrapIds (v : IArr S850000) : IArr S850000 :=
  select (cmpi .slt v (broadcastInDim S850000 ![] bcast_S_S850000 (constantI S_ 32 0#32)))
    (addi v (broadcastInDim S850000 ![] bcast_S_S850000 (constantI S_ 32 50000#32))) v

/-- Ids as one column of row numbers. -/
def asColumn (v : IArr S850000) : IArr S850000x1 := broadcastInDim S850000x1 ![0] bcast_S850000_S850000x1_0 v

/-- The degree count: ones scattered onto zeros at the wrapped destination ids. -/
def degVec (d : IArr S850000) : FArr S50000 :=
  Host.scatterAdd scatter_S50000_S850000x1_S850000_n_0_0_1
    (broadcastInDim S50000 ![] bcast_S_S50000 (constant (F := Ideal) S_ .f32 0x00000000#32))
    (asColumn (wrapIds d))
    (broadcastInDim S850000 ![] bcast_S_S850000 (constant (F := Ideal) S_ .f32 0x3F800000#32))

/-- The normalisation deg ^ (-1/2) as a column. -/
def dinvCol (d : IArr S850000) : FArr S50000x1 :=
  shapeCast S50000x1 (Host.rsqrt (F := Ideal) (degVec d)) shapeCasts_S50000_S50000x1

/-- The three layers' weight matrices. -/
def weight0 (x3 : FArr S3x128x128) : FArr S128x128 :=
  shapeCast S128x128 (extractStridedSlice S1x128x128 ![0, 0, 0] x3 slices_S3x128x128_S1x128x128_0_0_0) shapeCasts_S1x128x128_S128x128
def weight1 (x3 : FArr S3x128x128) : FArr S128x128 :=
  shapeCast S128x128 (extractStridedSlice S1x128x128 ![1, 0, 0] x3 slices_S3x128x128_S1x128x128_1_0_0) shapeCasts_S1x128x128_S128x128
def weight2 (x3 : FArr S3x128x128) : FArr S128x128 :=
  shapeCast S128x128 (extractStridedSlice S1x128x128 ![2, 0, 0] x3 slices_S3x128x128_S1x128x128_2_0_0) shapeCasts_S1x128x128_S128x128

/-- Row 0, 1, 2 of a per-layer parameter table, as a [1, 128] row. -/
def paramRow0 (x : FArr S3x128) : FArr S1x128 :=
  shapeCast S1x128 (shapeCast S128 (extractStridedSlice S1x128 ![0, 0] x slices_S3x128_S1x128_0_0) shapeCasts_S1x128_S128) shapeCasts_S128_S1x128
def paramRow1 (x : FArr S3x128) : FArr S1x128 :=
  shapeCast S1x128 (shapeCast S128 (extractStridedSlice S1x128 ![1, 0] x slices_S3x128_S1x128_1_0) shapeCasts_S1x128_S128) shapeCasts_S128_S1x128
def paramRow2 (x : FArr S3x128) : FArr S1x128 :=
  shapeCast S1x128 (shapeCast S128 (extractStridedSlice S1x128 ![2, 0] x slices_S3x128_S1x128_2_0) shapeCasts_S1x128_S128) shapeCasts_S128_S1x128

/-- The aggregation: the rows of xs gathered at the wrapped source ids, scatter-added at the raw destination ids
    onto zeros. -/
def aggregate (s d : IArr S850000) (xs : FArr S50000x128) : FArr S50000x128 :=
  Host.scatterAdd scatter_S50000x128_S850000x1_S850000x128_1_0_0_1
    (broadcastInDim S50000x128 ![] bcast_S_S50000x128 (constant (F := Ideal) S_ .f32 0x00000000#32))
    (asColumn d)
    (Host.gather gather_S50000x128_S850000x1_S850000x128_1_0_n_n_0_1_1128 xs (asColumn (wrapIds s)))

/-- The graph id of every node as a column. -/
def batchCol (x2 : IArr S50000) : IArr S50000x1 := shapeCast S50000x1 x2 shapeCasts_S50000_S50000x1

/-- The mean pool: the sums over max(count, 1), the count row read as a column and broadcast along the features. -/
def meanPool (sums : FArr S1024x128) (cnt : FArr S1x1024) : FArr S1024x128 :=
  Host.divf (F := Ideal) sums
    (broadcastInDim S1024x128 ![0, 1] bcast_S1024x1_S1024x128_0_1
      (maximumf (shapeCast S1024x1 cnt shapeCasts_S1x1024_S1024x1)
        (broadcastInDim S1024x1 ![] bcast_S_S1024x1 (constant (F := Ideal) S_ .f32 0x3F800000#32))))

/-- The classifier's hidden bias as a row, its output bias as a [1, 1] array, the scores as a flat vector. -/
def biasRow (x10 : FArr S64) : FArr S1x64 := shapeCast S1x64 x10 shapeCasts_S64_S1x64
def biasOne (x12 : FArr S1) : FArr S1x1 := shapeCast S1x1 x12 shapeCasts_S1_S1x1
def flatScores (y : FArr S1024x1) : FArr S1024 := shapeCast S1024 y shapeCasts_S1024x1_S1024

/-! ## Each stretch's buffers as those terms, from any contents Wp at the stretch's entry -/

section Terms
variable (Wp : Valuation τ sig (Elt Ideal))

/-! ### Before region 0 -/

theorem after0_v5 :
    (StableHlo.after (hostOps0 (F := Ideal)) Wp (Proc.devRef .tc main_v5) : IArr S850000)
      = srcIds (Wp (Proc.devRef .tc main_arg1)) := by
  show StableHlo.after hostOps0 Wp (Proc.devRef .tc main_v5) = _
  after_results_simp; rfl

theorem after0_v6 :
    (StableHlo.after (hostOps0 (F := Ideal)) Wp (Proc.devRef .tc main_v6) : IArr S850000)
      = dstIds (Wp (Proc.devRef .tc main_arg1)) := by
  show StableHlo.after hostOps0 Wp (Proc.devRef .tc main_v6) = _
  after_results_simp; rfl

theorem after0_v17 :
    (StableHlo.after (hostOps0 (F := Ideal)) Wp (Proc.devRef .tc main_v17) : FArr S50000x1)
      = dinvCol (dstIds (Wp (Proc.devRef .tc main_arg1))) := by
  show StableHlo.after hostOps0 Wp (Proc.devRef .tc main_v17) = _
  after_results_simp; rfl

theorem after0_v19 :
    (StableHlo.after (hostOps0 (F := Ideal)) Wp (Proc.devRef .tc main_v19) : FArr S128x128)
      = weight0 (Wp (Proc.devRef .tc main_arg3)) := by
  show StableHlo.after hostOps0 Wp (Proc.devRef .tc main_v19) = _
  after_results_simp; rfl

/-! ### Between regions 0 and 1 -/

theorem after1_v30 :
    (StableHlo.after (hostOps1 (F := Ideal)) Wp (Proc.devRef .tc main_v30) : FArr S50000x128)
      = aggregate (Wp (Proc.devRef .tc main_v5)) (Wp (Proc.devRef .tc main_v6)) (Wp (Proc.devRef .tc main_v20)) := by
  show StableHlo.after hostOps1 Wp (Proc.devRef .tc main_v30) = _
  after_results_simp; rfl

theorem after1_v42 :
    (StableHlo.after (hostOps1 (F := Ideal)) Wp (Proc.devRef .tc main_v42) : FArr S128x128)
      = weight1 (Wp (Proc.devRef .tc main_arg3)) := by
  show StableHlo.after hostOps1 Wp (Proc.devRef .tc main_v42) = _
  after_results_simp; rfl

theorem after1_v43 :
    (StableHlo.after (hostOps1 (F := Ideal)) Wp (Proc.devRef .tc main_v43) : FArr S1x128)
      = paramRow0 (Wp (Proc.devRef .tc main_arg4)) := by
  show StableHlo.after hostOps1 Wp (Proc.devRef .tc main_v43) = _
  after_results_simp; rfl

theorem after1_v44 :
    (StableHlo.after (hostOps1 (F := Ideal)) Wp (Proc.devRef .tc main_v44) : FArr S1x128)
      = paramRow0 (Wp (Proc.devRef .tc main_arg5)) := by
  show StableHlo.after hostOps1 Wp (Proc.devRef .tc main_v44) = _
  after_results_simp; rfl

theorem after1_v45 :
    (StableHlo.after (hostOps1 (F := Ideal)) Wp (Proc.devRef .tc main_v45) : FArr S1x128)
      = paramRow0 (Wp (Proc.devRef .tc main_arg6)) := by
  show StableHlo.after hostOps1 Wp (Proc.devRef .tc main_v45) = _
  after_results_simp; rfl

theorem after1_v46 :
    (StableHlo.after (hostOps1 (F := Ideal)) Wp (Proc.devRef .tc main_v46) : FArr S1x128)
      = paramRow0 (Wp (Proc.devRef .tc main_arg7)) := by
  show StableHlo.after hostOps1 Wp (Proc.devRef .tc main_v46) = _
  after_results_simp; rfl

theorem after1_v47 :
    (StableHlo.after (hostOps1 (F := Ideal)) Wp (Proc.devRef .tc main_v47) : FArr S1x128)
      = paramRow0 (Wp (Proc.devRef .tc main_arg8)) := by
  show StableHlo.after hostOps1 Wp (Proc.devRef .tc main_v47) = _
  after_results_simp; rfl

/-! ### Between regions 1 and 2 -/

theorem after2_v58 :
    (StableHlo.after (hostOps2 (F := Ideal)) Wp (Proc.devRef .tc main_v58) : FArr S50000x128)
      = aggregate (Wp (Proc.devRef .tc main_v5)) (Wp (Proc.devRef .tc main_v6)) (Wp (Proc.devRef .tc main_v48)) := by
  show StableHlo.after hostOps2 Wp (Proc.devRef .tc main_v58) = _
  after_results_simp; rfl

theorem after2_v70 :
    (StableHlo.after (hostOps2 (F := Ideal)) Wp (Proc.devRef .tc main_v70) : FArr S128x128)
      = weight2 (Wp (Proc.devRef .tc main_arg3)) := by
  show StableHlo.after hostOps2 Wp (Proc.devRef .tc main_v70) = _
  after_results_simp; rfl

theorem after2_v71 :
    (StableHlo.after (hostOps2 (F := Ideal)) Wp (Proc.devRef .tc main_v71) : FArr S1x128)
      = paramRow1 (Wp (Proc.devRef .tc main_arg4)) := by
  show StableHlo.after hostOps2 Wp (Proc.devRef .tc main_v71) = _
  after_results_simp; rfl

theorem after2_v72 :
    (StableHlo.after (hostOps2 (F := Ideal)) Wp (Proc.devRef .tc main_v72) : FArr S1x128)
      = paramRow1 (Wp (Proc.devRef .tc main_arg5)) := by
  show StableHlo.after hostOps2 Wp (Proc.devRef .tc main_v72) = _
  after_results_simp; rfl

theorem after2_v73 :
    (StableHlo.after (hostOps2 (F := Ideal)) Wp (Proc.devRef .tc main_v73) : FArr S1x128)
      = paramRow1 (Wp (Proc.devRef .tc main_arg6)) := by
  show StableHlo.after hostOps2 Wp (Proc.devRef .tc main_v73) = _
  after_results_simp; rfl

theorem after2_v74 :
    (StableHlo.after (hostOps2 (F := Ideal)) Wp (Proc.devRef .tc main_v74) : FArr S1x128)
      = paramRow1 (Wp (Proc.devRef .tc main_arg7)) := by
  show StableHlo.after hostOps2 Wp (Proc.devRef .tc main_v74) = _
  after_results_simp; rfl

theorem after2_v75 :
    (StableHlo.after (hostOps2 (F := Ideal)) Wp (Proc.devRef .tc main_v75) : FArr S1x128)
      = paramRow1 (Wp (Proc.devRef .tc main_arg8)) := by
  show StableHlo.after hostOps2 Wp (Proc.devRef .tc main_v75) = _
  after_results_simp; rfl

/-! ### Between regions 2 and 3 -/

theorem after3_v86 :
    (StableHlo.after (hostOps3 (F := Ideal)) Wp (Proc.devRef .tc main_v86) : FArr S50000x128)
      = aggregate (Wp (Proc.devRef .tc main_v5)) (Wp (Proc.devRef .tc main_v6)) (Wp (Proc.devRef .tc main_v76)) := by
  show StableHlo.after hostOps3 Wp (Proc.devRef .tc main_v86) = _
  after_results_simp; rfl

theorem after3_v97 :
    (StableHlo.after (hostOps3 (F := Ideal)) Wp (Proc.devRef .tc main_v97) : FArr S1x128)
      = paramRow2 (Wp (Proc.devRef .tc main_arg4)) := by
  show StableHlo.after hostOps3 Wp (Proc.devRef .tc main_v97) = _
  after_results_simp; rfl

theorem after3_v98 :
    (StableHlo.after (hostOps3 (F := Ideal)) Wp (Proc.devRef .tc main_v98) : FArr S1x128)
      = paramRow2 (Wp (Proc.devRef .tc main_arg5)) := by
  show StableHlo.after hostOps3 Wp (Proc.devRef .tc main_v98) = _
  after_results_simp; rfl

theorem after3_v99 :
    (StableHlo.after (hostOps3 (F := Ideal)) Wp (Proc.devRef .tc main_v99) : FArr S1x128)
      = paramRow2 (Wp (Proc.devRef .tc main_arg6)) := by
  show StableHlo.after hostOps3 Wp (Proc.devRef .tc main_v99) = _
  after_results_simp; rfl

theorem after3_v100 :
    (StableHlo.after (hostOps3 (F := Ideal)) Wp (Proc.devRef .tc main_v100) : FArr S1x128)
      = paramRow2 (Wp (Proc.devRef .tc main_arg7)) := by
  show StableHlo.after hostOps3 Wp (Proc.devRef .tc main_v100) = _
  after_results_simp; rfl

theorem after3_v101 :
    (StableHlo.after (hostOps3 (F := Ideal)) Wp (Proc.devRef .tc main_v101) : FArr S1x128)
      = paramRow2 (Wp (Proc.devRef .tc main_arg8)) := by
  show StableHlo.after hostOps3 Wp (Proc.devRef .tc main_v101) = _
  after_results_simp; rfl

theorem after3_v102 :
    (StableHlo.after (hostOps3 (F := Ideal)) Wp (Proc.devRef .tc main_v102) : IArr S50000x1)
      = batchCol (Wp (Proc.devRef .tc main_arg2)) := by
  show StableHlo.after hostOps3 Wp (Proc.devRef .tc main_v102) = _
  after_results_simp; rfl

/-! ### Between regions 3 and 4 -/

theorem after4_v108 :
    (StableHlo.after (hostOps4 (F := Ideal)) Wp (Proc.devRef .tc main_v108) : FArr S1024x128)
      = meanPool (Wp (Proc.devRef .tc main_v103_0)) (Wp (Proc.devRef .tc main_v103_1)) := by
  show StableHlo.after hostOps4 Wp (Proc.devRef .tc main_v108) = _
  after_results_simp; rfl

theorem after4_v109 :
    (StableHlo.after (hostOps4 (F := Ideal)) Wp (Proc.devRef .tc main_v109) : FArr S1x64)
      = biasRow (Wp (Proc.devRef .tc main_arg10)) := by
  show StableHlo.after hostOps4 Wp (Proc.devRef .tc main_v109) = _
  after_results_simp; rfl

theorem after4_v110 :
    (StableHlo.after (hostOps4 (F := Ideal)) Wp (Proc.devRef .tc main_v110) : FArr S1x1)
      = biasOne (Wp (Proc.devRef .tc main_arg12)) := by
  show StableHlo.after hostOps4 Wp (Proc.devRef .tc main_v110) = _
  after_results_simp; rfl

/-! ### After region 4 -/

theorem after5_v112 :
    (StableHlo.after (hostOps5 (F := Ideal)) Wp (Proc.devRef .tc main_v112) : FArr S1024)
      = flatScores (Wp (Proc.devRef .tc main_v111)) := by
  show StableHlo.after hostOps5 Wp (Proc.devRef .tc main_v112) = _
  after_results_simp; rfl

end Terms

/-! ## The terms at an index -/

section AtIndex

/-- The index wrap on one word. -/
def wrapWord (w : BitVec 32) : BitVec 32 := Scalar.select (IntOp.cmpi .slt w 0#32) (IntOp.addi w 50000#32) w

/-- A word that reads a row number is not negative, so the wrap leaves it alone. -/
theorem wrapWord_toInt (w : BitVec 32) (j : Fin 50000) (h : w.toInt = (j.val : ℤ)) : (wrapWord w).toInt = (j.val : ℤ) := by
  have h0 : 0 ≤ w.toInt := by omega
  unfold wrapWord
  rw [Cert.LibGather.wrap_nonneg w h0]
  exact h

theorem wrapIds_apply (v : IArr S850000) (e : Fin 850000) : wrapIds v (ix1 e) = wrapWord (v (ix1 e)) := by
  unfold wrapIds wrapWord
  rw [select_apply]
  show Scalar.select (IntOp.cmpi .slt (v (ix1 e)) (broadcastInDim S850000 ![] bcast_S_S850000 (constantI S_ 32 0#32) (ix1 e)))
      (IntOp.addi (v (ix1 e)) (broadcastInDim S850000 ![] bcast_S_S850000 (constantI S_ 32 50000#32) (ix1 e))) (v (ix1 e)) = _
  rw [broadcastInDim_scalar_apply, broadcastInDim_scalar_apply]
  rfl

theorem asColumn_apply (v : IArr S850000) (e : Fin 850000) : asColumn v (ix2 e (0 : Fin 1)) = v (ix1 e) := by
  unfold asColumn
  exact broadcastInDim_apply _ bcast_S850000_S850000x1_0 v (ix2 e (0 : Fin 1)) (ix1 e) (fun a => match a with
    | ⟨0, _⟩ => by show e.val = if (850000 : Nat) = 1 then 0 else e.val; rw [if_neg (by decide)])

/-- The vector scatter-add of this program at position n, over any operand, index column and updates. -/
theorem scatterVec_read (x : FArr S50000) (I : IArr S850000x1) (U : FArr S850000) (n : Fin 50000) :
    Host.scatterAdd scatter_S50000_S850000x1_S850000_n_0_0_1 x I U (ix1 n)
      = x (ix1 n) + ∑ e : Fin 850000, if (I (ix2 e (0 : Fin 1))).toInt = (n.val : ℤ) then U (ix1 e) else 0 := by
  have hrec : scatter_S50000_S850000x1_S850000_n_0_0_1
      = Cert.LibScatterVec.vecScatterDims 50000 850000 scatter_S50000_S850000x1_S850000_n_0_0_1_wf := rfl
  rw [hrec]
  unfold Host.scatterAdd
  rw [Ideal.hostScatterAdd_def]
  exact Cert.LibScatterVec.vecScatterAdd_apply scatter_S50000_S850000x1_S850000_n_0_0_1_wf x I U n

/-- The degree count at node n: zero plus a one for every edge whose wrapped destination word reads n. -/
theorem degVec_apply (d : IArr S850000) (n : Fin 50000) :
    degVec d (ix1 n) = Cert.Spec.deg (fun e => wrapWord (d (ix1 e))) n := by
  have h0 : broadcastInDim S50000 ![] bcast_S_S50000 (constant (F := Ideal) S_ .f32 0x00000000#32) (ix1 n) = Cert.Spec.Z0 := by
    rw [broadcastInDim_scalar_apply]; rfl
  have h1 : ∀ e : Fin 850000,
      broadcastInDim S850000 ![] bcast_S_S850000 (constant (F := Ideal) S_ .f32 0x3F800000#32) (ix1 e) = Cert.Spec.ONE := fun e => by
    rw [broadcastInDim_scalar_apply]; rfl
  unfold degVec Cert.Spec.deg
  rw [scatterVec_read, h0]
  simp only [asColumn_apply, wrapIds_apply, h1]

/-- The host's reciprocal square root at an index is the extended reals' of the element. -/
theorem hostRsqrt_apply {s : Shape} (x : FVec Ideal s .f32) (i : s.Idx) : Host.rsqrt x i = Ideal.rsqrt (x i) := rfl

/-- The normalisation column at node n. -/
theorem dinvCol_apply (d : IArr S850000) (n : Fin 50000) :
    dinvCol d (ix2 n (0 : Fin 1)) = Cert.Spec.dinv (fun e => wrapWord (d (ix1 e))) n := by
  have hk : (S50000.rowMajor (ix1 n)).val = (S50000x1.rowMajor (ix2 n (0 : Fin 1))).val := by
    rewrite [Shape.rowMajor_val_one, Shape.rowMajor_val_two]; show n.val = n.val * 1 + 0; omega
  unfold dinvCol Cert.Spec.dinv
  rw [shapeCast_apply (Host.rsqrt (F := Ideal) (degVec d)) shapeCasts_S50000_S50000x1 (ix2 n (0 : Fin 1)) (ix1 n) hk,
    hostRsqrt_apply, degVec_apply]

/-- The row scatter-add of this program at (j, h), over any operand, index column and update rows. -/
theorem scatterRows_read (x : FArr S50000x128) (I : IArr S850000x1) (U : FArr S850000x128) (j : Fin 50000) (h : Fin 128) :
    Host.scatterAdd scatter_S50000x128_S850000x1_S850000x128_1_0_0_1 x I U (ix2 j h)
      = x (ix2 j h) + ∑ e : Fin 850000, if (I (ix2 e (0 : Fin 1))).toInt = (j.val : ℤ) then U (ix2 e h) else 0 := by
  have hrec : scatter_S50000x128_S850000x1_S850000x128_1_0_0_1
      = Cert.LibSegmentSum.rowScatterDims 50000 128 850000 scatter_S50000x128_S850000x1_S850000x128_1_0_0_1_wf := rfl
  rw [hrec]
  unfold Host.scatterAdd
  rw [Ideal.hostScatterAdd_def]
  exact Cert.LibSegmentSum.rowScatterAdd_apply scatter_S50000x128_S850000x1_S850000x128_1_0_0_1_wf x I U j h

/-- The row gather of this program at (e, k): column k of the row that index word e names, read signed and clamped. -/
theorem gatherRows_read (x : FArr S50000x128) (I : IArr S850000x1) (e : Fin 850000) (k : Fin 128) :
    Host.gather gather_S50000x128_S850000x1_S850000x128_1_0_n_n_0_1_1128 x I (ix2 e k)
      = x (ix2 (Cert.Spec.cr (I (ix2 e (0 : Fin 1)))) k) := by
  have hgat : gather_S50000x128_S850000x1_S850000x128_1_0_n_n_0_1_1128
      = Cert.LibGather.rowGatherDims 50000 128 850000 gather_S50000x128_S850000x1_S850000x128_1_0_n_n_0_1_1128_wf := rfl
  rw [hgat, Cert.LibGather.rowGather_apply (by decide)]
  rfl

/-- The aggregation at node j, feature h: zero plus, for every edge whose raw destination word reads j, feature h of
    the row its wrapped source word names (read signed, clamped into the table). -/
theorem aggregate_apply (s d : IArr S850000) (xs : FArr S50000x128) (j : Fin 50000) (h : Fin 128) :
    aggregate s d xs (ix2 j h)
      = Cert.Spec.aggK (fun e => wrapWord (s (ix1 e))) (fun e => d (ix1 e)) (fun n k => xs (ix2 n k)) j h := by
  have h0 : broadcastInDim S50000x128 ![] bcast_S_S50000x128 (constant (F := Ideal) S_ .f32 0x00000000#32) (ix2 j h) = Cert.Spec.Z0 := by
    rw [broadcastInDim_scalar_apply]; rfl
  unfold aggregate Cert.Spec.aggK
  rw [scatterRows_read, h0]
  simp only [asColumn_apply, gatherRows_read, wrapIds_apply]

theorem wrapWord_of_nonneg (w : BitVec 32) (hw : 0 ≤ w.toInt) : wrapWord w = w :=
  Cert.LibGather.wrap_nonneg w hw

/-- A layer's weight matrix is its slab of the stacked weights. -/
theorem weight0_apply (W : FArr S3x128x128) (k h : Fin 128) : weight0 W (ix2 k h) = W (ix3 (0 : Fin 3) k h) := by
  unfold weight0
  refine (shapeCast_apply _ shapeCasts_S1x128x128_S128x128 (ix2 k h) (ix3 (0 : Fin 1) k h) ?_).trans ?_
  · rewrite [Shape.rowMajor_val_three, Shape.rowMajor_val_two]
    show (0 * 128 + k.val) * 128 + h.val = k.val * 128 + h.val
    omega
  · exact extractStridedSlice_apply ![0, 0, 0] W slices_S3x128x128_S1x128x128_0_0_0 (ix3 (0 : Fin 1) k h) (ix3 (0 : Fin 3) k h)
      (fun a => match a with
        | ⟨0, _⟩ => by show 0 = 0 + 0; omega
        | ⟨1, _⟩ => by show k.val = 0 + k.val; omega
        | ⟨2, _⟩ => by show h.val = 0 + h.val; omega)

theorem weight1_apply (W : FArr S3x128x128) (k h : Fin 128) : weight1 W (ix2 k h) = W (ix3 (1 : Fin 3) k h) := by
  unfold weight1
  refine (shapeCast_apply _ shapeCasts_S1x128x128_S128x128 (ix2 k h) (ix3 (0 : Fin 1) k h) ?_).trans ?_
  · rewrite [Shape.rowMajor_val_three, Shape.rowMajor_val_two]
    show (0 * 128 + k.val) * 128 + h.val = k.val * 128 + h.val
    omega
  · exact extractStridedSlice_apply ![1, 0, 0] W slices_S3x128x128_S1x128x128_1_0_0 (ix3 (0 : Fin 1) k h) (ix3 (1 : Fin 3) k h)
      (fun a => match a with
        | ⟨0, _⟩ => by show 1 = 1 + 0; omega
        | ⟨1, _⟩ => by show k.val = 0 + k.val; omega
        | ⟨2, _⟩ => by show h.val = 0 + h.val; omega)

theorem weight2_apply (W : FArr S3x128x128) (k h : Fin 128) : weight2 W (ix2 k h) = W (ix3 (2 : Fin 3) k h) := by
  unfold weight2
  refine (shapeCast_apply _ shapeCasts_S1x128x128_S128x128 (ix2 k h) (ix3 (0 : Fin 1) k h) ?_).trans ?_
  · rewrite [Shape.rowMajor_val_three, Shape.rowMajor_val_two]
    show (0 * 128 + k.val) * 128 + h.val = k.val * 128 + h.val
    omega
  · exact extractStridedSlice_apply ![2, 0, 0] W slices_S3x128x128_S1x128x128_2_0_0 (ix3 (0 : Fin 1) k h) (ix3 (2 : Fin 3) k h)
      (fun a => match a with
        | ⟨0, _⟩ => by show 2 = 2 + 0; omega
        | ⟨1, _⟩ => by show k.val = 0 + k.val; omega
        | ⟨2, _⟩ => by show h.val = 0 + h.val; omega)

/-- A layer's parameter row is its row of the parameter table. -/
theorem paramRow0_apply (P : FArr S3x128) (k : Fin 128) : paramRow0 P (ix2 (0 : Fin 1) k) = P (ix2 (0 : Fin 3) k) := by
  unfold paramRow0
  refine (shapeCast_apply _ shapeCasts_S128_S1x128 (ix2 (0 : Fin 1) k) (ix1 k) ?_).trans ?_
  · rewrite [Shape.rowMajor_val_one, Shape.rowMajor_val_two]; show k.val = 0 * 128 + k.val; omega
  refine (shapeCast_apply _ shapeCasts_S1x128_S128 (ix1 k) (ix2 (0 : Fin 1) k) ?_).trans ?_
  · rewrite [Shape.rowMajor_val_two, Shape.rowMajor_val_one]; show 0 * 128 + k.val = k.val; omega
  · exact extractStridedSlice_apply ![0, 0] P slices_S3x128_S1x128_0_0 (ix2 (0 : Fin 1) k) (ix2 (0 : Fin 3) k)
      (fun a => match a with
        | ⟨0, _⟩ => by show 0 = 0 + 0; omega
        | ⟨1, _⟩ => by show k.val = 0 + k.val; omega)

theorem paramRow1_apply (P : FArr S3x128) (k : Fin 128) : paramRow1 P (ix2 (0 : Fin 1) k) = P (ix2 (1 : Fin 3) k) := by
  unfold paramRow1
  refine (shapeCast_apply _ shapeCasts_S128_S1x128 (ix2 (0 : Fin 1) k) (ix1 k) ?_).trans ?_
  · rewrite [Shape.rowMajor_val_one, Shape.rowMajor_val_two]; show k.val = 0 * 128 + k.val; omega
  refine (shapeCast_apply _ shapeCasts_S1x128_S128 (ix1 k) (ix2 (0 : Fin 1) k) ?_).trans ?_
  · rewrite [Shape.rowMajor_val_two, Shape.rowMajor_val_one]; show 0 * 128 + k.val = k.val; omega
  · exact extractStridedSlice_apply ![1, 0] P slices_S3x128_S1x128_1_0 (ix2 (0 : Fin 1) k) (ix2 (1 : Fin 3) k)
      (fun a => match a with
        | ⟨0, _⟩ => by show 1 = 1 + 0; omega
        | ⟨1, _⟩ => by show k.val = 0 + k.val; omega)

theorem paramRow2_apply (P : FArr S3x128) (k : Fin 128) : paramRow2 P (ix2 (0 : Fin 1) k) = P (ix2 (2 : Fin 3) k) := by
  unfold paramRow2
  refine (shapeCast_apply _ shapeCasts_S128_S1x128 (ix2 (0 : Fin 1) k) (ix1 k) ?_).trans ?_
  · rewrite [Shape.rowMajor_val_one, Shape.rowMajor_val_two]; show k.val = 0 * 128 + k.val; omega
  refine (shapeCast_apply _ shapeCasts_S1x128_S128 (ix1 k) (ix2 (0 : Fin 1) k) ?_).trans ?_
  · rewrite [Shape.rowMajor_val_two, Shape.rowMajor_val_one]; show 0 * 128 + k.val = k.val; omega
  · exact extractStridedSlice_apply ![2, 0] P slices_S3x128_S1x128_2_0 (ix2 (0 : Fin 1) k) (ix2 (2 : Fin 3) k)
      (fun a => match a with
        | ⟨0, _⟩ => by show 2 = 2 + 0; omega
        | ⟨1, _⟩ => by show k.val = 0 + k.val; omega)

theorem batchCol_apply (B : IArr S50000) (n : Fin 50000) : batchCol B (ix2 n (0 : Fin 1)) = B (ix1 n) := by
  unfold batchCol
  refine shapeCast_apply B shapeCasts_S50000_S50000x1 (ix2 n (0 : Fin 1)) (ix1 n) ?_
  rewrite [Shape.rowMajor_val_one, Shape.rowMajor_val_two]; show n.val = n.val * 1 + 0; omega

/-- The mean at graph g, feature h: the sum over the count clamped below by one. -/
theorem meanPool_apply (S : FArr S1024x128) (C : FArr S1x1024) (g : Fin 1024) (h : Fin 128) :
    meanPool S C (ix2 g h) = Ideal.div (S (ix2 g h)) (max (C (ix2 (0 : Fin 1) g)) Cert.Spec.ONE) := by
  unfold meanPool
  rw [hostDivf_apply]
  refine congrArg (Ideal.div (S (ix2 g h))) ?_
  refine (broadcastInDim_apply _ bcast_S1024x1_S1024x128_0_1 _ (ix2 g h) (ix2 g (0 : Fin 1)) (fun a => match a with
    | ⟨0, _⟩ => by show g.val = if (1024 : Nat) = 1 then 0 else g.val; rw [if_neg (by decide)]
    | ⟨1, _⟩ => by show 0 = if (1 : Nat) = 1 then 0 else h.val; rw [if_pos rfl])).trans ?_
  rw [maximumf_apply]
  refine congrArg₂ max ?_ ?_
  · refine shapeCast_apply C shapeCasts_S1x1024_S1024x1 (ix2 g (0 : Fin 1)) (ix2 (0 : Fin 1) g) ?_
    rewrite [Shape.rowMajor_val_two, Shape.rowMajor_val_two]; show 0 * 1024 + g.val = g.val * 1 + 0; omega
  · rw [broadcastInDim_scalar_apply]; rfl

theorem biasRow_apply (b : FArr S64) (j : Fin 64) : biasRow b (ix2 (0 : Fin 1) j) = b (ix1 j) := by
  unfold biasRow
  refine shapeCast_apply b shapeCasts_S64_S1x64 (ix2 (0 : Fin 1) j) (ix1 j) ?_
  rewrite [Shape.rowMajor_val_one, Shape.rowMajor_val_two]; show j.val = 0 * 64 + j.val; omega

theorem biasOne_apply (b : FArr S1) : biasOne b (ix2 (0 : Fin 1) (0 : Fin 1)) = b (ix1 (0 : Fin 1)) := by
  unfold biasOne
  refine shapeCast_apply b shapeCasts_S1_S1x1 (ix2 (0 : Fin 1) (0 : Fin 1)) (ix1 (0 : Fin 1)) ?_
  rewrite [Shape.rowMajor_val_one, Shape.rowMajor_val_two]; show 0 = 0 * 1 + 0; omega

theorem flatScores_apply (x : FArr S1024x1) (g : Fin 1024) : flatScores x (ix1 g) = x (ix2 g (0 : Fin 1)) := by
  unfold flatScores
  refine shapeCast_apply x shapeCasts_S1024x1_S1024 (ix1 g) (ix2 g (0 : Fin 1)) ?_
  rewrite [Shape.rowMajor_val_two, Shape.rowMajor_val_one]; show g.val * 1 + 0 = g.val; omega

end AtIndex

/-! ## Each stretch's buffers at an index -/

section Stretches
variable (Wp : Valuation τ sig (Elt Ideal))

/-! ### Before region 0 -/

theorem after0_v17_apply (n : Fin 50000) :
    (StableHlo.after (hostOps0 (F := Ideal)) Wp (Proc.devRef .tc main_v17) : FArr S50000x1) (ix2 n (0 : Fin 1))
      = Cert.Spec.dinv (fun e => wrapWord (dstIds (Wp (Proc.devRef .tc main_arg1)) (ix1 e))) n :=
  (congrFun (after0_v17 Wp) (ix2 n (0 : Fin 1))).trans (dinvCol_apply _ n)

theorem after0_v19_apply (k h : Fin 128) :
    (StableHlo.after (hostOps0 (F := Ideal)) Wp (Proc.devRef .tc main_v19) : FArr S128x128) (ix2 k h)
      = (Wp (Proc.devRef .tc main_arg3)) (ix3 (0 : Fin 3) k h) :=
  (congrFun (after0_v19 Wp) (ix2 k h)).trans (weight0_apply _ k h)

/-! ### Stretch 1 -/

theorem after1_v30_apply (j : Fin 50000) (h : Fin 128) :
    (StableHlo.after (hostOps1 (F := Ideal)) Wp (Proc.devRef .tc main_v30) : FArr S50000x128) (ix2 j h)
      = Cert.Spec.aggK (fun e => wrapWord ((Wp (Proc.devRef .tc main_v5)) (ix1 e))) (fun e => (Wp (Proc.devRef .tc main_v6)) (ix1 e)) (fun n k => (Wp (Proc.devRef .tc main_v20)) (ix2 n k)) j h :=
  (congrFun (after1_v30 Wp) (ix2 j h)).trans (aggregate_apply _ _ _ j h)

theorem after1_v42_apply (k h : Fin 128) :
    (StableHlo.after (hostOps1 (F := Ideal)) Wp (Proc.devRef .tc main_v42) : FArr S128x128) (ix2 k h)
      = (Wp (Proc.devRef .tc main_arg3)) (ix3 (1 : Fin 3) k h) :=
  (congrFun (after1_v42 Wp) (ix2 k h)).trans (weight1_apply _ k h)

theorem after1_v43_apply (k : Fin 128) :
    (StableHlo.after (hostOps1 (F := Ideal)) Wp (Proc.devRef .tc main_v43) : FArr S1x128) (ix2 (0 : Fin 1) k)
      = (Wp (Proc.devRef .tc main_arg4)) (ix2 (0 : Fin 3) k) :=
  (congrFun (after1_v43 Wp) (ix2 (0 : Fin 1) k)).trans (paramRow0_apply _ k)

theorem after1_v44_apply (k : Fin 128) :
    (StableHlo.after (hostOps1 (F := Ideal)) Wp (Proc.devRef .tc main_v44) : FArr S1x128) (ix2 (0 : Fin 1) k)
      = (Wp (Proc.devRef .tc main_arg5)) (ix2 (0 : Fin 3) k) :=
  (congrFun (after1_v44 Wp) (ix2 (0 : Fin 1) k)).trans (paramRow0_apply _ k)

theorem after1_v45_apply (k : Fin 128) :
    (StableHlo.after (hostOps1 (F := Ideal)) Wp (Proc.devRef .tc main_v45) : FArr S1x128) (ix2 (0 : Fin 1) k)
      = (Wp (Proc.devRef .tc main_arg6)) (ix2 (0 : Fin 3) k) :=
  (congrFun (after1_v45 Wp) (ix2 (0 : Fin 1) k)).trans (paramRow0_apply _ k)

theorem after1_v46_apply (k : Fin 128) :
    (StableHlo.after (hostOps1 (F := Ideal)) Wp (Proc.devRef .tc main_v46) : FArr S1x128) (ix2 (0 : Fin 1) k)
      = (Wp (Proc.devRef .tc main_arg7)) (ix2 (0 : Fin 3) k) :=
  (congrFun (after1_v46 Wp) (ix2 (0 : Fin 1) k)).trans (paramRow0_apply _ k)

theorem after1_v47_apply (k : Fin 128) :
    (StableHlo.after (hostOps1 (F := Ideal)) Wp (Proc.devRef .tc main_v47) : FArr S1x128) (ix2 (0 : Fin 1) k)
      = (Wp (Proc.devRef .tc main_arg8)) (ix2 (0 : Fin 3) k) :=
  (congrFun (after1_v47 Wp) (ix2 (0 : Fin 1) k)).trans (paramRow0_apply _ k)

/-! ### Stretch 2 -/

theorem after2_v58_apply (j : Fin 50000) (h : Fin 128) :
    (StableHlo.after (hostOps2 (F := Ideal)) Wp (Proc.devRef .tc main_v58) : FArr S50000x128) (ix2 j h)
      = Cert.Spec.aggK (fun e => wrapWord ((Wp (Proc.devRef .tc main_v5)) (ix1 e))) (fun e => (Wp (Proc.devRef .tc main_v6)) (ix1 e)) (fun n k => (Wp (Proc.devRef .tc main_v48)) (ix2 n k)) j h :=
  (congrFun (after2_v58 Wp) (ix2 j h)).trans (aggregate_apply _ _ _ j h)

theorem after2_v70_apply (k h : Fin 128) :
    (StableHlo.after (hostOps2 (F := Ideal)) Wp (Proc.devRef .tc main_v70) : FArr S128x128) (ix2 k h)
      = (Wp (Proc.devRef .tc main_arg3)) (ix3 (2 : Fin 3) k h) :=
  (congrFun (after2_v70 Wp) (ix2 k h)).trans (weight2_apply _ k h)

theorem after2_v71_apply (k : Fin 128) :
    (StableHlo.after (hostOps2 (F := Ideal)) Wp (Proc.devRef .tc main_v71) : FArr S1x128) (ix2 (0 : Fin 1) k)
      = (Wp (Proc.devRef .tc main_arg4)) (ix2 (1 : Fin 3) k) :=
  (congrFun (after2_v71 Wp) (ix2 (0 : Fin 1) k)).trans (paramRow1_apply _ k)

theorem after2_v72_apply (k : Fin 128) :
    (StableHlo.after (hostOps2 (F := Ideal)) Wp (Proc.devRef .tc main_v72) : FArr S1x128) (ix2 (0 : Fin 1) k)
      = (Wp (Proc.devRef .tc main_arg5)) (ix2 (1 : Fin 3) k) :=
  (congrFun (after2_v72 Wp) (ix2 (0 : Fin 1) k)).trans (paramRow1_apply _ k)

theorem after2_v73_apply (k : Fin 128) :
    (StableHlo.after (hostOps2 (F := Ideal)) Wp (Proc.devRef .tc main_v73) : FArr S1x128) (ix2 (0 : Fin 1) k)
      = (Wp (Proc.devRef .tc main_arg6)) (ix2 (1 : Fin 3) k) :=
  (congrFun (after2_v73 Wp) (ix2 (0 : Fin 1) k)).trans (paramRow1_apply _ k)

theorem after2_v74_apply (k : Fin 128) :
    (StableHlo.after (hostOps2 (F := Ideal)) Wp (Proc.devRef .tc main_v74) : FArr S1x128) (ix2 (0 : Fin 1) k)
      = (Wp (Proc.devRef .tc main_arg7)) (ix2 (1 : Fin 3) k) :=
  (congrFun (after2_v74 Wp) (ix2 (0 : Fin 1) k)).trans (paramRow1_apply _ k)

theorem after2_v75_apply (k : Fin 128) :
    (StableHlo.after (hostOps2 (F := Ideal)) Wp (Proc.devRef .tc main_v75) : FArr S1x128) (ix2 (0 : Fin 1) k)
      = (Wp (Proc.devRef .tc main_arg8)) (ix2 (1 : Fin 3) k) :=
  (congrFun (after2_v75 Wp) (ix2 (0 : Fin 1) k)).trans (paramRow1_apply _ k)

/-! ### Stretch 3 -/

theorem after3_v86_apply (j : Fin 50000) (h : Fin 128) :
    (StableHlo.after (hostOps3 (F := Ideal)) Wp (Proc.devRef .tc main_v86) : FArr S50000x128) (ix2 j h)
      = Cert.Spec.aggK (fun e => wrapWord ((Wp (Proc.devRef .tc main_v5)) (ix1 e))) (fun e => (Wp (Proc.devRef .tc main_v6)) (ix1 e)) (fun n k => (Wp (Proc.devRef .tc main_v76)) (ix2 n k)) j h :=
  (congrFun (after3_v86 Wp) (ix2 j h)).trans (aggregate_apply _ _ _ j h)

theorem after3_v97_apply (k : Fin 128) :
    (StableHlo.after (hostOps3 (F := Ideal)) Wp (Proc.devRef .tc main_v97) : FArr S1x128) (ix2 (0 : Fin 1) k)
      = (Wp (Proc.devRef .tc main_arg4)) (ix2 (2 : Fin 3) k) :=
  (congrFun (after3_v97 Wp) (ix2 (0 : Fin 1) k)).trans (paramRow2_apply _ k)

theorem after3_v98_apply (k : Fin 128) :
    (StableHlo.after (hostOps3 (F := Ideal)) Wp (Proc.devRef .tc main_v98) : FArr S1x128) (ix2 (0 : Fin 1) k)
      = (Wp (Proc.devRef .tc main_arg5)) (ix2 (2 : Fin 3) k) :=
  (congrFun (after3_v98 Wp) (ix2 (0 : Fin 1) k)).trans (paramRow2_apply _ k)

theorem after3_v99_apply (k : Fin 128) :
    (StableHlo.after (hostOps3 (F := Ideal)) Wp (Proc.devRef .tc main_v99) : FArr S1x128) (ix2 (0 : Fin 1) k)
      = (Wp (Proc.devRef .tc main_arg6)) (ix2 (2 : Fin 3) k) :=
  (congrFun (after3_v99 Wp) (ix2 (0 : Fin 1) k)).trans (paramRow2_apply _ k)

theorem after3_v100_apply (k : Fin 128) :
    (StableHlo.after (hostOps3 (F := Ideal)) Wp (Proc.devRef .tc main_v100) : FArr S1x128) (ix2 (0 : Fin 1) k)
      = (Wp (Proc.devRef .tc main_arg7)) (ix2 (2 : Fin 3) k) :=
  (congrFun (after3_v100 Wp) (ix2 (0 : Fin 1) k)).trans (paramRow2_apply _ k)

theorem after3_v101_apply (k : Fin 128) :
    (StableHlo.after (hostOps3 (F := Ideal)) Wp (Proc.devRef .tc main_v101) : FArr S1x128) (ix2 (0 : Fin 1) k)
      = (Wp (Proc.devRef .tc main_arg8)) (ix2 (2 : Fin 3) k) :=
  (congrFun (after3_v101 Wp) (ix2 (0 : Fin 1) k)).trans (paramRow2_apply _ k)

theorem after3_v102_apply (n : Fin 50000) :
    (StableHlo.after (hostOps3 (F := Ideal)) Wp (Proc.devRef .tc main_v102) : IArr S50000x1) (ix2 n (0 : Fin 1))
      = (Wp (Proc.devRef .tc main_arg2)) (ix1 n) :=
  (congrFun (after3_v102 Wp) (ix2 n (0 : Fin 1))).trans (batchCol_apply _ n)

/-! ### Stretches 4 and 5 -/

theorem after4_v108_apply (g : Fin 1024) (h : Fin 128) :
    (StableHlo.after (hostOps4 (F := Ideal)) Wp (Proc.devRef .tc main_v108) : FArr S1024x128) (ix2 g h)
      = Ideal.div ((Wp (Proc.devRef .tc main_v103_0)) (ix2 g h)) (max ((Wp (Proc.devRef .tc main_v103_1)) (ix2 (0 : Fin 1) g)) Cert.Spec.ONE) :=
  (congrFun (after4_v108 Wp) (ix2 g h)).trans (meanPool_apply _ _ g h)

theorem after4_v109_apply (j : Fin 64) :
    (StableHlo.after (hostOps4 (F := Ideal)) Wp (Proc.devRef .tc main_v109) : FArr S1x64) (ix2 (0 : Fin 1) j)
      = (Wp (Proc.devRef .tc main_arg10)) (ix1 j) :=
  (congrFun (after4_v109 Wp) (ix2 (0 : Fin 1) j)).trans (biasRow_apply _ j)

theorem after4_v110_apply  :
    (StableHlo.after (hostOps4 (F := Ideal)) Wp (Proc.devRef .tc main_v110) : FArr S1x1) (ix2 (0 : Fin 1) (0 : Fin 1))
      = (Wp (Proc.devRef .tc main_arg12)) (ix1 (0 : Fin 1)) :=
  (congrFun (after4_v110 Wp) (ix2 (0 : Fin 1) (0 : Fin 1))).trans (biasOne_apply _)

theorem after5_v112_apply (g : Fin 1024) :
    (StableHlo.after (hostOps5 (F := Ideal)) Wp (Proc.devRef .tc main_v112) : FArr S1024) (ix1 g)
      = (Wp (Proc.devRef .tc main_v111)) (ix2 g (0 : Fin 1)) :=
  (congrFun (after5_v112 Wp) (ix1 g)).trans (flatScores_apply _ g)

end Stretches

end Cert.KernelIdeal.HandHost

end
-- ==== Proof.Region0.lean ====
/-
  The value of the first kernel region: the linear map of a graph-convolution layer with the symmetric normalisation's
  row scale folded in. The region reads the node features `X` ([50000, 128]), the layer's weights `W` ([128, 128]) and a
  one-column array `s` ([50000, 1]), and writes `O = (X · W)` with row `n` multiplied by `s n`:

      O (n, h) = (Σ k, X (n, k) * W (k, h)) * s (n, 0).

  The grid has ten points; point `t` works on rows `5000 t … 5000 t + 4999` of `X`, `s` and `O` and on all of `W`. Each
  output entry depends on one row of `X`, one column of `W` and one entry of `s`, all of which lie in the blocks of the
  point that owns the row, so every point writes back its block of ONE whole-array function and the ten blocks tile
  the output. Everything is over the extended reals, where the product into a zero accumulator is the plain sum.
-/
import proofs.«406701_j21981642621452_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Hand

open Cert.KernelIdeal Cert.KernelIdeal.Gen Idealize.ShloMosaic.ValueIdx

-- the buffer contents of the core when the region is entered: every statement below is at this parameter
variable (V : (c : Dev nD) → (b : Ref sig .tc) → Buf (Elt Ideal) ((c : Thread nD τ).loc b))

namespace Region0
/-! ## The body's arithmetic at one element

The body multiplies a block of 5000 rows of the features by the whole weight matrix and scales every row of the
product by that row's entry of a one-column block. -/

/-- The left operand of the product is read, on its row axis, at the output's row … -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and, on its column axis, at the contraction index; -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand, on its row axis, at the contraction index … -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and, on its column axis, at the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at row `r` and column `h`: the row of the left block against the
    column of the right matrix. -/
theorem product_at (x0 : FVec Ideal S5000x128 .f32) (x1 : FVec Ideal S128x128 .f32) (r : Fin 5000) (h : Fin 128) :
    matmul dot_S5000x128_S128x128_S5000x128_1_0_0_1_n_n (some .fp32) x0 x1 (constant (F := Ideal) S5000x128 .f32 0x00000000#32) (ix2 r h)
      = ∑ k : Fin 128, x0 (ix2 r k) * x1 (ix2 k h) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r h) ((contrEquiv1 dot_S5000x128_S128x128_S5000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 r h) ((contrEquiv1 dot_S5000x128_S128x128_S5000x128_1_0_0_1_n_n 128 rfl rfl).symm k) = ix2 k h := funext fun a => Fin.ext (by
    match a with
    | ⟨0, _⟩ => exact (rhs_axis0 _ _).trans hk
    | ⟨1, _⟩ => exact rhs_axis1 _ _)
  rw [el, er]

/-- A one-column block stretched over 128 columns reads, at `(r, h)`, the column's entry of row `r`. -/
theorem column_stretch_at {a b : ℕ} {α : Type} (v : (⟨2, ![a, 1]⟩ : Shape).Idx → α) (hb : (⟨2, ![a, 1]⟩ : Shape).Broadcasts ⟨2, ![a, b]⟩)
    (r : Fin a) (h : Fin b) : broadcastTo ⟨2, ![a, b]⟩ v hb (ix2 r h) = v (ix2 r (0 : Fin 1)) := by
  refine broadcastTo_apply v hb (ix2 r h) (ix2 r (0 : Fin 1)) fun ax => ?_
  match ax with
  | ⟨0, _⟩ =>
    show r.val = if a = 1 then 0 else r.val
    split
    · have := r.isLt; omega
    · rfl
  | ⟨1, _⟩ => rfl

/-- THE BODY AT ONE ELEMENT: row `r` of the block against column `h` of the weights, times row `r`'s scale. -/
theorem payload_at (x0 : Vec Ideal S5000x128 .f32) (x1 : Vec Ideal S128x128 .f32) (x2 : Vec Ideal S5000x1 .f32) (r : Fin 5000) (h : Fin 128) :
    (k0_pay1 (F := Ideal) x0 x1 x2 : S5000x128.Idx → EReal) (ix2 r h)
      = (∑ k : Fin 128, (x0 : S5000x128.Idx → EReal) (ix2 r k) * (x1 : S128x128.Idx → EReal) (ix2 k h)) * (x2 : S5000x1.Idx → EReal) (ix2 r (0 : Fin 1)) := by
  unfold k0_pay1
  simp only [shapeCast_self]
  rw [mulf_apply]
  refine congrArg₂ (· * ·) (product_at x0 x1 r h) ?_
  exact column_stretch_at (a := 5000) (b := 128) x2 broadcasts_S5000x1_S5000x128 r h

/-! ## From the body to the staging buffer

The body stores once, through the whole staging buffer, so what it leaves there is its arithmetic of what it loaded,
and each load reads a whole staging buffer. -/

theorem zero_offsets : (![0, 0] : Fin 2 → Nat) = fun _ => 0 := funext fun a => by fin_cases a <;> rfl

/-- What the body leaves in the output's staging buffer is its arithmetic of the three input blocks. -/
theorem stored_eq_payload (x0 : Vec Ideal S5000x128 .f32) (x1 : Vec Ideal S128x128 .f32) (x2 : Vec Ideal S5000x1 .f32) :
    out0_3 (F := Ideal) x0 x1 x2 = k0_pay1 (F := Ideal) x0 x1 x2 := by
  unfold out0_3
  rw [View.canon_unit_zero zero_offsets]
  simp only [View.ld_unit_zero (S := S5000x128) zero_offsets, View.ld_unit_zero (S := S128x128) zero_offsets,
    View.ld_unit_zero (S := S5000x1) zero_offsets]

/-! ## The whole-array function

`scaledRow A0 A1 A2 n h` is row `n` of `A0` against column `h` of `A1`, times row `n` of the one-column array `A2`;
`wholeOut` is that at every index of the [50000, 128] output. -/

/-- One entry of `(A0 · A1)` with row `n` scaled by `A2 n`. -/
def scaledRow (A0 : S50000x128.Idx → EReal) (A1 : S128x128.Idx → EReal) (A2 : S50000x1.Idx → EReal) (n : Fin 50000) (h : Fin 128) : EReal :=
  (∑ k : Fin 128, A0 (ix2 n k) * A1 (ix2 k h)) * A2 (ix2 n (0 : Fin 1))

/-- The output array as one function of the three input arrays. -/
def wholeOut (A0 : S50000x128.Idx → EReal) (A1 : S128x128.Idx → EReal) (A2 : S50000x1.Idx → EReal) : S50000x128.Idx → EReal :=
  fun i => scaledRow A0 A1 A2 (i 0) (i 1)

/-- A block's element is the whole-array function at the array index it sits at, as soon as the row blocks are rows
    `5000 T …` of their arrays and the weight block is the whole weight matrix. -/
theorem block_value (x0 : Vec Ideal S5000x128 .f32) (x1 : Vec Ideal S128x128 .f32) (x2 : Vec Ideal S5000x1 .f32)
    (A0 : S50000x128.Idx → EReal) (A1 : S128x128.Idx → EReal) (A2 : S50000x1.Idx → EReal) (T : Nat)
    (h0 : ∀ (y : S5000x128.Idx) (i : S50000x128.Idx), (i 0).val = 5000 * T + (y 0).val → (i 1).val = (y 1).val → x0 y = A0 i)
    (h1 : x1 = A1)
    (h2 : ∀ (y : S5000x1.Idx) (i : S50000x1.Idx), (i 0).val = 5000 * T + (y 0).val → (i 1).val = (y 1).val → x2 y = A2 i)
    (y : S5000x128.Idx) (i : S50000x128.Idx) (hi0 : (i 0).val = 5000 * T + (y 0).val) (hi1 : (i 1).val = (y 1).val) :
    (k0_pay1 (F := Ideal) x0 x1 x2 : S5000x128.Idx → EReal) y = wholeOut A0 A1 A2 i := by
  obtain ⟨r, h, rfl⟩ : ∃ (r : Fin 5000) (h : Fin 128), y = ix2 r h := ⟨y 0, y 1, eq_ix2 y⟩
  obtain ⟨n, h', rfl⟩ : ∃ (n : Fin 50000) (h' : Fin 128), i = ix2 n h' := ⟨i 0, i 1, eq_ix2 i⟩
  have hn : n.val = 5000 * T + r.val := hi0
  obtain rfl : h' = h := Fin.ext hi1
  rw [payload_at]
  show _ = scaledRow A0 A1 A2 n h'
  unfold scaledRow
  subst h1
  refine congrArg₂ (· * ·) (Finset.sum_congr rfl fun k _ => ?_) (h2 (ix2 r (0 : Fin 1)) (ix2 n (0 : Fin 1)) hn rfl)
  rw [h0 (ix2 r k) (ix2 n k) hn rfl]

/-! ## The blocks the pipeline hands the body

At grid point `t` the feature block and the scale block are rows `5000 t … 5000 t + 4999` of their arrays, the weight
block is the whole weight matrix, and the output block goes back to rows `5000 t …` of the output array. -/

/-- The four index maps, decided over the ten points: the row-blocked windows are at block `t` on the row axis and at
    block 0 on the column axis, the weight window at block 0 on both. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point `t`, element by element. -/
theorem features_block_at (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_arg0 : S50000x128.Idx → EReal) i := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The weight block at any point is the whole weight matrix. -/
theorem weights_block_eq (c : Dev nD) (t : Fin cfg0.N) :
    (iblk0 V c 1 t : Vec Ideal S128x128 .f32) = (V c main_v19 : S128x128.Idx → EReal) := by
  obtain ⟨-, -, e0, e1, -⟩ := block_indices t
  funext y
  unfold iblk0
  rw [View.read_apply]
  show V c main_v19 _ = V c main_v19 _
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- The scale block at point `t`, element by element. -/
theorem scales_block_at (c : Dev nD) (t : Fin cfg0.N) (y : S5000x1.Idx) (i : S50000x1.Idx)
    (h0 : (i 0).val = 5000 * t.val + (y 0).val) (h1 : (i 1).val = (y 1).val) :
    (iblk0 V c 2 t : Vec Ideal S5000x1 .f32) y = (V c main_v17 : S50000x1.Idx → EReal) i := by
  obtain ⟨-, -, -, -, e0, e1, -⟩ := block_indices t
  unfold iblk0
  rw [View.read_apply]
  show V c main_v17 _ = V c main_v17 _
  congr 1
  funext a
  apply Fin.ext
  match a with
  | ⟨0, _⟩ => show win0_2.index t 0 * 5000 + 1 * (y 0).val = (i 0).val; rw [e0, h0]; omega
  | ⟨1, _⟩ => show win0_2.index t 1 * 1 + 1 * (y 1).val = (i 1).val; rw [e1, h1]; omega

/-! ## What each point writes back, and the array after the last point -/

/-- WHAT POINT `t` WRITES BACK is block `t` of the whole-array function of the arrays as the region finds them. -/
theorem written_back_eq (c : Dev nD) (t : Fin cfg0.N) :
    (dat0 (F := Ideal) V c).flushed 3 t
      = ((cfg0.win 3).blk t).view.read (Elt Ideal) (wholeOut (V c main_arg0) (V c main_v19) (V c main_v17)) := by
  show (cfg0.win 3).cut (grid0.coords t) ((dat0 (F := Ideal) V c).after 3 t) = _
  rw [after0_3, stored_eq_payload]
  obtain ⟨-, -, -, -, -, -, e0, e1⟩ := block_indices t
  funext j
  rw [View.read_apply]
  refine block_value (iblk0 V c 0 t) (iblk0 V c 1 t) (iblk0 V c 2 t) (V c main_arg0) (V c main_v19) (V c main_v17) t.val
    (fun y i a b => features_block_at V c t y i a b) (weights_block_eq V c t) (fun y i a b => scales_block_at V c t y i a b)
    j (((cfg0.win 3).blk t).view.emb j) ?_ ?_
  · show win0_3.index t 0 * 5000 + 1 * (j 0).val = 5000 * t.val + (j 0).val; rw [e0]; omega
  · show win0_3.index t 1 * 128 + 1 * (j 1).val = (j 1).val; rw [e1]; omega

/-- An index of the output array is in point `t`'s block iff each coordinate is in the block's range on its axis. -/
theorem mem_out_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v20).slice (win0_3.rect t)).set ↔ _
  rw [View.set_slice_whole, Rect.mem_set_unit]
  exact Iff.rfl

/-- Every row of the output is in the block of the point `row / 5000`, which writes back. -/
theorem out_covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e0, e1⟩ := block_indices t
  refine ⟨t, flush0_3 t, ?_⟩
  rw [mem_out_block]
  intro a
  match a with
  | ⟨0, _⟩ => show win0_3.index t 0 * 5000 ≤ (i 0).val ∧ (i 0).val < win0_3.index t 0 * 5000 + 5000; rw [e0, ht]; omega
  | ⟨1, _⟩ => show win0_3.index t 1 * 128 ≤ (i 1).val ∧ (i 1).val < win0_3.index t 1 * 128 + 128; rw [e1]; omega

/-- The whole-array function read at row `n`, column `h`. -/
theorem wholeOut_apply (A0 : S50000x128.Idx → EReal) (A1 : S128x128.Idx → EReal) (A2 : S50000x1.Idx → EReal) (n : Fin 50000) (h : Fin 128) :
    wholeOut A0 A1 A2 (ix2 n h) = (∑ k : Fin 128, A0 (ix2 n k) * A1 (ix2 k h)) * A2 (ix2 n (0 : Fin 1)) := rfl

/-- The three arrays the region reads, as it finds them, at their literal types (so that their entries multiply as
    extended reals). -/
abbrev featuresIn (c : Dev nD) : S50000x128.Idx → EReal := V c main_arg0
abbrev weightsIn (c : Dev nD) : S128x128.Idx → EReal := V c main_v19
abbrev scalesIn (c : Dev nD) : S50000x1.Idx → EReal := V c main_v17

end Region0

open Region0

/-- THE OUTPUT ARRAY after the region: the whole-array function of the arrays as the region finds them. -/
theorem region0_array (c : Dev nD) :
    (dat0 (F := Ideal) V c).arrAt 3 cfg0.N = wholeOut (V c main_arg0) (V c main_v19) (V c main_v17) :=
  (dat0 (F := Ideal) V c).arrAt_eq_of_cover 3 (wholeOut (V c main_arg0) (V c main_v19) (V c main_v17))
    (fun t _ => written_back_eq V c t) out_covered

/-- THE REGION'S VALUE, element by element: `(features · weights)` with row `n` scaled by the scale column's row `n`. -/
theorem region0_value (c : Dev nD) (n : Fin 50000) (h : Fin 128) :
    ((dat0 (F := Ideal) V c).arrAt 3 cfg0.N : S50000x128.Idx → EReal) (ix2 n h)
      = (∑ k : Fin 128, featuresIn V c (ix2 n k) * weightsIn V c (ix2 k h)) * scalesIn V c (ix2 n (0 : Fin 1)) :=
  congrFun (region0_array V c) (ix2 n h)

end Cert.KernelIdeal.Hand

end
-- ==== Proof.Region1.lean ====
/-
  The value of the second kernel region (a batch-normalised, rectified linear layer on 50000 rows of 128 lanes, in ten
  blocks of 5000 rows), at the ideal reals and at any contents `V` of the buffers when the region is entered.

  Per row `n` and lane `k` the body forms `x = agg[n, k] * dinv[n] + b[k]`, normalises it
  `(x - mean[k]) * rsqrt (var[k] + eps) * gamma[k] + beta[k]`, clips it below at zero, multiplies the clipped row into
  the next layer's `[128, 128]` weights and scales the product row by `dinv[n]` again. The two row-indexed inputs
  and the output are cut into the same ten row blocks; the six small inputs are whole at every point. So block `t` of
  the output depends only on rows `5000 t … 5000 t + 4999` of the inputs, every written block is the restriction of
  one function of the whole arrays (`wholeOut`), and the ten blocks cover the output array.

  The steps: the body's arithmetic read at one element (`pay_at`: the pointwise operations, the two kinds of
  broadcast, the contraction as a sum over the 128 lanes); one element of the body's result from blocks that are rows
  of the arrays (`point_eq`); each input block as part of its array (`blk0_at`, `blk1_at`, `blk2_whole` …); what a
  point writes back (`flushed_eq`); the cover (`cover`); the array after the region (`region1_array`, `region1_value`).
  Everything but `wholeOut`, `wholeOut_apply`, `region1_array`, `region1_value` and the arrays' names `arr0 … arr7`
  lives in the sub-namespace `Region1`.
-/
import proofs.«406701_j21981642621452_2_alg».proof.Proof.Gen.KernelIdeal.Frame
import proofs.«406701_j21981642621452_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Hand1

open Cert.KernelIdeal Cert.KernelIdeal.Gen Idealize.ShloMosaic.ValueIdx

namespace Region1

/-! ## The body's arithmetic at one element -/

theorem hz : (![0, 0] : Fin 2 → Nat) = fun _ => 0 := funext fun a => by fin_cases a <;> rfl

/-- A column `[5000, 1]` broadcast along the lanes reads, at `(r, k)`, the column's entry of row `r`. -/
theorem bcast_col (v : FVec Ideal S5000x1 .f32) (r : Fin 5000) (k : Fin 128) :
    broadcastTo S5000x128 v broadcasts_S5000x1_S5000x128 (ix2 r k) = v (ix2 r (0 : Fin 1)) := by
  refine broadcastTo_apply v broadcasts_S5000x1_S5000x128 (ix2 r k) (ix2 r (0 : Fin 1)) fun ax => ?_
  match ax with
  | ⟨0, _⟩ => rfl
  | ⟨1, _⟩ => rfl

/-- A row `[1, 128]` broadcast down the rows reads, at `(r, k)`, the row's entry of lane `k`. -/
theorem bcast_row (v : FVec Ideal S1x128 .f32) (r : Fin 5000) (k : Fin 128) :
    broadcastTo S5000x128 v broadcasts_S1x128_S5000x128 (ix2 r k) = v (ix2 (0 : Fin 1) k) :=
  broadcastTo_1b_ab_apply v broadcasts_S1x128_S5000x128 r k

theorem rsqrt_apply (v : FVec Ideal S1x128 .f32) (i : S1x128.Idx) : rsqrt v i = Ideal.rsqrt (v i) := rfl

/-! ### The contraction: `[5000, 128] × [128, 128]`, lanes of the left against rows of the right -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at `(r, h)`: the sum over the 128 lanes `k` of the left factor at `(r, k)`
    times the right factor at `(k, h)`. -/
theorem matmul_at (a : FVec Ideal S5000x128 .f32) (b : FVec Ideal S128x128 .f32) (r : Fin 5000) (h : Fin 128) :
    matmul dot_S5000x128_S128x128_S5000x128_1_0_0_1_n_n (some .fp32) a b (constant (F := Ideal) S5000x128 .f32 0x00000000#32) (ix2 r h)
      = ∑ k : Fin 128, a (ix2 r k) * b (ix2 k h) := by
  refine (Ideal.matmul_constant_zero_apply dot_S5000x128_S128x128_S5000x128_1_0_0_1_n_n (some .fp32) a b (ix2 r h)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r h) ((ValueIdx.contrEquiv1 dot_S5000x128_S128x128_S5000x128_1_0_0_1_n_n 128 rfl rfl).symm k) = ix2 r k := funext fun ax => Fin.ext (by
    match ax with
    | ⟨0, _⟩ => exact lhs_dot_0 _ _
    | ⟨1, _⟩ => exact (lhs_dot_1 _ _).trans hk)
  have er : dot_S5000x128_S128x128_S5000x128_1_0_0_1_n_n.rhsIdx (ix2 r h) ((ValueIdx.contrEquiv1 dot_S5000x128_S128x128_S5000x128_1_0_0_1_n_n 128 rfl rfl).symm k) = ix2 k h := funext fun ax => Fin.ext (by
    match ax with
    | ⟨0, _⟩ => exact (rhs_dot_0 _ _).trans hk
    | ⟨1, _⟩ => exact rhs_dot_1 _ _)
  rw [el, er]

/-- The body's value at row `r`, lane `h` of its block: the aggregated row scaled by the row's factor, plus the bias,
    normalised (mean subtracted, times the reciprocal root of variance plus epsilon, times the scale, plus the shift),
    clipped below at zero, multiplied into the next layer's weights, and scaled by the row's factor again. -/
theorem pay_at (x0 : Vec Ideal S5000x128 .f32) (x1 : Vec Ideal S5000x1 .f32) (x2 x5 x6 x3 x4 : Vec Ideal S1x128 .f32)
    (x7 : Vec Ideal S128x128 .f32) (x1' : Vec Ideal S5000x1 .f32) (r : Fin 5000) (h : Fin 128) :
    (k1_pay1 (F := Ideal) x0 x1 x2 x5 x6 x3 x4 x7 x1' : S5000x128.Idx → EReal) (ix2 r h)
      = (∑ k : Fin 128, max ((((x0 (ix2 r k) * x1 (ix2 r (0 : Fin 1)) + x2 (ix2 (0 : Fin 1) k)) - x5 (ix2 (0 : Fin 1) k))
            * Ideal.rsqrt (x6 (ix2 (0 : Fin 1) k) + Cert.Spec.EPS)) * x3 (ix2 (0 : Fin 1) k) + x4 (ix2 (0 : Fin 1) k)) Cert.Spec.Z0
          * x7 (ix2 k h)) * x1' (ix2 r (0 : Fin 1)) := by
  unfold k1_pay1
  simp only [shapeCast_self, mulf_apply, addf_apply, subf_apply, maximumf_apply, broadcast_apply, rsqrt_apply, bcast_col, bcast_row, matmul_at]
  rfl

/-! ## The output array as one function of the input arrays -/

/-- Row `n`, lane `h` of the region's result, from the eight input arrays: the row of `A0` scaled by `A1`'s entry of the
    row, plus the bias `A2`, normalised with mean `A5`, variance `A6`, scale `A3` and shift `A4`, clipped below at zero,
    multiplied into `A7`, and scaled by `A1`'s entry of the row again. -/
def rowVal (A0 : S50000x128.Idx → EReal) (A1 : S50000x1.Idx → EReal) (A2 A3 A4 A5 A6 : S1x128.Idx → EReal)
    (A7 : S128x128.Idx → EReal) (n : Fin 50000) (h : Fin 128) : EReal :=
  (∑ k : Fin 128, max ((((A0 (ix2 n k) * A1 (ix2 n (0 : Fin 1)) + A2 (ix2 (0 : Fin 1) k)) - A5 (ix2 (0 : Fin 1) k))
      * Ideal.rsqrt (A6 (ix2 (0 : Fin 1) k) + Cert.Spec.EPS)) * A3 (ix2 (0 : Fin 1) k) + A4 (ix2 (0 : Fin 1) k)) Cert.Spec.Z0
    * A7 (ix2 k h)) * A1 (ix2 n (0 : Fin 1))

end Region1

/-- The region's output array as ONE function of the eight input arrays: at index `i`, `Region1.rowVal` at row `i 0`
    and lane `i 1`. -/
def wholeOut (A0 : S50000x128.Idx → EReal) (A1 : S50000x1.Idx → EReal) (A2 A3 A4 A5 A6 : S1x128.Idx → EReal)
    (A7 : S128x128.Idx → EReal) : S50000x128.Idx → EReal :=
  fun i => Region1.rowVal A0 A1 A2 A3 A4 A5 A6 A7 (i 0) (i 1)

/-- `wholeOut` at row `n`, lane `h`: with `x = A0[n, k] * A1[n] + A2[k]`, the sum over the 128 lanes `k` of
    `max ((x - A5[k]) * rsqrt (A6[k] + eps) * A3[k] + A4[k]) 0 * A7[k, h]`, times `A1[n]`. -/
theorem wholeOut_apply (A0 : S50000x128.Idx → EReal) (A1 : S50000x1.Idx → EReal) (A2 A3 A4 A5 A6 : S1x128.Idx → EReal)
    (A7 : S128x128.Idx → EReal) (n : Fin 50000) (h : Fin 128) :
    wholeOut A0 A1 A2 A3 A4 A5 A6 A7 (ix2 n h)
      = (∑ k : Fin 128, max ((((A0 (ix2 n k) * A1 (ix2 n (0 : Fin 1)) + A2 (ix2 (0 : Fin 1) k)) - A5 (ix2 (0 : Fin 1) k))
            * Ideal.rsqrt (A6 (ix2 (0 : Fin 1) k) + Cert.Spec.EPS)) * A3 (ix2 (0 : Fin 1) k) + A4 (ix2 (0 : Fin 1) k)) Cert.Spec.Z0
          * A7 (ix2 k h)) * A1 (ix2 n (0 : Fin 1)) := rfl

namespace Region1

/-- One element of the body's result from blocks that are rows of the arrays: if the block of window 0 holds, in its row
    `r`, row `n` of `A0`, the block of window 1 holds there `A1`'s entry of row `n`, and the six whole windows hold
    their arrays, the body's value at `(r, h)` is `rowVal` at `(n, h)`. -/
theorem point_eq (A0 : S50000x128.Idx → EReal) (A1 : S50000x1.Idx → EReal) (A2 A3 A4 A5 A6 : S1x128.Idx → EReal)
    (A7 : S128x128.Idx → EReal)
    (x0 : Vec Ideal S5000x128 .f32) (x1 : Vec Ideal S5000x1 .f32) (x2 x3 x4 x5 x6 : Vec Ideal S1x128 .f32)
    (x7 : Vec Ideal S128x128 .f32) (y : S5000x128.Idx) (r : Fin 5000) (h : Fin 128) (n : Fin 50000)
    (hy0 : (y 0).val = r.val) (hy1 : (y 1).val = h.val)
    (h0 : ∀ k : Fin 128, x0 (ix2 r k) = A0 (ix2 n k)) (h1 : x1 (ix2 r (0 : Fin 1)) = A1 (ix2 n (0 : Fin 1)))
    (e2 : x2 = A2) (e3 : x3 = A3) (e4 : x4 = A4) (e5 : x5 = A5) (e6 : x6 = A6) (e7 : x7 = A7) :
    (k1_pay1 (F := Ideal) x0 x1 x2 x5 x6 x3 x4 x7 x1 : S5000x128.Idx → EReal) y = rowVal A0 A1 A2 A3 A4 A5 A6 A7 n h := by
  obtain rfl : y = ix2 r h := funext fun a => Fin.ext (by
    match a with
    | ⟨0, _⟩ => exact hy0
    | ⟨1, _⟩ => exact hy1)
  subst e2 e3 e4 e5 e6 e7
  rw [pay_at]
  unfold rowVal
  simp only [h0, h1]

section Region
variable (V : (c : Dev nD) → (b : Ref sig .tc) → Buf (Elt Ideal) ((c : Thread nD τ).loc b))

/-! ## The input blocks as parts of their arrays -/

/-- The printed index maps, decided over the ten points: the two row-blocked inputs and the output sit at block row `t`;
    every other window is at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Block `t` of window 0 is rows `5000 t … 5000 t + 4999` of its array. -/
theorem blk0_at (c : Dev nD) (t : Fin cfg1.N) (x : S5000x128.Idx) (i : S50000x128.Idx)
    (hi0 : (i 0).val = 5000 * t.val + (x 0).val) (hi1 : (i 1).val = (x 1).val) :
    (iblk1 V c 0 t : Vec Ideal S5000x128 .f32) x = (V c main_v30 : S50000x128.Idx → EReal) i := by
  obtain ⟨e0, e1, -⟩ := idx_facts t
  unfold iblk1
  rw [View.read_apply]
  show V c main_v30 _ = V c main_v30 _
  congr 1
  funext a
  apply Fin.ext
  match a with
  | ⟨0, _⟩ => show win1_0.index t (0 : Fin 2) * 5000 + 1 * (x 0).val = (i 0).val; rw [e0, hi0]; omega
  | ⟨1, _⟩ => show win1_0.index t (1 : Fin 2) * 128 + 1 * (x 1).val = (i 1).val; rw [e1, hi1]; omega

/-- Block `t` of window 1 is the same rows of its one-lane array. -/
theorem blk1_at (c : Dev nD) (t : Fin cfg1.N) (x : S5000x1.Idx) (i : S50000x1.Idx)
    (hi0 : (i 0).val = 5000 * t.val + (x 0).val) (hi1 : (i 1).val = (x 1).val) :
    (iblk1 V c 1 t : Vec Ideal S5000x1 .f32) x = (V c main_v17 : S50000x1.Idx → EReal) i := by
  obtain ⟨-, -, e0, e1, -⟩ := idx_facts t
  unfold iblk1
  rw [View.read_apply]
  show V c main_v17 _ = V c main_v17 _
  congr 1
  funext a
  apply Fin.ext
  match a with
  | ⟨0, _⟩ => show win1_1.index t (0 : Fin 2) * 5000 + 1 * (x 0).val = (i 0).val; rw [e0, hi0]; omega
  | ⟨1, _⟩ => show win1_1.index t (1 : Fin 2) * 1 + 1 * (x 1).val = (i 1).val; rw [e1, hi1]; omega

/-- Window 2's block is its whole array at every point. -/
theorem blk2_whole (c : Dev nD) (t : Fin cfg1.N) :
    (iblk1 V c 2 t : Vec Ideal S1x128 .f32) = (V c main_v43 : S1x128.Idx → EReal) := by
  obtain ⟨-, -, -, -, e0, e1, -⟩ := idx_facts t
  unfold iblk1
  funext x
  rw [View.read_apply]
  show V c main_v43 _ = V c main_v43 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- Window 3's block is its whole array at every point. -/
theorem blk3_whole (c : Dev nD) (t : Fin cfg1.N) :
    (iblk1 V c 3 t : Vec Ideal S1x128 .f32) = (V c main_v44 : S1x128.Idx → EReal) := by
  obtain ⟨-, -, -, -, -, -, e0, e1, -⟩ := idx_facts t
  unfold iblk1
  funext x
  rw [View.read_apply]
  show V c main_v44 _ = V c main_v44 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- Window 4's block is its whole array at every point. -/
theorem blk4_whole (c : Dev nD) (t : Fin cfg1.N) :
    (iblk1 V c 4 t : Vec Ideal S1x128 .f32) = (V c main_v45 : S1x128.Idx → EReal) := by
  obtain ⟨-, -, -, -, -, -, -, -, e0, e1, -⟩ := idx_facts t
  unfold iblk1
  funext x
  rw [View.read_apply]
  show V c main_v45 _ = V c main_v45 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- Window 5's block is its whole array at every point. -/
theorem blk5_whole (c : Dev nD) (t : Fin cfg1.N) :
    (iblk1 V c 5 t : Vec Ideal S1x128 .f32) = (V c main_v46 : S1x128.Idx → EReal) := by
  obtain ⟨-, -, -, -, -, -, -, -, -, -, e0, e1, -⟩ := idx_facts t
  unfold iblk1
  funext x
  rw [View.read_apply]
  show V c main_v46 _ = V c main_v46 _
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 128 + 1 * (x 1).val = (x 1).val; rw [e1]; omega

/-- Window 6's block is its whole array at every point. -/
theorem blk6_whole (c : Dev nD) (t : Fin cfg1.N) :
    (iblk1 V c 6 t : Vec Ideal S1x128 .f32) = (V c main_v47 : S1x128.Idx → EReal) := by
  obtain ⟨-, -, -, -, -, -, -, -, -, -, -, -, e0, e1, -⟩ := idx_facts t
  unfold iblk1
  funext x
  rw [View.read_apply]
  show V c main_v47 _ = V c main_v47 _
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 128 + 1 * (x 1).val = (x 1).val; rw [e1]; omega

/-- Window 7's block is its whole array at every point. -/
theorem blk7_whole (c : Dev nD) (t : Fin cfg1.N) :
    (iblk1 V c 7 t : Vec Ideal S128x128 .f32) = (V c main_v42 : S128x128.Idx → EReal) := by
  obtain ⟨-, -, -, -, -, -, -, -, -, -, -, -, -, -, e0, e1, -⟩ := idx_facts t
  unfold iblk1
  funext x
  rw [View.read_apply]
  show V c main_v42 _ = V c main_v42 _
  congr 1
  funext a
  apply Fin.ext
  match a with
  | ⟨0, _⟩ => show win1_7.index t (0 : Fin 2) * 128 + 1 * (x 0).val = (x 0).val; rw [e0]; omega
  | ⟨1, _⟩ => show win1_7.index t (1 : Fin 2) * 128 + 1 * (x 1).val = (x 1).val; rw [e1]; omega

/-! ## What each point writes back, and the array after the ten points -/

/-- The result array as the region's function of the arrays it finds. -/
abbrev result (c : Dev nD) : S50000x128.Idx → EReal :=
  wholeOut (V c main_v30) (V c main_v17) (V c main_v43) (V c main_v44) (V c main_v45) (V c main_v46) (V c main_v47) (V c main_v42)

/-- Point `t` writes back rows `5000 t … 5000 t + 4999` of `result`: the body's one store covers its block, and each
    element of it is the body's arithmetic on the rows of the inputs that sit at the same array row. -/
theorem flushed_eq (c : Dev nD) (t : Fin cfg1.N) :
    (dat1 (F := Ideal) V c).flushed 8 t = ((cfg1.win 8).blk t).view.read (Elt Ideal) (result V c) := by
  show (cfg1.win 8).cut (grid1.coords t) ((dat1 (F := Ideal) V c).after 8 t) = _
  rw [after1_8]
  unfold out1_8
  rw [View.canon_unit_zero hz]
  simp only [View.ld_unit_zero (S := S5000x128) hz, View.ld_unit_zero (S := S5000x1) hz, View.ld_unit_zero (S := S1x128) hz,
    View.ld_unit_zero (S := S128x128) hz]
  obtain ⟨-, -, -, -, -, -, -, -, -, -, -, -, -, -, -, -, e0, e1⟩ := idx_facts t
  have hN : cfg1.N = 10 := N_1
  funext j
  have hj0 : (j 0).val < 5000 := (j 0).isLt
  have hj1 : (j 1).val < 128 := (j 1).isLt
  have ht : t.val < 10 := hN ▸ t.isLt
  rw [View.read_apply]
  have hemb0 : ((((cfg1.win 8).blk t).view.emb j) 0).val = 5000 * t.val + (j 0).val := by
    show win1_8.index t (0 : Fin 2) * 5000 + 1 * (j 0).val = _; rw [e0]; omega
  have hemb1 : ((((cfg1.win 8).blk t).view.emb j) 1).val = (j 1).val := by
    show win1_8.index t (1 : Fin 2) * 128 + 1 * (j 1).val = _; rw [e1]; omega
  have key : ((cfg1.win 8).blk t).view.emb j
      = ix2 (⟨5000 * t.val + (j 0).val, by omega⟩ : Fin 50000) (⟨(j 1).val, hj1⟩ : Fin 128) :=
    funext fun a => Fin.ext (by
      match a with
      | ⟨0, _⟩ => exact hemb0
      | ⟨1, _⟩ => exact hemb1)
  rw [key]
  refine (point_eq (V c main_v30) (V c main_v17) (V c main_v43) (V c main_v44) (V c main_v45) (V c main_v46) (V c main_v47) (V c main_v42)
    (iblk1 V c 0 t) (iblk1 V c 1 t) (iblk1 V c 2 t) (iblk1 V c 3 t) (iblk1 V c 4 t) (iblk1 V c 5 t) (iblk1 V c 6 t) (iblk1 V c 7 t)
    ((cfg1.win 8).xinj (grid1.coords t) j) (⟨(j 0).val, hj0⟩ : Fin 5000) (⟨(j 1).val, hj1⟩ : Fin 128)
    (⟨5000 * t.val + (j 0).val, by omega⟩ : Fin 50000) rfl rfl ?_ ?_
    (blk2_whole V c t) (blk3_whole V c t) (blk4_whole V c t) (blk5_whole V c t) (blk6_whole V c t) (blk7_whole V c t)).trans ?_
  · intro k
    exact blk0_at V c t _ _ rfl rfl
  · exact blk1_at V c t _ _ rfl rfl
  · rfl

/-- An index of the result array is in point `t`'s block iff each coordinate is in the block's range on its axis. -/
theorem mem_blk (t : Fin cfg1.N) (i : S50000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v48).slice (win1_8.rect t)).set ↔ _
  rw [View.set_slice_whole, Rect.mem_set_unit]
  exact Iff.rfl

/-- Every row of the result array lies in the block of the point `row / 5000`, which writes back. -/
theorem cover (i : S50000x128.Idx) :
    ∃ t : Fin cfg1.N, (cfg1.win 8).flush t = true ∧ i ∈ ((cfg1.win 8).blk t).view.set := by
  have hN : cfg1.N = 10 := N_1
  have hi0 : (i 0).val < 50000 := (i 0).isLt
  have hi1 : (i 1).val < 128 := (i 1).isLt
  refine ⟨⟨(i 0).val / 5000, by rw [hN]; omega⟩, flush1_8 _, ?_⟩
  obtain ⟨-, -, -, -, -, -, -, -, -, -, -, -, -, -, -, -, e0, e1⟩ := idx_facts ⟨(i 0).val / 5000, by rw [hN]; omega⟩
  rw [mem_blk]
  intro a
  match a with
  | ⟨0, _⟩ =>
    show win1_8.index _ (0 : Fin 2) * 5000 ≤ (i 0).val ∧ (i 0).val < win1_8.index _ (0 : Fin 2) * 5000 + 5000
    rw [e0]; show (i 0).val / 5000 * 5000 ≤ (i 0).val ∧ (i 0).val < (i 0).val / 5000 * 5000 + 5000; omega
  | ⟨1, _⟩ =>
    show win1_8.index _ (1 : Fin 2) * 128 ≤ (i 1).val ∧ (i 1).val < win1_8.index _ (1 : Fin 2) * 128 + 128
    rw [e1]; omega

end Region

end Region1

section Region
variable (V : (c : Dev nD) → (b : Ref sig .tc) → Buf (Elt Ideal) ((c : Thread nD τ).loc b))

/-! ## The region's value -/

/-- The aggregated rows `[50000, 128]`. -/
abbrev arr0 (c : Dev nD) : S50000x128.Idx → EReal := V c main_v30
/-- The per-row factor `[50000, 1]`. -/
abbrev arr1 (c : Dev nD) : S50000x1.Idx → EReal := V c main_v17
/-- The bias `[1, 128]`. -/
abbrev arr2 (c : Dev nD) : S1x128.Idx → EReal := V c main_v43
/-- The normalisation's scale `[1, 128]`. -/
abbrev arr3 (c : Dev nD) : S1x128.Idx → EReal := V c main_v44
/-- The normalisation's shift `[1, 128]`. -/
abbrev arr4 (c : Dev nD) : S1x128.Idx → EReal := V c main_v45
/-- The running mean `[1, 128]`. -/
abbrev arr5 (c : Dev nD) : S1x128.Idx → EReal := V c main_v46
/-- The running variance `[1, 128]`. -/
abbrev arr6 (c : Dev nD) : S1x128.Idx → EReal := V c main_v47
/-- The next layer's weights `[128, 128]`. -/
abbrev arr7 (c : Dev nD) : S128x128.Idx → EReal := V c main_v42

/-- THE ARRAY AFTER THE REGION: the ten written blocks are the output's ten groups of 5000 rows, each the restriction of
    `wholeOut` of the arrays the region finds, so the output array ends holding `wholeOut` of them. -/
theorem region1_array (c : Dev nD) :
    (dat1 (F := Ideal) V c).arrAt 8 cfg1.N
      = wholeOut (V c main_v30) (V c main_v17) (V c main_v43) (V c main_v44) (V c main_v45) (V c main_v46) (V c main_v47) (V c main_v42) :=
  (dat1 (F := Ideal) V c).arrAt_eq_of_cover 8 (Region1.result V c) (fun t _ => Region1.flushed_eq V c t) Region1.cover

/-- THE REGION'S VALUE at row `n`, lane `h` of the output array after the region, from the arrays the region finds. With
    `x = arr0[n, k] * arr1[n] + arr2[k]` (the aggregated row scaled by the row's factor, plus the bias), the normalised
    and clipped value `max ((x - arr5[k]) * rsqrt (arr6[k] + eps) * arr3[k] + arr4[k]) 0` is multiplied into
    `arr7[k, h]`, summed over the 128 lanes `k`, and the sum scaled by the row's factor `arr1[n]`. -/
theorem region1_value (c : Dev nD) (n : Fin 50000) (h : Fin 128) :
    ((dat1 (F := Ideal) V c).arrAt 8 cfg1.N : S50000x128.Idx → EReal) (ix2 n h)
      = (∑ k : Fin 128, max ((((arr0 V c (ix2 n k) * arr1 V c (ix2 n (0 : Fin 1)) + arr2 V c (ix2 (0 : Fin 1) k)) - arr5 V c (ix2 (0 : Fin 1) k))
            * Ideal.rsqrt (arr6 V c (ix2 (0 : Fin 1) k) + Cert.Spec.EPS)) * arr3 V c (ix2 (0 : Fin 1) k) + arr4 V c (ix2 (0 : Fin 1) k)) Cert.Spec.Z0
          * arr7 V c (ix2 k h)) * arr1 V c (ix2 n (0 : Fin 1)) := by
  rw [region1_array]
  rfl

end Region

end Cert.KernelIdeal.Hand1

end
-- ==== Proof.Region2.lean ====
/-
  Region 2: what the second normalise–clip–multiply region leaves in its output array.

  The region walks ten points; at point `t` the body reads rows `5000 t … 5000 t + 4999` of the aggregate and of the
  column of row factors, the five whole `[1,128]` rows (bias, scale, shift, mean, variance) and the whole `[128,128]`
  weight matrix, and stores one `[5000,128]` block. Read at row `p` and column `h` the stored value is

    (Σ_k max ((((x[p,k] · d[p] + b[k]) − μ[k]) · rsqrt (σ²[k] + ε)) · γ[k] + β[k]) 0 · W[k,h]) · d[p],

  a function of row `p` of the row-blocked inputs only. So point `t` writes back block `t` of ONE function of the
  arrays (`wholeOut`), the ten blocks tile the `[50000,128]` array (row `r` lies in block `r / 5000`), and the array ends
  holding `wholeOut` of the arrays the region found.
-/
import proofs.«406701_j21981642621452_2_alg».proof.Proof.Gen.KernelIdeal.Frame
import proofs.«406701_j21981642621452_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Hand2

open Cert.KernelIdeal Cert.KernelIdeal.Gen Idealize.ShloMosaic.ValueIdx

namespace Region2

/-- Row `n`, column `h` of the region's result, from the arrays the region finds. -/
def rowVal (A0 : S50000x128.Idx → EReal) (A1 : S50000x1.Idx → EReal) (A2 A3 A4 A5 A6 : S1x128.Idx → EReal)
    (A7 : S128x128.Idx → EReal) (n : Fin 50000) (h : Fin 128) : EReal :=
  (∑ k : Fin 128, max ((((A0 (ix2 n k) * A1 (ix2 n (0 : Fin 1)) + A2 (ix2 (0 : Fin 1) k)) - A5 (ix2 (0 : Fin 1) k))
        * Ideal.rsqrt (A6 (ix2 (0 : Fin 1) k) + Cert.Spec.EPS)) * A3 (ix2 (0 : Fin 1) k) + A4 (ix2 (0 : Fin 1) k)) Cert.Spec.Z0
      * A7 (ix2 k h)) * A1 (ix2 n (0 : Fin 1))

end Region2

/-- The whole result array as one function of the arrays the region finds: `A0` the aggregate, `A1` the column of
    row factors, `A2` the bias, `A3` the scale, `A4` the shift, `A5` the mean, `A6` the variance, `A7` the weights. -/
def wholeOut (A0 : S50000x128.Idx → EReal) (A1 : S50000x1.Idx → EReal) (A2 A3 A4 A5 A6 : S1x128.Idx → EReal)
    (A7 : S128x128.Idx → EReal) : S50000x128.Idx → EReal :=
  fun i => Region2.rowVal A0 A1 A2 A3 A4 A5 A6 A7 (i 0) (i 1)

/-- The result array read at row `n` and column `h`. -/
theorem wholeOut_apply (A0 : S50000x128.Idx → EReal) (A1 : S50000x1.Idx → EReal) (A2 A3 A4 A5 A6 : S1x128.Idx → EReal)
    (A7 : S128x128.Idx → EReal) (n : Fin 50000) (h : Fin 128) :
    wholeOut A0 A1 A2 A3 A4 A5 A6 A7 (ix2 n h)
      = (∑ k : Fin 128, max ((((A0 (ix2 n k) * A1 (ix2 n (0 : Fin 1)) + A2 (ix2 (0 : Fin 1) k)) - A5 (ix2 (0 : Fin 1) k))
            * Ideal.rsqrt (A6 (ix2 (0 : Fin 1) k) + Cert.Spec.EPS)) * A3 (ix2 (0 : Fin 1) k) + A4 (ix2 (0 : Fin 1) k)) Cert.Spec.Z0
          * A7 (ix2 k h)) * A1 (ix2 n (0 : Fin 1)) := rfl

namespace Region2

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matmul of the body read at an index -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's matmul into the zero accumulator, read at `(p, h)`: the sum over the contracted axis. -/
theorem mm_apply (L : FVec Ideal S5000x128 .f32) (R : FVec Ideal S128x128 .f32) (p : Fin 5000) (h : Fin 128) :
    matmul dot_S5000x128_S128x128_S5000x128_1_0_0_1_n_n (some .fp32) L R (constant S5000x128 .f32 0x00000000#32) (ix2 p h)
      = ∑ k : Fin 128, L (ix2 p k) * R (ix2 k h) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p h) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p h) ((ValueIdx.contrEquiv1 dot_S5000x128_S128x128_S5000x128_1_0_0_1_n_n 128 rfl rfl).symm k) = ix2 k h := funext fun a => Fin.ext (by
    match a with
    | ⟨0, _⟩ => exact (rhs_dot_0 _ _).trans hk
    | ⟨1, _⟩ => exact rhs_dot_1 _ _)
  rw [el, er]

/-! ## The body's arithmetic at an index -/

/-- The value the body stores, read at row `p` and column `h` of the block: the scaled row of the aggregate plus the
    bias, normalised, clipped below at zero, multiplied into the weight matrix, and scaled by the row's factor again. -/
theorem pay_apply (v0 : Vec Ideal S5000x128 .f32) (v2 : Vec Ideal S5000x1 .f32) (v6 v10 v14 v21 v25 : Vec Ideal S1x128 .f32)
    (v31 : Vec Ideal S128x128 .f32) (v34 : Vec Ideal S5000x1 .f32) (p : Fin 5000) (h : Fin 128) :
    k2_pay1 (F := Ideal) v0 v2 v6 v10 v14 v21 v25 v31 v34 (ix2 p h)
      = (∑ k : Fin 128, max ((((v0 (ix2 p k) * v2 (ix2 p (0 : Fin 1)) + v6 (ix2 (0 : Fin 1) k)) - v10 (ix2 (0 : Fin 1) k))
            * Ideal.rsqrt (v14 (ix2 (0 : Fin 1) k) + Cert.Spec.EPS)) * v21 (ix2 (0 : Fin 1) k) + v25 (ix2 (0 : Fin 1) k)) Cert.Spec.Z0
          * v31 (ix2 k h)) * v34 (ix2 p (0 : Fin 1)) := by
  unfold k2_pay1
  simp only [shapeCast_self]
  rw [mulf_apply, mm_apply, broadcastTo_a1_ab_apply]
  congr 1
  refine Finset.sum_congr rfl fun k _ => ?_
  congr 1
  rw [maximumf_apply, addf_apply, mulf_apply, mulf_apply, subf_apply, addf_apply, mulf_apply,
    broadcastTo_a1_ab_apply, broadcastTo_1b_ab_apply, broadcastTo_1b_ab_apply, broadcastTo_1b_ab_apply,
    broadcastTo_1b_ab_apply, broadcastTo_1b_ab_apply]
  rfl

/-! ## What the body leaves in the output block -/

theorem hz : (![0, 0] : Fin 2 → Nat) = fun _ => 0 := funext fun a => by fin_cases a <;> rfl

/-- The output block after the body, read at `(p, h)`, from the input blocks. -/
theorem out_apply (x0 : Vec Ideal S5000x128 .f32) (x1 : Vec Ideal S5000x1 .f32) (x2 x3 x4 x5 x6 : Vec Ideal S1x128 .f32)
    (x7 : Vec Ideal S128x128 .f32) (p : Fin 5000) (h : Fin 128) :
    out2_8 (F := Ideal) x0 x1 x2 x3 x4 x5 x6 x7 (ix2 p h)
      = (∑ k : Fin 128, max ((((x0 (ix2 p k) * x1 (ix2 p (0 : Fin 1)) + x2 (ix2 (0 : Fin 1) k)) - x5 (ix2 (0 : Fin 1) k))
            * Ideal.rsqrt (x6 (ix2 (0 : Fin 1) k) + Cert.Spec.EPS)) * x3 (ix2 (0 : Fin 1) k) + x4 (ix2 (0 : Fin 1) k)) Cert.Spec.Z0
          * x7 (ix2 k h)) * x1 (ix2 p (0 : Fin 1)) := by
  unfold out2_8
  rw [View.canon_unit_zero hz]
  simp only [View.ld_unit_zero (S := S5000x128) hz, View.ld_unit_zero (S := S5000x1) hz,
    View.ld_unit_zero (S := S1x128) hz, View.ld_unit_zero (S := S128x128) hz]
  exact pay_apply x0 x1 x2 x5 x6 x3 x4 x7 x1 p h

/-- The output block at row `p` is the result's row `n` when the input blocks' rows `p` are the arrays' rows `n` and
    the whole-array windows' blocks are their arrays. -/
theorem out_eq_rowVal (x0 : Vec Ideal S5000x128 .f32) (x1 : Vec Ideal S5000x1 .f32) (x2 x3 x4 x5 x6 : Vec Ideal S1x128 .f32)
    (x7 : Vec Ideal S128x128 .f32)
    (A0 : S50000x128.Idx → EReal) (A1 : S50000x1.Idx → EReal) (A2 A3 A4 A5 A6 : S1x128.Idx → EReal) (A7 : S128x128.Idx → EReal)
    (p : Fin 5000) (n : Fin 50000) (h : Fin 128)
    (h0 : ∀ k : Fin 128, x0 (ix2 p k) = A0 (ix2 n k)) (h1 : x1 (ix2 p (0 : Fin 1)) = A1 (ix2 n (0 : Fin 1)))
    (h2 : ∀ k : Fin 128, x2 (ix2 (0 : Fin 1) k) = A2 (ix2 (0 : Fin 1) k))
    (h3 : ∀ k : Fin 128, x3 (ix2 (0 : Fin 1) k) = A3 (ix2 (0 : Fin 1) k))
    (h4 : ∀ k : Fin 128, x4 (ix2 (0 : Fin 1) k) = A4 (ix2 (0 : Fin 1) k))
    (h5 : ∀ k : Fin 128, x5 (ix2 (0 : Fin 1) k) = A5 (ix2 (0 : Fin 1) k))
    (h6 : ∀ k : Fin 128, x6 (ix2 (0 : Fin 1) k) = A6 (ix2 (0 : Fin 1) k))
    (h7 : ∀ k : Fin 128, x7 (ix2 k h) = A7 (ix2 k h)) :
    out2_8 (F := Ideal) x0 x1 x2 x3 x4 x5 x6 x7 (ix2 p h) = wholeOut A0 A1 A2 A3 A4 A5 A6 A7 (ix2 n h) := by
  rw [out_apply]
  show _ = rowVal A0 A1 A2 A3 A4 A5 A6 A7 n h
  unfold rowVal
  rw [h1]
  congr 1
  refine Finset.sum_congr rfl fun k _ => ?_
  rw [h0 k, h2 k, h3 k, h4 k, h5 k, h6 k, h7 k]

section Blocks
variable (V : (c : Dev nD) → (b : Ref sig .tc) → Buf (Elt Ideal) ((c : Thread nD τ).loc b))

/-- The result array of the region from the arrays as the region finds them. -/
abbrev res (c : Dev nD) : S50000x128.Idx → EReal :=
  wholeOut (V c main_v58) (V c main_v17) (V c main_v71) (V c main_v72) (V c main_v73) (V c main_v74) (V c main_v75) (V c main_v70)

/-! ## The windows' blocks read at the arrays -/

/-- The printed index maps over the grid: the row-blocked windows are at block `t` at point `t`, the whole-array
    windows at block zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Window 0's block at point `t` is rows `5000 t … 5000 t + 4999` of its array. -/
theorem blk0_apply (c : Dev nD) (t : Fin cfg2.N) (x : S5000x128.Idx) (k : S50000x128.Idx)
    (hk0 : (k 0).val = t.val * 5000 + (x 0).val) (hk1 : (k 1).val = (x 1).val) :
    (iblk2 V c 0 t : Vec Ideal S5000x128 .f32) x = (V c main_v58 : S50000x128.Idx → EReal) k := by
  obtain ⟨e0, e1, -⟩ := idx_facts t
  unfold iblk2
  rw [View.read_apply]
  show V c main_v58 _ = V c main_v58 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The arrays as the region finds them, each at its literal type. -/
abbrev arr0 (c : Dev nD) : S50000x128.Idx → EReal := V c main_v58
abbrev arr1 (c : Dev nD) : S50000x1.Idx → EReal := V c main_v17
abbrev arr2 (c : Dev nD) : S1x128.Idx → EReal := V c main_v71
abbrev arr3 (c : Dev nD) : S1x128.Idx → EReal := V c main_v72
abbrev arr4 (c : Dev nD) : S1x128.Idx → EReal := V c main_v73
abbrev arr5 (c : Dev nD) : S1x128.Idx → EReal := V c main_v74
abbrev arr6 (c : Dev nD) : S1x128.Idx → EReal := V c main_v75
abbrev arr7 (c : Dev nD) : S128x128.Idx → EReal := V c main_v70

/-- Window 1's block at point `t` is rows `5000 t … 5000 t + 4999` of the column array. -/
theorem blk1_apply (c : Dev nD) (t : Fin cfg2.N) (x : S5000x1.Idx) (k : S50000x1.Idx)
    (hk0 : (k 0).val = t.val * 5000 + (x 0).val) (hk1 : (k 1).val = (x 1).val) :
    (iblk2 V c 1 t : Vec Ideal S5000x1 .f32) x = (V c main_v17 : S50000x1.Idx → EReal) k := by
  obtain ⟨-, -, e0, e1, -⟩ := idx_facts t
  unfold iblk2
  rw [View.read_apply]
  show V c main_v17 _ = V c main_v17 _
  congr 1
  funext a
  apply Fin.ext
  match a with
  | ⟨0, _⟩ => show win2_1.index t 0 * 5000 + 1 * (x 0).val = (k 0).val; rw [e0, hk0]; omega
  | ⟨1, _⟩ => show win2_1.index t 1 * 1 + 1 * (x 1).val = (k 1).val; rw [e1, hk1]; omega

/-- Window 2's block is its whole array at every point. -/
theorem blk2_apply (c : Dev nD) (t : Fin cfg2.N) (x : S1x128.Idx) :
    (iblk2 V c 2 t : Vec Ideal S1x128 .f32) x = (V c main_v71 : S1x128.Idx → EReal) x := by
  obtain ⟨-, -, -, -, e0, e1, -⟩ := idx_facts t
  unfold iblk2
  rw [View.read_apply]
  show V c main_v71 _ = V c main_v71 _
  congr 1
  funext a
  apply Fin.ext
  match a with
  | ⟨0, _⟩ => show win2_2.index t 0 * 1 + 1 * (x 0).val = (x 0).val; rw [e0]; omega
  | ⟨1, _⟩ => show win2_2.index t 1 * 128 + 1 * (x 1).val = (x 1).val; rw [e1]; omega

/-- Window 3's block is its whole array at every point. -/
theorem blk3_apply (c : Dev nD) (t : Fin cfg2.N) (x : S1x128.Idx) :
    (iblk2 V c 3 t : Vec Ideal S1x128 .f32) x = (V c main_v72 : S1x128.Idx → EReal) x := by
  obtain ⟨-, -, -, -, -, -, e0, e1, -⟩ := idx_facts t
  unfold iblk2
  rw [View.read_apply]
  show V c main_v72 _ = V c main_v72 _
  congr 1
  funext a
  apply Fin.ext
  match a with
  | ⟨0, _⟩ => show win2_3.index t 0 * 1 + 1 * (x 0).val = (x 0).val; rw [e0]; omega
  | ⟨1, _⟩ => show win2_3.index t 1 * 128 + 1 * (x 1).val = (x 1).val; rw [e1]; omega

/-- Window 4's block is its whole array at every point. -/
theorem blk4_apply (c : Dev nD) (t : Fin cfg2.N) (x : S1x128.Idx) :
    (iblk2 V c 4 t : Vec Ideal S1x128 .f32) x = (V c main_v73 : S1x128.Idx → EReal) x := by
  obtain ⟨-, -, -, -, -, -, -, -, e0, e1, -⟩ := idx_facts t
  unfold iblk2
  rw [View.read_apply]
  show V c main_v73 _ = V c main_v73 _
  congr 1
  funext a
  apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega

/-- Window 5's block is its whole array at every point. -/
theorem blk5_apply (c : Dev nD) (t : Fin cfg2.N) (x : S1x128.Idx) :
    (iblk2 V c 5 t : Vec Ideal S1x128 .f32) x = (V c main_v74 : S1x128.Idx → EReal) x := by
  obtain ⟨-, -, -, -, -, -, -, -, -, -, e0, e1, -⟩ := idx_facts t
  unfold iblk2
  rw [View.read_apply]
  show V c main_v74 _ = V c main_v74 _
  congr 1
  funext a
  apply Fin.ext
  match a with
  | ⟨0, _⟩ => show win2_5.index t 0 * 1 + 1 * (x 0).val = (x 0).val; rw [e0]; omega
  | ⟨1, _⟩ => show win2_5.index t 1 * 128 + 1 * (x 1).val = (x 1).val; rw [e1]; omega

/-- Window 6's block is its whole array at every point. -/
theorem blk6_apply (c : Dev nD) (t : Fin cfg2.N) (x : S1x128.Idx) :
    (iblk2 V c 6 t : Vec Ideal S1x128 .f32) x = (V c main_v75 : S1x128.Idx → EReal) x := by
  obtain ⟨-, -, -, -, -, -, -, -, -, -, -, -, e0, e1, -⟩ := idx_facts t
  unfold iblk2
  rw [View.read_apply]
  show V c main_v75 _ = V c main_v75 _
  congr 1
  funext a
  apply Fin.ext
  match a with
  | ⟨0, _⟩ => show win2_6.index t 0 * 1 + 1 * (x 0).val = (x 0).val; rw [e0]; omega
  | ⟨1, _⟩ => show win2_6.index t 1 * 128 + 1 * (x 1).val = (x 1).val; rw [e1]; omega

/-- Window 7's block is its whole array at every point. -/
theorem blk7_apply (c : Dev nD) (t : Fin cfg2.N) (x : S128x128.Idx) :
    (iblk2 V c 7 t : Vec Ideal S128x128 .f32) x = (V c main_v70 : S128x128.Idx → EReal) x := by
  obtain ⟨-, -, -, -, -, -, -, -, -, -, -, -, -, -, e0, e1, -⟩ := idx_facts t
  unfold iblk2
  rw [View.read_apply]
  show V c main_v70 _ = V c main_v70 _
  congr 1
  funext a
  apply Fin.ext
  match a with
  | ⟨0, _⟩ => show win2_7.index t 0 * 128 + 1 * (x 0).val = (x 0).val; rw [e0]; omega
  | ⟨1, _⟩ => show win2_7.index t 1 * 128 + 1 * (x 1).val = (x 1).val; rw [e1]; omega

/-! ## What a point writes back -/

/-- The row of the array that row `p` of point `t`'s block is. -/
abbrev rowAt (t : Fin cfg2.N) (p : Fin 5000) : Fin 50000 :=
  ⟨t.val * 5000 + p.val, by have h := t.isLt; have hN : cfg2.N = 10 := N_2; have := p.isLt; omega⟩

/-- Point `t` writes back block `t` of the result array. -/
theorem flushed_eq (c : Dev nD) (t : Fin cfg2.N) :
    (dat2 (F := Ideal) V c).flushed 8 t = ((cfg2.win 8).blk t).view.read (Elt Ideal) (res V c) := by
  show (cfg2.win 8).cut (grid2.coords t) ((dat2 V c).after 8 t) = _
  rw [after2_8]
  funext j
  obtain ⟨p, h, rfl⟩ : ∃ (p : Fin 5000) (h : Fin 128), (j : S5000x128.Idx) = ix2 p h := ⟨j 0, j 1, eq_ix2 j⟩
  rw [View.read_apply]
  obtain ⟨-, -, -, -, -, -, -, -, -, -, -, -, -, -, -, -, e0, e1⟩ := idx_facts t
  have hemb : (((cfg2.win 8).blk t).view.emb (ix2 p h) : S50000x128.Idx) = ix2 (rowAt t p) h := by
    funext a
    apply Fin.ext
    match a with
    | ⟨0, _⟩ => show win2_8.index t 0 * 5000 + 1 * p.val = t.val * 5000 + p.val; rw [e0]; omega
    | ⟨1, _⟩ => show win2_8.index t 1 * 128 + 1 * h.val = h.val; rw [e1]; omega
  show out2_8 (iblk2 V c 0 t) (iblk2 V c 1 t) (iblk2 V c 2 t) (iblk2 V c 3 t) (iblk2 V c 4 t) (iblk2 V c 5 t) (iblk2 V c 6 t) (iblk2 V c 7 t) (ix2 p h)
    = res V c (((cfg2.win 8).blk t).view.emb (ix2 p h))
  rw [hemb]
  exact out_eq_rowVal (iblk2 V c 0 t) (iblk2 V c 1 t) (iblk2 V c 2 t) (iblk2 V c 3 t) (iblk2 V c 4 t) (iblk2 V c 5 t) (iblk2 V c 6 t) (iblk2 V c 7 t)
    (arr0 V c) (arr1 V c) (arr2 V c) (arr3 V c) (arr4 V c) (arr5 V c) (arr6 V c) (arr7 V c) p (rowAt t p) h
    (fun k => blk0_apply V c t (ix2 p k) (ix2 (rowAt t p) k) rfl rfl)
    (blk1_apply V c t (ix2 p (0 : Fin 1)) (ix2 (rowAt t p) (0 : Fin 1)) rfl rfl)
    (fun k => blk2_apply V c t (ix2 (0 : Fin 1) k)) (fun k => blk3_apply V c t (ix2 (0 : Fin 1) k))
    (fun k => blk4_apply V c t (ix2 (0 : Fin 1) k)) (fun k => blk5_apply V c t (ix2 (0 : Fin 1) k))
    (fun k => blk6_apply V c t (ix2 (0 : Fin 1) k)) (fun k => blk7_apply V c t (ix2 k h))

/-! ## The blocks cover the array -/

/-- An index is in point `t`'s output block iff each coordinate is in the block's range on its axis. -/
theorem mem_blk (t : Fin cfg2.N) (i : S50000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v76).slice (win2_8.rect t)).set ↔ _
  rw [View.set_slice_whole, Rect.mem_set_unit]
  exact Iff.rfl

/-- Row `r` is in the block of point `r / 5000`. -/
theorem cover (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  let t : Fin cfg2.N := ⟨(i 0).val / 5000, by rw [show cfg2.N = 10 from N_2]; omega⟩
  obtain ⟨-, -, -, -, -, -, -, -, -, -, -, -, -, -, -, -, e0, e1⟩ := idx_facts t
  refine ⟨t, flush2_8 t, ?_⟩
  rw [mem_blk]
  intro a
  match a with
  | ⟨0, _⟩ => show win2_8.index t 0 * 5000 ≤ (i 0).val ∧ (i 0).val < win2_8.index t 0 * 5000 + 5000; rw [e0]; show (i 0).val / 5000 * 5000 ≤ (i 0).val ∧ (i 0).val < (i 0).val / 5000 * 5000 + 5000; omega
  | ⟨1, _⟩ => show win2_8.index t 1 * 128 ≤ (i 1).val ∧ (i 1).val < win2_8.index t 1 * 128 + 128; rw [e1]; omega

end Blocks

end Region2

/-! ## The array after the region -/

section Final
variable (V : (c : Dev nD) → (b : Ref sig .tc) → Buf (Elt Ideal) ((c : Thread nD τ).loc b))

/-- The output array after the region is `wholeOut` of the arrays the region found. -/
theorem region2_array (c : Dev nD) :
    (dat2 (F := Ideal) V c).arrAt 8 cfg2.N
      = wholeOut (V c main_v58) (V c main_v17) (V c main_v71) (V c main_v72) (V c main_v73) (V c main_v74) (V c main_v75) (V c main_v70) :=
  (dat2 V c).arrAt_eq_of_cover 8 (Region2.res V c) (fun t _ => Region2.flushed_eq V c t) Region2.cover

/-- The output array after the region, read at row `n` and column `h`. -/
theorem region2_value (c : Dev nD) (n : Fin 50000) (h : Fin 128) :
    ((dat2 (F := Ideal) V c).arrAt 8 cfg2.N : S50000x128.Idx → EReal) (ix2 n h)
      = (∑ k : Fin 128, max ((((Region2.arr0 V c (ix2 n k) * Region2.arr1 V c (ix2 n (0 : Fin 1)) + Region2.arr2 V c (ix2 (0 : Fin 1) k))
              - Region2.arr5 V c (ix2 (0 : Fin 1) k))
            * Ideal.rsqrt (Region2.arr6 V c (ix2 (0 : Fin 1) k) + Cert.Spec.EPS)) * Region2.arr3 V c (ix2 (0 : Fin 1) k)
            + Region2.arr4 V c (ix2 (0 : Fin 1) k)) Cert.Spec.Z0
          * Region2.arr7 V c (ix2 k h)) * Region2.arr1 V c (ix2 n (0 : Fin 1)) := by
  rw [region2_array V c]
  rfl

end Final

end Cert.KernelIdeal.Hand2

end
-- ==== Proof.Region3.lean ====
/-
  The pooling region of the graph network, read as values over the extended reals.

  The region walks the fifty thousand nodes in fifty tiles of a thousand rows. For each tile it forms the normalised
  rows  y = ((agg * fac + bias - mean) * rsqrt (var + eps)) * gamma + beta  (no activation) and the one-hot tile
  hot[r, g] = [graph id of row r is g], and adds  hotᵀ · y  (a product contracting the tile's row axis on BOTH sides)
  onto a [1024, 128] block of sums and the column sums of `hot` onto a [1, 1024] block of counts. Both blocks stay in
  place from tile to tile: the first tile stores zeros into them before it accumulates, every later tile accumulates onto
  what the tile before left, and they are written back to their arrays once, after the last tile.

  So after the region  sums[g, h] = ∑ over ALL nodes n of hot(n, g) * y(n, h)  and  cnt[0, g] = ∑ over all nodes of
  hot(n, g). The steps: what each of the two control cases leaves in the blocks, as a term of the tile's inputs and of
  the blocks' earlier contents; those terms read at an index (the product and the column sum as sums over the tile's
  thousand rows); a tile's rows as rows `1000 t + r` of the arrays; the running sums by induction over the tiles (zero
  plus a sum is the sum; consecutive ranges of naturals concatenate); and the single write-back of a whole block.
-/
import proofs.«406701_j21981642621452_2_alg».proof.Proof.Gen.KernelIdeal.Frame
import proofs.«406701_j21981642621452_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Hand3

open Cert.KernelIdeal Cert.KernelIdeal.Gen Idealize.ShloMosaic.ValueIdx

/-! ## The statement's vocabulary: the results as functions of the input arrays -/

/-- The normalised row `n` at feature `h`: the aggregated row `A0` scaled by the node's factor `A1`, the bias `A2` added, the
    running mean `A5` taken off, times the inverse root of the running variance `A6` plus epsilon, times the scale `A3`,
    plus the shift `A4`. -/
def rowY (A0 : S50000x128.Idx → EReal) (A1 : S50000x1.Idx → EReal) (A2 A3 A4 A5 A6 : S1x128.Idx → EReal)
    (n : Fin 50000) (h : Fin 128) : EReal :=
  (((A0 (ix2 n h) * A1 (ix2 n (0 : Fin 1)) + A2 (ix2 (0 : Fin 1) h)) - A5 (ix2 (0 : Fin 1) h))
    * Ideal.rsqrt (A6 (ix2 (0 : Fin 1) h) + Cert.Spec.EPS)) * A3 (ix2 (0 : Fin 1) h) + A4 (ix2 (0 : Fin 1) h)

/-- The pooled sums: at graph `i 0` and feature `i 1`, the sum over all nodes of the node's one-hot entry (its graph id
    `B` against the graph) times its normalised row's entry. -/
def sumsOut (A0 : S50000x128.Idx → EReal) (A1 : S50000x1.Idx → EReal) (A2 A3 A4 A5 A6 : S1x128.Idx → EReal)
    (B : S50000x1.Idx → BitVec 32) : S1024x128.Idx → EReal :=
  fun i => ∑ n : Fin 50000, Cert.Spec.oneHot (B (ix2 n (0 : Fin 1))) (i 0) * rowY A0 A1 A2 A3 A4 A5 A6 n (i 1)

/-- The pooled counts: at graph `i 1`, the sum over all nodes of the node's one-hot entry. -/
def cntOut (B : S50000x1.Idx → BitVec 32) : S1x1024.Idx → EReal :=
  fun i => ∑ n : Fin 50000, Cert.Spec.oneHot (B (ix2 n (0 : Fin 1))) (i 1)

theorem sumsOut_apply (A0 : S50000x128.Idx → EReal) (A1 : S50000x1.Idx → EReal) (A2 A3 A4 A5 A6 : S1x128.Idx → EReal)
    (B : S50000x1.Idx → BitVec 32) (g : Fin 1024) (h : Fin 128) :
    sumsOut A0 A1 A2 A3 A4 A5 A6 B (ix2 g h)
      = ∑ n : Fin 50000, Cert.Spec.oneHot (B (ix2 n (0 : Fin 1))) g * rowY A0 A1 A2 A3 A4 A5 A6 n h := rfl

theorem cntOut_apply (B : S50000x1.Idx → BitVec 32) (g : Fin 1024) :
    cntOut B (ix2 (0 : Fin 1) g) = ∑ n : Fin 50000, Cert.Spec.oneHot (B (ix2 n (0 : Fin 1))) g := rfl

namespace Region3

variable {F : FTy → Type} [FloatOps F]

/-- The zero offsets of a whole-buffer rectangle, as a constant function. -/
theorem hz : (![0, 0] : Fin 2 → Nat) = fun _ => 0 := funext fun a => by fin_cases a <;> rfl

/-- A point after the first leaves in the sums' buffer the payload of its one covering store: the buffer's
    contents before the point plus the product of the one-hot tile (transposed) with the normalised tile. -/
theorem pieceB8 (c : Dev nD) (i : grid3.Coords) (arg1 : Memref sig .tc .vmem S1000x128 .f32) (harg1 : arg1.IsWhole) (arg2 : Memref sig .tc .vmem S1000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x1 .i32) (harg8 : arg8.IsWhole) (arg9 : Memref sig .tc .vmem S1024x128 .f32) (harg9 : arg9.IsWhole) (arg10 : Memref sig .tc .vmem S1x1024 .f32) (harg10 : arg10.IsWhole) (hc0 : ¬cond3_0 i) (x0 : Vec F S1000x128 .f32) (x1 : Vec F S1000x1 .f32) (x2 : Vec F S1x128 .f32) (x3 : Vec F S1x128 .f32) (x4 : Vec F S1x128 .f32) (x5 : Vec F S1x128 .f32) (x6 : Vec F S1x128 .f32) (x7 : Vec F S1000x1 .i32) (xo8 : Vec F S1024x128 .f32) (xo9 : Vec F S1x1024 .f32) :
    out3_B_8 c i arg1 harg1 arg2 harg2 arg3 harg3 arg4 harg4 arg5 harg5 arg6 harg6 arg7 harg7 arg8 harg8 arg9 harg9 arg10 harg10 hc0 x0 x1 x2 x3 x4 x5 x6 x7 xo8 xo9 = k3_pay1 (k3_pay5 x0 x1 x2 x5 x6 x3 x4) (k3_pay6 x7) xo8 := by
  unfold out3_B_8
  rw [View.read_writes_eq_canon _ _ _ (cover3_B_8 c i arg1 harg1 arg2 harg2 arg3 harg3 arg4 harg4 arg5 harg5 arg6 harg6 arg7 harg7 arg8 harg8 arg9 harg9 arg10 harg10 hc0 x0 x1 x2 x3 x4 x5 x6 x7 xo8 xo9)]
  unfold kernelRun3_B
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, View.ld_unit_zero (S := S1024x128) hz,
    View.ld_unit_zero (S := S1000x128) hz, View.ld_unit_zero (S := S1000x1) hz, View.ld_unit_zero (S := S1x128) hz]

/-- A point after the first leaves in the counts' buffer its contents before the point plus the column sums of
    the one-hot tile. -/
theorem pieceB9 (c : Dev nD) (i : grid3.Coords) (arg1 : Memref sig .tc .vmem S1000x128 .f32) (harg1 : arg1.IsWhole) (arg2 : Memref sig .tc .vmem S1000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x1 .i32) (harg8 : arg8.IsWhole) (arg9 : Memref sig .tc .vmem S1024x128 .f32) (harg9 : arg9.IsWhole) (arg10 : Memref sig .tc .vmem S1x1024 .f32) (harg10 : arg10.IsWhole) (hc0 : ¬cond3_0 i) (x0 : Vec F S1000x128 .f32) (x1 : Vec F S1000x1 .f32) (x2 : Vec F S1x128 .f32) (x3 : Vec F S1x128 .f32) (x4 : Vec F S1x128 .f32) (x5 : Vec F S1x128 .f32) (x6 : Vec F S1x128 .f32) (x7 : Vec F S1000x1 .i32) (xo8 : Vec F S1024x128 .f32) (xo9 : Vec F S1x1024 .f32) :
    out3_B_9 c i arg1 harg1 arg2 harg2 arg3 harg3 arg4 harg4 arg5 harg5 arg6 harg6 arg7 harg7 arg8 harg8 arg9 harg9 arg10 harg10 hc0 x0 x1 x2 x3 x4 x5 x6 x7 xo8 xo9 = k3_pay2 (k3_pay6 x7) xo9 := by
  unfold out3_B_9
  rw [View.read_writes_eq_canon _ _ _ (cover3_B_9 c i arg1 harg1 arg2 harg2 arg3 harg3 arg4 harg4 arg5 harg5 arg6 harg6 arg7 harg7 arg8 harg8 arg9 harg9 arg10 harg10 hc0 x0 x1 x2 x3 x4 x5 x6 x7 xo8 xo9)]
  unfold kernelRun3_B
  dsimp only
  sl_unfold_words
  rw [View.canon_unit_zero hz]
  simp only [View.readAt_eq_ld, harg8.read_unread, harg10.read_unread, View.ld_unit_zero (S := S1x1024) hz,
    View.ld_unit_zero (S := S1000x1) hz]

/-- The first point stores zeros into the sums' buffer, reads them back and accumulates onto them. -/
theorem pieceA8 (c : Dev nD) (i : grid3.Coords) (arg1 : Memref sig .tc .vmem S1000x128 .f32) (harg1 : arg1.IsWhole) (arg2 : Memref sig .tc .vmem S1000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x1 .i32) (harg8 : arg8.IsWhole) (arg9 : Memref sig .tc .vmem S1024x128 .f32) (harg9 : arg9.IsWhole) (arg10 : Memref sig .tc .vmem S1x1024 .f32) (harg10 : arg10.IsWhole) (hc0 : cond3_0 i) (x0 : Vec F S1000x128 .f32) (x1 : Vec F S1000x1 .f32) (x2 : Vec F S1x128 .f32) (x3 : Vec F S1x128 .f32) (x4 : Vec F S1x128 .f32) (x5 : Vec F S1x128 .f32) (x6 : Vec F S1x128 .f32) (x7 : Vec F S1000x1 .i32) :
    out3_A_8 c i arg1 harg1 arg2 harg2 arg3 harg3 arg4 harg4 arg5 harg5 arg6 harg6 arg7 harg7 arg8 harg8 arg9 harg9 arg10 harg10 hc0 x0 x1 x2 x3 x4 x5 x6 x7 = k3_pay1 (k3_pay5 x0 x1 x2 x5 x6 x3 x4) (k3_pay6 x7) (k3_pay3 (F := F)) := by
  unfold out3_A_8
  rw [View.read_writes_eq_canon _ _ _ (cover3_A_8 c i arg1 harg1 arg2 harg2 arg3 harg3 arg4 harg4 arg5 harg5 arg6 harg6 arg7 harg7 arg8 harg8 arg9 harg9 arg10 harg10 hc0 x0 x1 x2 x3 x4 x5 x6 x7)]
  unfold kernelRun3_A
  dsimp only
  sl_unfold_words
  rw [View.canon_cons_unit_zero (S := S1024x128) hz, View.readCov_unit_zero (S := S1024x128) _ hz]
  simp only [View.readAt_eq_ld, harg1.read_unread, harg2.read_unread, harg3.read_unread, harg4.read_unread, harg5.read_unread,
    harg6.read_unread, harg7.read_unread, harg8.read_unread,
    View.ld_unit_zero (S := S1000x128) hz, View.ld_unit_zero (S := S1000x1) hz, View.ld_unit_zero (S := S1x128) hz]

/-- The first point stores zeros into the counts' buffer, reads them back and accumulates onto them. -/
theorem pieceA9 (c : Dev nD) (i : grid3.Coords) (arg1 : Memref sig .tc .vmem S1000x128 .f32) (harg1 : arg1.IsWhole) (arg2 : Memref sig .tc .vmem S1000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1000x1 .i32) (harg8 : arg8.IsWhole) (arg9 : Memref sig .tc .vmem S1024x128 .f32) (harg9 : arg9.IsWhole) (arg10 : Memref sig .tc .vmem S1x1024 .f32) (harg10 : arg10.IsWhole) (hc0 : cond3_0 i) (x0 : Vec F S1000x128 .f32) (x1 : Vec F S1000x1 .f32) (x2 : Vec F S1x128 .f32) (x3 : Vec F S1x128 .f32) (x4 : Vec F S1x128 .f32) (x5 : Vec F S1x128 .f32) (x6 : Vec F S1x128 .f32) (x7 : Vec F S1000x1 .i32) :
    out3_A_9 c i arg1 harg1 arg2 harg2 arg3 harg3 arg4 harg4 arg5 harg5 arg6 harg6 arg7 harg7 arg8 harg8 arg9 harg9 arg10 harg10 hc0 x0 x1 x2 x3 x4 x5 x6 x7 = k3_pay2 (k3_pay6 x7) (k3_pay4 (F := F)) := by
  unfold out3_A_9
  rw [View.read_writes_eq_canon _ _ _ (cover3_A_9 c i arg1 harg1 arg2 harg2 arg3 harg3 arg4 harg4 arg5 harg5 arg6 harg6 arg7 harg7 arg8 harg8 arg9 harg9 arg10 harg10 hc0 x0 x1 x2 x3 x4 x5 x6 x7)]
  unfold kernelRun3_A
  dsimp only
  sl_unfold_words
  rw [View.canon_cons_unit_zero (S := S1x1024) hz, View.readCov_unit_zero (S := S1x1024) _ hz]
  simp only [View.readAt_eq_ld, harg8.read_unread, View.ld_unit_zero (S := S1000x1) hz]

/-! ## The payloads read at an index, over the extended reals -/

/-- A `[a, 1]` column broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The normalised tile at row `r`, feature `h`: the row scaled by its node's factor, the bias added, the running mean
    taken off, times the inverse root of the running variance plus epsilon, times the scale, plus the shift. -/
theorem pay5_apply (v3 : Vec Ideal S1000x128 .f32) (v5 : Vec Ideal S1000x1 .f32) (v9 v13 v17 v24 v28 : Vec Ideal S1x128 .f32)
    (r : Fin 1000) (h : Fin 128) :
    k3_pay5 (F := Ideal) v3 v5 v9 v13 v17 v24 v28 (ix2 r h)
      = ((((v3 (ix2 r h) : EReal) * v5 (ix2 r (0 : Fin 1)) + v9 (ix2 (0 : Fin 1) h)) - v13 (ix2 (0 : Fin 1) h))
          * Ideal.rsqrt (v17 (ix2 (0 : Fin 1) h) + Cert.Spec.EPS)) * v24 (ix2 (0 : Fin 1) h) + v28 (ix2 (0 : Fin 1) h) := by
  unfold k3_pay5
  simp only [shapeCast_self]
  rw [addf_apply, mulf_apply, mulf_apply, subf_apply, addf_apply, mulf_apply]
  rw [broadcastTo_1b_ab_apply, broadcastTo_1b_ab_apply, broadcastTo_1b_ab_apply, broadcastTo_1b_ab_apply,
    broadcastTo_1b_ab_apply, broadcastTo_a1_ab_apply]
  rfl

/-- The one-hot tile at row `r`, graph `g`: the compare bit of the row's graph id against `g`, widened and converted. -/
theorem pay6_apply (v32 : Vec Ideal S1000x1 .i32) (r : Fin 1000) (g : Fin 1024) :
    k3_pay6 (F := Ideal) v32 (ix2 r g) = Cert.Spec.oneHot (v32 (ix2 r (0 : Fin 1))) g := by
  unfold k3_pay6 Cert.Spec.oneHot
  simp only [shapeCast_self]
  rw [sitofp_apply, extui_apply]
  show FloatOps.sitofp .f32 ((IntOp.cmpi .eq (broadcastTo S1000x1024 v32 broadcasts_S1000x1_S1000x1024 (ix2 r g))
    (iota .tc S1000x1024 32 [1] iota_S1000x1024_d1_w32 (ix2 r g))).setWidth 32) = _
  rw [broadcastTo_a1_ab_apply, iota_single_apply]

/-- The column sums of a `[1000, 1024]` tile (a reduction over its rows from the zero word), read at column `g`. -/
theorem colsum_apply (v38 : FVec Ideal S1000x1024 .f32) (g : Fin 1024) :
    multiReduction .add [0] S1024 v38 0x00000000#32 reduces_S1000x1024_S1024 (.inl rfl) rfl (ix1 g)
      = ∑ r : Fin 1000, v38 (ix2 r g) := by
  refine (Ideal.multiReduction_add_single v38 0x00000000#32 reduces_S1000x1024_S1024 (.inl rfl) rfl (ix1 g)).trans ?_
  refine Finset.sum_congr rfl fun k _ => congrArg v38 (funext fun a => Fin.ext ?_)
  match a with
  | ⟨0, _⟩ => rfl
  | ⟨1, _⟩ => rfl

/-- The counts' payload at graph `g`: what the buffer held plus the one-hot tile's column sum. -/
theorem pay2_apply (v38 : FVec Ideal S1000x1024 .f32) (v44 : Vec Ideal S1x1024 .f32) (g : Fin 1024) :
    k3_pay2 (F := Ideal) v38 v44 (ix2 (0 : Fin 1) g) = (v44 (ix2 (0 : Fin 1) g) : EReal) + ∑ r : Fin 1000, v38 (ix2 r g) := by
  unfold k3_pay2
  simp only [shapeCast_self]
  rw [addf_apply, shapeCast_a_1a_apply]
  exact congrArg (v44 (ix2 (0 : Fin 1) g) + ·) (colsum_apply v38 g)

/-! The product of the pool contracts axis 0 of BOTH tiles: its left operand index at output `(g, h)` and contraction
    position `k` is `(k, g)`, its right one `(k, h)`. -/
theorem lhs_pool_0 (i : S1024x128.Idx) (q : dot_S1000x1024_S1000x128_S1024x128_0_0_1_1_n_n.contr.Idx) :
    (dot_S1000x1024_S1000x128_S1024x128_0_0_1_1_n_n.lhsIdx i q 0).val = (q ⟨0, by decide⟩).val :=
  dot_S1000x1024_S1000x128_S1024x128_0_0_1_1_n_n.lhsIdx_val_of_single rfl i q
theorem lhs_pool_1 (i : S1024x128.Idx) (q : dot_S1000x1024_S1000x128_S1024x128_0_0_1_1_n_n.contr.Idx) :
    (dot_S1000x1024_S1000x128_S1024x128_0_0_1_1_n_n.lhsIdx i q 1).val = (i 0).val := by
  unfold DotDims.lhsIdx
  rw [dif_neg (show ¬(1 : Fin S1000x1024.rank) ∈ dot_S1000x1024_S1000x128_S1024x128_0_0_1_1_n_n.lhsBatch by decide), dif_pos (show (1 : Fin S1000x1024.rank) ∈ dot_S1000x1024_S1000x128_S1024x128_0_0_1_1_n_n.lhsNonContracting by decide)]
  rfl
theorem rhs_pool_0 (i : S1024x128.Idx) (q : dot_S1000x1024_S1000x128_S1024x128_0_0_1_1_n_n.contr.Idx) :
    (dot_S1000x1024_S1000x128_S1024x128_0_0_1_1_n_n.rhsIdx i q 0).val = (q ⟨0, by decide⟩).val :=
  dot_S1000x1024_S1000x128_S1024x128_0_0_1_1_n_n.rhsIdx_val_of_single rfl i q
theorem rhs_pool_1 (i : S1024x128.Idx) (q : dot_S1000x1024_S1000x128_S1024x128_0_0_1_1_n_n.contr.Idx) :
    (dot_S1000x1024_S1000x128_S1024x128_0_0_1_1_n_n.rhsIdx i q 1).val = (i 1).val := by
  unfold DotDims.rhsIdx
  rw [dif_neg (show ¬(1 : Fin S1000x128.rank) ∈ dot_S1000x1024_S1000x128_S1024x128_0_0_1_1_n_n.rhsBatch by decide), dif_pos (show (1 : Fin S1000x128.rank) ∈ dot_S1000x1024_S1000x128_S1024x128_0_0_1_1_n_n.rhsNonContracting by decide)]
  rfl

/-- The pool's product into a zero accumulator, read at `(g, h)`: the sum over the tile's rows of the one-hot entry
    times the normalised entry. -/
theorem poolDot_apply (v38 : FVec Ideal S1000x1024 .f32) (v31 : FVec Ideal S1000x128 .f32) (g : Fin 1024) (h : Fin 128) :
    matmul dot_S1000x1024_S1000x128_S1024x128_0_0_1_1_n_n (some .fp32) v38 v31 (constant (F := Ideal) S1024x128 .f32 0x00000000#32) (ix2 g h)
      = ∑ r : Fin 1000, v38 (ix2 r g) * v31 (ix2 r h) := by
  simp only [matmul]
  rw [Ideal.matmul_constant_zero_apply, ← Equiv.sum_comp (contrEquiv1 dot_S1000x1024_S1000x128_S1024x128_0_0_1_1_n_n 1000 rfl rfl).symm]
  refine Finset.sum_congr rfl fun k _ => ?_
  have hk := contrEquiv1_symm_val dot_S1000x1024_S1000x128_S1024x128_0_0_1_1_n_n 1000 rfl rfl k
  have el : dot_S1000x1024_S1000x128_S1024x128_0_0_1_1_n_n.lhsIdx (ix2 g h) ((contrEquiv1 dot_S1000x1024_S1000x128_S1024x128_0_0_1_1_n_n 1000 rfl rfl).symm k) = ix2 k g := funext fun a => Fin.ext (by
    match a with
    | ⟨0, _⟩ => exact (lhs_pool_0 _ _).trans hk
    | ⟨1, _⟩ => exact lhs_pool_1 _ _)
  have er : dot_S1000x1024_S1000x128_S1024x128_0_0_1_1_n_n.rhsIdx (ix2 g h) ((contrEquiv1 dot_S1000x1024_S1000x128_S1024x128_0_0_1_1_n_n 1000 rfl rfl).symm k) = ix2 k h := funext fun a => Fin.ext (by
    match a with
    | ⟨0, _⟩ => exact (rhs_pool_0 _ _).trans hk
    | ⟨1, _⟩ => exact rhs_pool_1 _ _)
  rw [el, er]

/-- The sums' payload at `(g, h)`: what the buffer held plus the tile's pooled product. -/
theorem pay1_apply (v31 : FVec Ideal S1000x128 .f32) (v38 : FVec Ideal S1000x1024 .f32) (v39 : Vec Ideal S1024x128 .f32)
    (g : Fin 1024) (h : Fin 128) :
    k3_pay1 (F := Ideal) v31 v38 v39 (ix2 g h) = (v39 (ix2 g h) : EReal) + ∑ r : Fin 1000, v38 (ix2 r g) * v31 (ix2 r h) := by
  unfold k3_pay1
  simp only [shapeCast_self]
  rw [addf_apply]
  exact congrArg (v39 (ix2 g h) + ·) (poolDot_apply v38 v31 g h)

/-- The zero blocks the first point stores read `0`. -/
theorem pay3_apply (j : S1024x128.Idx) : (k3_pay3 (F := Ideal) j : EReal) = 0 := Ideal.ofBits_zero_f32
theorem pay4_apply (j : S1x1024.Idx) : (k3_pay4 (F := Ideal) j : EReal) = 0 := Ideal.ofBits_zero_f32

/-! ## The tiles as rows of the arrays -/

variable (V : (c : Dev nD) → (b : Ref sig .tc) → Buf (Elt Ideal) ((c : Thread nD τ).loc b))

/-- The region's arrays as it finds them, each at its literal type: the aggregated features, the per-node factor, the
    bias, the batch-norm scale, shift, running mean and running variance, and the graph id of each node. -/
abbrev aggArr (c : Dev nD) : S50000x128.Idx → EReal := V c main_v86
abbrev facArr (c : Dev nD) : S50000x1.Idx → EReal := V c main_v17
abbrev biasArr (c : Dev nD) : S1x128.Idx → EReal := V c main_v97
abbrev gammaArr (c : Dev nD) : S1x128.Idx → EReal := V c main_v98
abbrev betaArr (c : Dev nD) : S1x128.Idx → EReal := V c main_v99
abbrev meanArr (c : Dev nD) : S1x128.Idx → EReal := V c main_v100
abbrev varArr (c : Dev nD) : S1x128.Idx → EReal := V c main_v101
abbrev gidArr (c : Dev nD) : S50000x1.Idx → BitVec 32 := V c main_v102

/-- The grid has fifty points. -/
theorem t_lt (t : Fin cfg3.N) : t.val < 50 := lt_of_lt_of_eq t.isLt (show cfg3.N = 50 from N_3)

/-- Row `r` of the tile of point `t` is row `1000 t + r` of the arrays. -/
def rowOf (t : Fin cfg3.N) (r : Fin 1000) : Fin 50000 := ⟨1000 * t.val + r.val, by have := t_lt t; have := r.isLt; omega⟩

/-- Where each window's block sits at point `t`: the row-blocked windows at block row `t`, the whole windows at zero. -/
theorem idx_rows : ∀ t : Fin cfg3.N, (win3_0.index t 0 = t.val ∧ win3_0.index t 1 = 0) ∧ (win3_1.index t 0 = t.val ∧ win3_1.index t 1 = 0)
    ∧ (win3_7.index t 0 = t.val ∧ win3_7.index t 1 = 0) :=
  (by decide +kernel : ∀ t : Fin grid3.N, (win3_0.index t 0 = t.val ∧ win3_0.index t 1 = 0) ∧ (win3_1.index t 0 = t.val ∧ win3_1.index t 1 = 0)
    ∧ (win3_7.index t 0 = t.val ∧ win3_7.index t 1 = 0))
theorem idx_whole : ∀ t : Fin cfg3.N, (win3_2.index t 0 = 0 ∧ win3_2.index t 1 = 0) ∧ (win3_3.index t 0 = 0 ∧ win3_3.index t 1 = 0)
    ∧ (win3_4.index t 0 = 0 ∧ win3_4.index t 1 = 0) ∧ (win3_5.index t 0 = 0 ∧ win3_5.index t 1 = 0) ∧ (win3_6.index t 0 = 0 ∧ win3_6.index t 1 = 0) :=
  (by decide +kernel : ∀ t : Fin grid3.N, (win3_2.index t 0 = 0 ∧ win3_2.index t 1 = 0) ∧ (win3_3.index t 0 = 0 ∧ win3_3.index t 1 = 0)
    ∧ (win3_4.index t 0 = 0 ∧ win3_4.index t 1 = 0) ∧ (win3_5.index t 0 = 0 ∧ win3_5.index t 1 = 0) ∧ (win3_6.index t 0 = 0 ∧ win3_6.index t 1 = 0))

theorem blk0_apply (c : Dev nD) (t : Fin cfg3.N) (r : Fin 1000) (h : Fin 128) :
    (iblk3 V c 0 t : Vec Ideal S1000x128 .f32) (ix2 r h) = aggArr V c (ix2 (rowOf t r) h) := by
  have hi := (idx_rows t).1
  unfold iblk3
  rw [View.read_apply]
  show V c main_v86 _ = V c main_v86 _
  congr 1
  funext a
  apply Fin.ext
  match a with
  | ⟨0, _⟩ => show win3_0.index t 0 * 1000 + 1 * r.val = 1000 * t.val + r.val; rw [hi.1]; omega
  | ⟨1, _⟩ => show win3_0.index t 1 * 128 + 1 * h.val = h.val; rw [hi.2]; omega

theorem blk1_apply (c : Dev nD) (t : Fin cfg3.N) (r : Fin 1000) :
    (iblk3 V c 1 t : Vec Ideal S1000x1 .f32) (ix2 r (0 : Fin 1)) = facArr V c (ix2 (rowOf t r) (0 : Fin 1)) := by
  have hi := (idx_rows t).2.1
  unfold iblk3
  rw [View.read_apply]
  show V c main_v17 _ = V c main_v17 _
  congr 1
  funext a
  apply Fin.ext
  match a with
  | ⟨0, _⟩ => show win3_1.index t 0 * 1000 + 1 * r.val = 1000 * t.val + r.val; rw [hi.1]; omega
  | ⟨1, _⟩ => show win3_1.index t 1 * 1 + 1 * 0 = 0; rw [hi.2]

theorem blk7_apply (c : Dev nD) (t : Fin cfg3.N) (r : Fin 1000) :
    (iblk3 V c 7 t : Vec Ideal S1000x1 .i32) (ix2 r (0 : Fin 1)) = gidArr V c (ix2 (rowOf t r) (0 : Fin 1)) := by
  have hi := (idx_rows t).2.2
  unfold iblk3
  rw [View.read_apply]
  show V c main_v102 _ = V c main_v102 _
  congr 1
  funext a
  apply Fin.ext
  match a with
  | ⟨0, _⟩ => show win3_7.index t 0 * 1000 + 1 * r.val = 1000 * t.val + r.val; rw [hi.1]; omega
  | ⟨1, _⟩ => show win3_7.index t 1 * 1 + 1 * 0 = 0; rw [hi.2]

theorem blk2_apply (c : Dev nD) (t : Fin cfg3.N) (h : Fin 128) :
    (iblk3 V c 2 t : Vec Ideal S1x128 .f32) (ix2 (0 : Fin 1) h) = biasArr V c (ix2 (0 : Fin 1) h) := by
  have hi := (idx_whole t).1
  unfold iblk3
  rw [View.read_apply]
  show V c main_v97 _ = V c main_v97 _
  congr 1
  funext a
  apply Fin.ext
  match a with
  | ⟨0, _⟩ => show win3_2.index t 0 * 1 + 1 * 0 = 0; rw [hi.1]
  | ⟨1, _⟩ => show win3_2.index t 1 * 128 + 1 * h.val = h.val; rw [hi.2]; omega

theorem blk3_apply (c : Dev nD) (t : Fin cfg3.N) (h : Fin 128) :
    (iblk3 V c 3 t : Vec Ideal S1x128 .f32) (ix2 (0 : Fin 1) h) = gammaArr V c (ix2 (0 : Fin 1) h) := by
  have hi := (idx_whole t).2.1
  unfold iblk3
  rw [View.read_apply]
  show V c main_v98 _ = V c main_v98 _
  congr 1
  funext a
  apply Fin.ext
  match a with
  | ⟨0, _⟩ => show win3_3.index t 0 * 1 + 1 * 0 = 0; rw [hi.1]
  | ⟨1, _⟩ => show win3_3.index t 1 * 128 + 1 * h.val = h.val; rw [hi.2]; omega

theorem blk4_apply (c : Dev nD) (t : Fin cfg3.N) (h : Fin 128) :
    (iblk3 V c 4 t : Vec Ideal S1x128 .f32) (ix2 (0 : Fin 1) h) = betaArr V c (ix2 (0 : Fin 1) h) := by
  have hi := (idx_whole t).2.2.1
  unfold iblk3
  rw [View.read_apply]
  show V c main_v99 _ = V c main_v99 _
  congr 1
  funext a
  apply Fin.ext
  match a with
  | ⟨0, _⟩ => show win3_4.index t 0 * 1 + 1 * 0 = 0; rw [hi.1]
  | ⟨1, _⟩ => show win3_4.index t 1 * 128 + 1 * h.val = h.val; rw [hi.2]; omega

theorem blk5_apply (c : Dev nD) (t : Fin cfg3.N) (h : Fin 128) :
    (iblk3 V c 5 t : Vec Ideal S1x128 .f32) (ix2 (0 : Fin 1) h) = meanArr V c (ix2 (0 : Fin 1) h) := by
  have hi := (idx_whole t).2.2.2.1
  unfold iblk3
  rw [View.read_apply]
  show V c main_v100 _ = V c main_v100 _
  congr 1
  funext a
  apply Fin.ext
  match a with
  | ⟨0, _⟩ => show win3_5.index t 0 * 1 + 1 * 0 = 0; rw [hi.1]
  | ⟨1, _⟩ => show win3_5.index t 1 * 128 + 1 * h.val = h.val; rw [hi.2]; omega

theorem blk6_apply (c : Dev nD) (t : Fin cfg3.N) (h : Fin 128) :
    (iblk3 V c 6 t : Vec Ideal S1x128 .f32) (ix2 (0 : Fin 1) h) = varArr V c (ix2 (0 : Fin 1) h) := by
  have hi := (idx_whole t).2.2.2.2
  unfold iblk3
  rw [View.read_apply]
  show V c main_v101 _ = V c main_v101 _
  congr 1
  funext a
  apply Fin.ext
  match a with
  | ⟨0, _⟩ => show win3_6.index t 0 * 1 + 1 * 0 = 0; rw [hi.1]
  | ⟨1, _⟩ => show win3_6.index t 1 * 128 + 1 * h.val = h.val; rw [hi.2]; omega

/-! ## What one point adds -/

/-- The normalised row `n` at feature `h`: the aggregated row scaled by the node's factor, the bias added, the running
    mean taken off, times the inverse root of the running variance plus epsilon, times the scale, plus the shift. -/
def yAt (c : Dev nD) (n : Fin 50000) (h : Fin 128) : EReal :=
  rowY (aggArr V c) (facArr V c) (biasArr V c) (gammaArr V c) (betaArr V c) (meanArr V c) (varArr V c) n h

/-- The one-hot entry of row `n` against graph `g`. -/
def hotAt (c : Dev nD) (n : Fin 50000) (g : Fin 1024) : EReal :=
  Cert.Spec.oneHot (gidArr V c (ix2 n (0 : Fin 1))) g

/-- The normalised tile of point `t` is the normalised rows `1000 t …`. -/
theorem pay5_blk (c : Dev nD) (t : Fin cfg3.N) (r : Fin 1000) (h : Fin 128) :
    k3_pay5 (F := Ideal) (iblk3 V c 0 t) (iblk3 V c 1 t) (iblk3 V c 2 t) (iblk3 V c 5 t) (iblk3 V c 6 t) (iblk3 V c 3 t) (iblk3 V c 4 t) (ix2 r h)
      = yAt V c (rowOf t r) h := by
  refine (pay5_apply (iblk3 V c 0 t) (iblk3 V c 1 t) (iblk3 V c 2 t) (iblk3 V c 5 t) (iblk3 V c 6 t) (iblk3 V c 3 t) (iblk3 V c 4 t) r h).trans ?_
  rw [blk0_apply V c t r h, blk1_apply V c t r, blk2_apply V c t h, blk3_apply V c t h, blk4_apply V c t h, blk5_apply V c t h, blk6_apply V c t h]
  rfl

/-- The one-hot tile of point `t` is the one-hot rows `1000 t …`. -/
theorem pay6_blk (c : Dev nD) (t : Fin cfg3.N) (r : Fin 1000) (g : Fin 1024) :
    k3_pay6 (F := Ideal) (iblk3 V c 7 t) (ix2 r g) = hotAt V c (rowOf t r) g := by
  refine (pay6_apply (iblk3 V c 7 t) r g).trans ?_
  rw [blk7_apply V c t r]
  rfl

/-! ## The accumulation over the points -/

/-- Row `n`'s term of the sums at `(g, h)` and of the counts at `g`, on all naturals (zero past the arrays' rows). -/
def sumTerm (c : Dev nD) (g : Fin 1024) (h : Fin 128) (n : ℕ) : EReal :=
  if hn : n < 50000 then hotAt V c ⟨n, hn⟩ g * yAt V c ⟨n, hn⟩ h else 0
def cntTerm (c : Dev nD) (g : Fin 1024) (n : ℕ) : EReal :=
  if hn : n < 50000 then hotAt V c ⟨n, hn⟩ g else 0

/-- The pooled product of point `t`'s tiles is the rows' terms from `1000 t` on. -/
theorem tile_sum (c : Dev nD) (t : Fin cfg3.N) (g : Fin 1024) (h : Fin 128) :
    ∑ r : Fin 1000, (k3_pay6 (F := Ideal) (iblk3 V c 7 t)) (ix2 r g) * (k3_pay5 (F := Ideal) (iblk3 V c 0 t) (iblk3 V c 1 t) (iblk3 V c 2 t) (iblk3 V c 5 t) (iblk3 V c 6 t) (iblk3 V c 3 t) (iblk3 V c 4 t)) (ix2 r h)
      = ∑ k ∈ Finset.range 1000, sumTerm V c g h (1000 * t.val + k) := by
  rw [Finset.sum_range]
  refine Finset.sum_congr rfl fun r _ => ?_
  have hlt : 1000 * t.val + r.val < 50000 := (rowOf t r).isLt
  rw [pay6_blk V c t r g, pay5_blk V c t r h]
  unfold sumTerm
  rw [dif_pos hlt]
  rfl

/-- The column sums of point `t`'s one-hot tile are the rows' one-hot entries from `1000 t` on. -/
theorem tile_cnt (c : Dev nD) (t : Fin cfg3.N) (g : Fin 1024) :
    ∑ r : Fin 1000, (k3_pay6 (F := Ideal) (iblk3 V c 7 t)) (ix2 r g) = ∑ k ∈ Finset.range 1000, cntTerm V c g (1000 * t.val + k) := by
  rw [Finset.sum_range]
  refine Finset.sum_congr rfl fun r _ => ?_
  have hlt : 1000 * t.val + r.val < 50000 := (rowOf t r).isLt
  rw [pay6_blk V c t r g]
  unfold cntTerm
  rw [dif_pos hlt]
  rfl

/-- The first point leaves its own tile's terms (it accumulates onto the zeros it has just stored). -/
theorem sums_first (c : Dev nD) (t : Fin cfg3.N) (h0 : t.val % 50 = 0) (g : Fin 1024) (h : Fin 128) :
    ((outsAt3 V c t.val t.isLt).1 : Vec Ideal S1024x128 .f32) (ix2 g h) = ∑ k ∈ Finset.range 1000, sumTerm V c g h (1000 * t.val + k) := by
  rw [outsAt3_A V c t h0]
  dsimp only
  refine (congrFun (pieceA8 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) ((hcond3_0 t).mpr h0) (iblk3 V c 0 t) (iblk3 V c 1 t) (iblk3 V c 2 t) (iblk3 V c 3 t) (iblk3 V c 4 t) (iblk3 V c 5 t) (iblk3 V c 6 t) (iblk3 V c 7 t)) (ix2 g h)).trans ?_
  refine (pay1_apply (k3_pay5 (F := Ideal) (iblk3 V c 0 t) (iblk3 V c 1 t) (iblk3 V c 2 t) (iblk3 V c 5 t) (iblk3 V c 6 t) (iblk3 V c 3 t) (iblk3 V c 4 t)) (k3_pay6 (F := Ideal) (iblk3 V c 7 t)) (k3_pay3 (F := Ideal)) g h).trans ?_
  rw [pay3_apply, zero_add]
  exact tile_sum V c t g h

theorem cnt_first (c : Dev nD) (t : Fin cfg3.N) (h0 : t.val % 50 = 0) (g : Fin 1024) :
    ((outsAt3 V c t.val t.isLt).2 : Vec Ideal S1x1024 .f32) (ix2 (0 : Fin 1) g) = ∑ k ∈ Finset.range 1000, cntTerm V c g (1000 * t.val + k) := by
  rw [outsAt3_A V c t h0]
  dsimp only
  refine (congrFun (pieceA9 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) ((hcond3_0 t).mpr h0) (iblk3 V c 0 t) (iblk3 V c 1 t) (iblk3 V c 2 t) (iblk3 V c 3 t) (iblk3 V c 4 t) (iblk3 V c 5 t) (iblk3 V c 6 t) (iblk3 V c 7 t)) (ix2 (0 : Fin 1) g)).trans ?_
  refine (pay2_apply (k3_pay6 (F := Ideal) (iblk3 V c 7 t)) (k3_pay4 (F := Ideal)) g).trans ?_
  rw [pay4_apply, zero_add]
  exact tile_cnt V c t g

/-- Every later point adds its tile's terms onto what the point before left. -/
theorem sums_step (c : Dev nD) (t : Fin cfg3.N) (h0 : ¬t.val % 50 = 0) (g : Fin 1024) (h : Fin 128) :
    ((outsAt3 V c t.val t.isLt).1 : Vec Ideal S1024x128 .f32) (ix2 g h)
      = (((outsAt3 V c (t.val - 1) (Nat.lt_of_le_of_lt (Nat.sub_le _ _) t.isLt)).1 : Vec Ideal S1024x128 .f32) (ix2 g h) : EReal) + ∑ k ∈ Finset.range 1000, sumTerm V c g h (1000 * t.val + k) := by
  rw [outsAt3_B V c t h0]
  dsimp only
  refine (congrFun (pieceB8 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (fun h => h0 ((hcond3_0 t).mp h)) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)).1 (outsAt3 V c (t.val - 1) (Nat.lt_of_le_of_lt (Nat.sub_le _ _) t.isLt)).2) (ix2 g h)).trans ?_
  refine (pay1_apply (k3_pay5 (F := Ideal) (iblk3 V c 0 t) (iblk3 V c 1 t) (iblk3 V c 2 t) (iblk3 V c 5 t) (iblk3 V c 6 t) (iblk3 V c 3 t) (iblk3 V c 4 t)) (k3_pay6 (F := Ideal) (iblk3 V c 7 t)) (outsAt3 V c (t.val - 1) (Nat.lt_of_le_of_lt (Nat.sub_le _ _) t.isLt)).1 g h).trans ?_
  exact congrArg (((outsAt3 V c (t.val - 1) (Nat.lt_of_le_of_lt (Nat.sub_le _ _) t.isLt)).1 (ix2 g h) : EReal) + ·) (tile_sum V c t g h)

theorem cnt_step (c : Dev nD) (t : Fin cfg3.N) (h0 : ¬t.val % 50 = 0) (g : Fin 1024) :
    ((outsAt3 V c t.val t.isLt).2 : Vec Ideal S1x1024 .f32) (ix2 (0 : Fin 1) g)
      = (((outsAt3 V c (t.val - 1) (Nat.lt_of_le_of_lt (Nat.sub_le _ _) t.isLt)).2 : Vec Ideal S1x1024 .f32) (ix2 (0 : Fin 1) g) : EReal) + ∑ k ∈ Finset.range 1000, cntTerm V c g (1000 * t.val + k) := by
  rw [outsAt3_B V c t h0]
  dsimp only
  refine (congrFun (pieceB9 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (fun h => h0 ((hcond3_0 t).mp h)) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)).1 (outsAt3 V c (t.val - 1) (Nat.lt_of_le_of_lt (Nat.sub_le _ _) t.isLt)).2) (ix2 (0 : Fin 1) g)).trans ?_
  refine (pay2_apply (k3_pay6 (F := Ideal) (iblk3 V c 7 t)) (outsAt3 V c (t.val - 1) (Nat.lt_of_le_of_lt (Nat.sub_le _ _) t.isLt)).2 g).trans ?_
  exact congrArg (((outsAt3 V c (t.val - 1) (Nat.lt_of_le_of_lt (Nat.sub_le _ _) t.isLt)).2 (ix2 (0 : Fin 1) g) : EReal) + ·) (tile_cnt V c t g)

/-- After point `n` the sums' buffer holds the terms of the rows below `1000 (n + 1)`: by induction on the point. -/
theorem sums_after (c : Dev nD) (g : Fin 1024) (h : Fin 128) : ∀ (n : ℕ) (hn : n < cfg3.N),
    ((outsAt3 V c n hn).1 : Vec Ideal S1024x128 .f32) (ix2 g h) = ∑ k ∈ Finset.range (1000 * (n + 1)), sumTerm V c g h k
  | 0, hn => by
    refine (sums_first V c ⟨0, hn⟩ rfl g h).trans ?_
    refine Finset.sum_congr rfl fun k _ => ?_
    show sumTerm V c g h (1000 * 0 + k) = _
    rw [Nat.mul_zero, Nat.zero_add]
  | n + 1, hn => by
    have hN : n + 1 < 50 := lt_of_lt_of_eq hn (show cfg3.N = 50 from N_3)
    have hB : ¬(⟨n + 1, hn⟩ : Fin cfg3.N).val % 50 = 0 := by dsimp only; omega
    refine (sums_step V c ⟨n + 1, hn⟩ hB g h).trans ?_
    show ((outsAt3 V c n _).1 (ix2 g h) : EReal) + ∑ k ∈ Finset.range 1000, sumTerm V c g h (1000 * (n + 1) + k) = _
    rw [sums_after c g h n, show 1000 * (n + 1 + 1) = 1000 * (n + 1) + 1000 from by omega, Finset.sum_range_add]

/-- After point `n` the counts' buffer holds the one-hot entries of the rows below `1000 (n + 1)`. -/
theorem cnt_after (c : Dev nD) (g : Fin 1024) : ∀ (n : ℕ) (hn : n < cfg3.N),
    ((outsAt3 V c n hn).2 : Vec Ideal S1x1024 .f32) (ix2 (0 : Fin 1) g) = ∑ k ∈ Finset.range (1000 * (n + 1)), cntTerm V c g k
  | 0, hn => by
    refine (cnt_first V c ⟨0, hn⟩ rfl g).trans ?_
    refine Finset.sum_congr rfl fun k _ => ?_
    show cntTerm V c g (1000 * 0 + k) = _
    rw [Nat.mul_zero, Nat.zero_add]
  | n + 1, hn => by
    have hN : n + 1 < 50 := lt_of_lt_of_eq hn (show cfg3.N = 50 from N_3)
    have hB : ¬(⟨n + 1, hn⟩ : Fin cfg3.N).val % 50 = 0 := by dsimp only; omega
    refine (cnt_step V c ⟨n + 1, hn⟩ hB g).trans ?_
    show ((outsAt3 V c n _).2 (ix2 (0 : Fin 1) g) : EReal) + ∑ k ∈ Finset.range 1000, cntTerm V c g (1000 * (n + 1) + k) = _
    rw [cnt_after c g n, show 1000 * (n + 1 + 1) = 1000 * (n + 1) + 1000 from by omega, Finset.sum_range_add]

/-- Over all fifty thousand rows the terms on the naturals are the terms on the rows. -/
theorem sum_all (c : Dev nD) (g : Fin 1024) (h : Fin 128) :
    ∑ k ∈ Finset.range 50000, sumTerm V c g h k = ∑ n : Fin 50000, hotAt V c n g * yAt V c n h := by
  rw [Finset.sum_range]
  refine Finset.sum_congr rfl fun n _ => ?_
  unfold sumTerm
  rw [dif_pos n.isLt]
theorem cnt_all (c : Dev nD) (g : Fin 1024) :
    ∑ k ∈ Finset.range 50000, cntTerm V c g k = ∑ n : Fin 50000, hotAt V c n g := by
  rw [Finset.sum_range]
  refine Finset.sum_congr rfl fun n _ => ?_
  unfold cntTerm
  rw [dif_pos n.isLt]

/-! ## The one write-back of each output -/

/-- The last point. -/
abbrev tLast : Fin cfg3.N := ⟨49, by rw [show cfg3.N = 50 from N_3]; decide⟩

/-- What the two result arrays end holding: the buffers' contents after the last point. -/
abbrev sumsRes (c : Dev nD) : Buf (Elt Ideal) ((c : Thread nD τ).loc main_v103_0) := (outsAt3 V c tLast.val tLast.isLt).1
abbrev cntRes (c : Dev nD) : Buf (Elt Ideal) ((c : Thread nD τ).loc main_v103_1) := (outsAt3 V c tLast.val tLast.isLt).2

/-- The sums are written back once, after the last point, and the block written is the whole array. -/
theorem flushed8_eq (c : Dev nD) (t : Fin cfg3.N) (hf : (cfg3.win 8).flush t = true) :
    (dat3 V c).flushed 8 t = ((cfg3.win 8).blk t).view.read (Elt Ideal) (sumsRes V c) := by
  have h49 : t.val = 49 := by have := (flush3_8 t).mp hf; have := t_lt t; omega
  obtain rfl : t = tLast := Fin.ext h49
  show (cfg3.win 8).cut (grid3.coords tLast) ((dat3 V c).after 8 tLast) = _
  rw [after3_8]
  have hz' : (fun a => win3_8.index tLast a * main_v103_0.ty.shape.size a) = fun _ => 0 := funext fun a => by fin_cases a <;> decide
  exact (Memref.read_access_unit_zero (Elt Ideal) main_v103_0 hz' (fun a => by rw [congrFun hz' a]; simp) (sumsRes V c)).symm

theorem flushed9_eq (c : Dev nD) (t : Fin cfg3.N) (hf : (cfg3.win 9).flush t = true) :
    (dat3 V c).flushed 9 t = ((cfg3.win 9).blk t).view.read (Elt Ideal) (cntRes V c) := by
  have h49 : t.val = 49 := by have := (flush3_9 t).mp hf; have := t_lt t; omega
  obtain rfl : t = tLast := Fin.ext h49
  show (cfg3.win 9).cut (grid3.coords tLast) ((dat3 V c).after 9 tLast) = _
  rw [after3_9]
  have hz' : (fun a => win3_9.index tLast a * main_v103_1.ty.shape.size a) = fun _ => 0 := funext fun a => by fin_cases a <;> decide
  exact (Memref.read_access_unit_zero (Elt Ideal) main_v103_1 hz' (fun a => by rw [congrFun hz' a]; simp) (cntRes V c)).symm

/-- So each result array ends holding its buffer's contents after the last point. -/
theorem final8 (c : Dev nD) : (dat3 V c).arrAt 8 cfg3.N = sumsRes V c :=
  (dat3 V c).arrAt_eq_of_cover 8 (sumsRes V c) (flushed8_eq V c) fun i =>
    ⟨tLast, (flush3_8 tLast).mpr rfl, by
      show i ∈ ((View.whole main_v103_0).slice (win3_8.rect tLast)).set
      rw [View.set_slice_whole, Rect.mem_set_unit]
      intro a
      have h0 : (i 0 : Nat) < 1024 := (i 0).isLt
      have h1 : (i 1 : Nat) < 128 := (i 1).isLt
      match a with
      | ⟨0, _⟩ => show win3_8.index tLast 0 * win3_8.size 0 ≤ (i 0 : Nat) ∧ (i 0 : Nat) < win3_8.index tLast 0 * win3_8.size 0 + win3_8.xsize (grid3.coords tLast) 0
                  rw [show win3_8.index tLast 0 * win3_8.size 0 = 0 from by decide +kernel, show win3_8.xsize (grid3.coords tLast) 0 = 1024 from by decide +kernel]; omega
      | ⟨1, _⟩ => show win3_8.index tLast 1 * win3_8.size 1 ≤ (i 1 : Nat) ∧ (i 1 : Nat) < win3_8.index tLast 1 * win3_8.size 1 + win3_8.xsize (grid3.coords tLast) 1
                  rw [show win3_8.index tLast 1 * win3_8.size 1 = 0 from by decide +kernel, show win3_8.xsize (grid3.coords tLast) 1 = 128 from by decide +kernel]; omega⟩

theorem final9 (c : Dev nD) : (dat3 V c).arrAt 9 cfg3.N = cntRes V c :=
  (dat3 V c).arrAt_eq_of_cover 9 (cntRes V c) (flushed9_eq V c) fun i =>
    ⟨tLast, (flush3_9 tLast).mpr rfl, by
      show i ∈ ((View.whole main_v103_1).slice (win3_9.rect tLast)).set
      rw [View.set_slice_whole, Rect.mem_set_unit]
      intro a
      have h0 : (i 0 : Nat) < 1 := (i 0).isLt
      have h1 : (i 1 : Nat) < 1024 := (i 1).isLt
      match a with
      | ⟨0, _⟩ => show win3_9.index tLast 0 * win3_9.size 0 ≤ (i 0 : Nat) ∧ (i 0 : Nat) < win3_9.index tLast 0 * win3_9.size 0 + win3_9.xsize (grid3.coords tLast) 0
                  rw [show win3_9.index tLast 0 * win3_9.size 0 = 0 from by decide +kernel, show win3_9.xsize (grid3.coords tLast) 0 = 1 from by decide +kernel]; omega
      | ⟨1, _⟩ => show win3_9.index tLast 1 * win3_9.size 1 ≤ (i 1 : Nat) ∧ (i 1 : Nat) < win3_9.index tLast 1 * win3_9.size 1 + win3_9.xsize (grid3.coords tLast) 1
                  rw [show win3_9.index tLast 1 * win3_9.size 1 = 0 from by decide +kernel, show win3_9.xsize (grid3.coords tLast) 1 = 1024 from by decide +kernel]; omega⟩

end Region3

open Region3

/-! ## The region's two results -/

/-- After the region the sums' array holds, at graph `gph` and feature `h`, the sum over ALL nodes of the node's one-hot
    entry against `gph` times its normalised row's entry. -/
theorem region3_sums (V : (c : Dev nD) → (b : Ref sig .tc) → Buf (Elt Ideal) ((c : Thread nD τ).loc b)) (c : Dev nD) (gph : Fin 1024) (h : Fin 128) :
    ((dat3 (F := Ideal) V c).arrAt 8 cfg3.N : S1024x128.Idx → EReal) (ix2 gph h)
      = ∑ n : Fin 50000, Cert.Spec.oneHot ((V c main_v102 : S50000x1.Idx → BitVec 32) (ix2 n (0 : Fin 1))) gph * yAt V c n h := by
  rw [final8 V c]
  exact (sums_after V c gph h tLast.val tLast.isLt).trans (sum_all V c gph h)

/-- After the region the counts' array holds, at graph `gph`, the sum over all nodes of the node's one-hot entry. -/
theorem region3_cnt (V : (c : Dev nD) → (b : Ref sig .tc) → Buf (Elt Ideal) ((c : Thread nD τ).loc b)) (c : Dev nD) (gph : Fin 1024) :
    ((dat3 (F := Ideal) V c).arrAt 9 cfg3.N : S1x1024.Idx → EReal) (ix2 (0 : Fin 1) gph)
      = ∑ n : Fin 50000, Cert.Spec.oneHot ((V c main_v102 : S50000x1.Idx → BitVec 32) (ix2 n (0 : Fin 1))) gph := by
  rw [final9 V c]
  exact (cnt_after V c gph tLast.val tLast.isLt).trans (cnt_all V c gph)

/-- The same as whole arrays: the sums' array IS the pooled sums of the region's input arrays, -/
theorem region3_sums_array (V : (c : Dev nD) → (b : Ref sig .tc) → Buf (Elt Ideal) ((c : Thread nD τ).loc b)) (c : Dev nD) :
    ((dat3 (F := Ideal) V c).arrAt 8 cfg3.N : S1024x128.Idx → EReal)
      = sumsOut (V c main_v86) (V c main_v17) (V c main_v97) (V c main_v98) (V c main_v99) (V c main_v100) (V c main_v101) (V c main_v102) := by
  funext i
  obtain ⟨g, h, rfl⟩ : ∃ (g : Fin 1024) (h : Fin 128), i = ix2 g h := ⟨i 0, i 1, eq_ix2 i⟩
  exact region3_sums V c g h

/-- and the counts' array the pooled counts of the graph ids. -/
theorem region3_cnt_array (V : (c : Dev nD) → (b : Ref sig .tc) → Buf (Elt Ideal) ((c : Thread nD τ).loc b)) (c : Dev nD) :
    ((dat3 (F := Ideal) V c).arrAt 9 cfg3.N : S1x1024.Idx → EReal) = cntOut (V c main_v102) := by
  funext i
  obtain ⟨u, g, rfl⟩ : ∃ (u : Fin 1) (g : Fin 1024), i = ix2 u g := ⟨i 0, i 1, eq_ix2 i⟩
  obtain rfl : u = 0 := Subsingleton.elim _ _
  exact region3_cnt V c g

end Cert.KernelIdeal.Hand3

end
-- ==== Proof.Region4.lean ====
/-
  Region 4 of the kernel program: the two-layer classifier on the pooled graph features, run at ONE grid point with
  every window a whole array. Written here: the body's arithmetic read at one output row (two matrix products into
  zero accumulators, a bias row and a bias scalar laid along the rows, a maximum with zero), each window's block as
  its whole array, and hence the score array after the region as an explicit double sum of the arrays the region finds.
-/
import proofs.«406701_j21981642621452_2_alg».proof.Proof.Gen.KernelIdeal.Frame
import proofs.«406701_j21981642621452_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Hand4

open Idealize.ShloMosaic Idealize.ShloMosaic.TcCoe Idealize.SL.Sem
open Idealize.ShloMosaic.Pipeline (Dat)
open Cert.KernelIdeal Cert.KernelIdeal.Gen Idealize.ShloMosaic.ValueIdx

/-! ## The two matrix products at an index

Each product contracts the left operand's axis 1 with the right operand's axis 0 and has no batch axis: at output
index (r, c) and contraction coordinate k the operands are read at (r, k) and (k, c). -/

-- The hidden layer's product is [1024,128] x [128,64]: its four axis facts, then the product at (r, c).

theorem lhsH_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem lhsH_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem rhsH_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem rhsH_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- The hidden layer's product into a zero accumulator, at row `r` and column `c`. -/
theorem hidden_apply (x : FVec Ideal S1024x128 .f32) (w : FVec Ideal S128x64 .f32) (r : Fin 1024) (c : Fin 64) :
    matmul dot_S1024x128_S128x64_S1024x64_1_0_0_1_n_n (some .fp32) x w (constant (F := Ideal) S1024x64 .f32 0x00000000#32) (ix2 r c)
      = ∑ k : Fin 128, x (ix2 r k) * w (ix2 k c) := by
  simp only [matmul]
  rw [Ideal.matmul_constant_zero_apply, ← Equiv.sum_comp (contrEquiv1 dot_S1024x128_S128x64_S1024x64_1_0_0_1_n_n 128 rfl rfl).symm]
  refine Finset.sum_congr rfl fun k _ => ?_
  have hk := contrEquiv1_symm_val dot_S1024x128_S128x64_S1024x64_1_0_0_1_n_n 128 rfl rfl k
  have el : dot_S1024x128_S128x64_S1024x64_1_0_0_1_n_n.lhsIdx (ix2 r c) ((contrEquiv1 dot_S1024x128_S128x64_S1024x64_1_0_0_1_n_n 128 rfl rfl).symm k) = ix2 r k := funext fun a => Fin.ext (by
    match a with
    | ⟨0, _⟩ => exact lhsH_0 _ _
    | ⟨1, _⟩ => exact (lhsH_1 _ _).trans hk)
  have er : dot_S1024x128_S128x64_S1024x64_1_0_0_1_n_n.rhsIdx (ix2 r c) ((contrEquiv1 dot_S1024x128_S128x64_S1024x64_1_0_0_1_n_n 128 rfl rfl).symm k) = ix2 k c := funext fun a => Fin.ext (by
    match a with
    | ⟨0, _⟩ => exact (rhsH_0 _ _).trans hk
    | ⟨1, _⟩ => exact rhsH_1 _ _)
  rw [el, er]

-- The score layer's product is [1024,64] x [64,1]: the same four facts for its dimension numbers.

theorem lhsS_0 (i : S1024x1.Idx) (q : dot_S1024x64_S64x1_S1024x1_1_0_0_1_n_n.contr.Idx) :
    (dot_S1024x64_S64x1_S1024x1_1_0_0_1_n_n.lhsIdx i q 0).val = (i 0).val := by
  unfold DotDims.lhsIdx
  rw [dif_neg (show ¬(0 : Fin S1024x64.rank) ∈ dot_S1024x64_S64x1_S1024x1_1_0_0_1_n_n.lhsBatch by decide), dif_pos (show (0 : Fin S1024x64.rank) ∈ dot_S1024x64_S64x1_S1024x1_1_0_0_1_n_n.lhsNonContracting by decide)]
  rfl
theorem lhsS_1 (i : S1024x1.Idx) (q : dot_S1024x64_S64x1_S1024x1_1_0_0_1_n_n.contr.Idx) :
    (dot_S1024x64_S64x1_S1024x1_1_0_0_1_n_n.lhsIdx i q 1).val = (q ⟨0, by decide⟩).val :=
  dot_S1024x64_S64x1_S1024x1_1_0_0_1_n_n.lhsIdx_val_of_single rfl i q
theorem rhsS_0 (i : S1024x1.Idx) (q : dot_S1024x64_S64x1_S1024x1_1_0_0_1_n_n.contr.Idx) :
    (dot_S1024x64_S64x1_S1024x1_1_0_0_1_n_n.rhsIdx i q 0).val = (q ⟨0, by decide⟩).val :=
  dot_S1024x64_S64x1_S1024x1_1_0_0_1_n_n.rhsIdx_val_of_single rfl i q
theorem rhsS_1 (i : S1024x1.Idx) (q : dot_S1024x64_S64x1_S1024x1_1_0_0_1_n_n.contr.Idx) :
    (dot_S1024x64_S64x1_S1024x1_1_0_0_1_n_n.rhsIdx i q 1).val = (i 1).val := by
  unfold DotDims.rhsIdx
  rw [dif_neg (show ¬(1 : Fin S64x1.rank) ∈ dot_S1024x64_S64x1_S1024x1_1_0_0_1_n_n.rhsBatch by decide), dif_pos (show (1 : Fin S64x1.rank) ∈ dot_S1024x64_S64x1_S1024x1_1_0_0_1_n_n.rhsNonContracting by decide)]
  rfl

/-- The score layer's product into a zero accumulator, at row `r` (the one column). -/
theorem score_apply (x : FVec Ideal S1024x64 .f32) (w : FVec Ideal S64x1 .f32) (r : Fin 1024) (c : Fin 1) :
    matmul dot_S1024x64_S64x1_S1024x1_1_0_0_1_n_n (some .fp32) x w (constant (F := Ideal) S1024x1 .f32 0x00000000#32) (ix2 r c)
      = ∑ j : Fin 64, x (ix2 r j) * w (ix2 j c) := by
  simp only [matmul]
  rw [Ideal.matmul_constant_zero_apply, ← Equiv.sum_comp (contrEquiv1 dot_S1024x64_S64x1_S1024x1_1_0_0_1_n_n 64 rfl rfl).symm]
  refine Finset.sum_congr rfl fun j _ => ?_
  have hj := contrEquiv1_symm_val dot_S1024x64_S64x1_S1024x1_1_0_0_1_n_n 64 rfl rfl j
  have el : dot_S1024x64_S64x1_S1024x1_1_0_0_1_n_n.lhsIdx (ix2 r c) ((contrEquiv1 dot_S1024x64_S64x1_S1024x1_1_0_0_1_n_n 64 rfl rfl).symm j) = ix2 r j := funext fun a => Fin.ext (by
    match a with
    | ⟨0, _⟩ => exact lhsS_0 _ _
    | ⟨1, _⟩ => exact (lhsS_1 _ _).trans hj)
  have er : dot_S1024x64_S64x1_S1024x1_1_0_0_1_n_n.rhsIdx (ix2 r c) ((contrEquiv1 dot_S1024x64_S64x1_S1024x1_1_0_0_1_n_n 64 rfl rfl).symm j) = ix2 j c := funext fun a => Fin.ext (by
    match a with
    | ⟨0, _⟩ => exact (rhsS_0 _ _).trans hj
    | ⟨1, _⟩ => exact rhsS_1 _ _)
  rw [el, er]

/-! ## The body's arithmetic at one output row -/

/-- The body's result at row `r`: the hidden layer's 64 units (the product with the first weight matrix plus the bias
    row, cut below at the printed zero), each times its score weight, summed, plus the score bias. -/
theorem pay_apply (x0 : Vec Ideal S1024x128 .f32) (x1 : Vec Ideal S128x64 .f32) (x2 : Vec Ideal S1x64 .f32)
    (x3 : Vec Ideal S64x1 .f32) (x4 : Vec Ideal S1x1 .f32) (r : Fin 1024) :
    k4_pay1 (F := Ideal) x0 x1 x2 x3 x4 (ix2 r (0 : Fin 1))
      = (∑ j : Fin 64, max ((∑ k : Fin 128, x0 (ix2 r k) * x1 (ix2 k j)) + x2 (ix2 (0 : Fin 1) j)) Cert.Spec.Z0 * x3 (ix2 j (0 : Fin 1)))
        + x4 (ix2 (0 : Fin 1) (0 : Fin 1)) := by
  unfold k4_pay1
  simp only [shapeCast_self]
  rw [addf_apply, score_apply, broadcastTo_1b_ab_apply]
  refine congrArg (· + x4 (ix2 (0 : Fin 1) (0 : Fin 1))) (Finset.sum_congr rfl fun j _ => ?_)
  rw [maximumf_apply, addf_apply, hidden_apply, broadcastTo_1b_ab_apply, broadcast_apply]
  rfl

/-! ## The score array as one function of the arrays the region finds -/

section Region
variable (V : (c : Dev nD) → (b : Ref sig .tc) → Buf (Elt Ideal) ((c : Thread nD τ).loc b))

/-- The five arrays the region reads, each at its literal type: the pooled features, the hidden layer's weights and
    bias row, the score layer's weights and bias. -/
abbrev A0 (c : Dev nD) : S1024x128.Idx → EReal := V c main_v108
abbrev A1 (c : Dev nD) : S128x64.Idx → EReal := V c main_arg9
abbrev A2 (c : Dev nD) : S1x64.Idx → EReal := V c main_v109
abbrev A3 (c : Dev nD) : S64x1.Idx → EReal := V c main_arg11
abbrev A4 (c : Dev nD) : S1x1.Idx → EReal := V c main_v110

/-- The score of graph `r`: the pooled row through the hidden layer, cut below at zero, through the score layer. -/
def rowScore (c : Dev nD) (r : Fin 1024) : EReal :=
  (∑ j : Fin 64, max ((∑ k : Fin 128, A0 V c (ix2 r k) * A1 V c (ix2 k j)) + A2 V c (ix2 (0 : Fin 1) j)) Cert.Spec.Z0
      * A3 V c (ix2 j (0 : Fin 1)))
    + A4 V c (ix2 (0 : Fin 1) (0 : Fin 1))

/-- The whole score column. -/
def scores (c : Dev nD) : S1024x1.Idx → EReal := fun i => rowScore V c (i 0)

/-- The body's result on the whole arrays is the score column. -/
theorem pay_eq_scores (c : Dev nD) :
    (k4_pay1 (F := Ideal) (V c main_v108) (V c main_arg9) (V c main_v109) (V c main_arg11) (V c main_v110) : S1024x1.Idx → EReal)
      = scores V c := by
  funext i
  obtain ⟨r, z, rfl⟩ : ∃ (r : Fin 1024) (z : Fin 1), i = ix2 r z := ⟨i 0, i 1, eq_ix2 i⟩
  obtain rfl : z = 0 := Subsingleton.elim _ _
  exact pay_apply _ _ _ _ _ r

/-! ## Every window's one block is its whole array

The grid has one point and every index map is constantly zero, so each block starts at offset zero and has the
array's own extents: reading the array through it gives the array back. -/

theorem hz : (![0, 0] : Fin 2 → Nat) = fun _ => 0 := funext fun a => by fin_cases a <;> rfl

theorem blk0 (c : Dev nD) (t : Fin cfg4.N) : (iblk4 (F := Ideal) V c 0 t : S1024x128.Idx → EReal) = V c main_v108 := by
  obtain rfl : t = t4_0 := fin_N4 t
  have hz' : (fun a => win4_0.index t4_0 a * main_v108.ty.shape.size a) = fun _ => 0 := funext fun a => by fin_cases a <;> decide
  exact Memref.read_access_unit_zero (Elt Ideal) main_v108 hz' (fun a => by rw [congrFun hz' a]; simp) (V c main_v108)

theorem blk1 (c : Dev nD) (t : Fin cfg4.N) : (iblk4 (F := Ideal) V c 1 t : S128x64.Idx → EReal) = V c main_arg9 := by
  obtain rfl : t = t4_0 := fin_N4 t
  have hz' : (fun a => win4_1.index t4_0 a * main_arg9.ty.shape.size a) = fun _ => 0 := funext fun a => by fin_cases a <;> decide
  exact Memref.read_access_unit_zero (Elt Ideal) main_arg9 hz' (fun a => by rw [congrFun hz' a]; simp) (V c main_arg9)

theorem blk2 (c : Dev nD) (t : Fin cfg4.N) : (iblk4 (F := Ideal) V c 2 t : S1x64.Idx → EReal) = V c main_v109 := by
  obtain rfl : t = t4_0 := fin_N4 t
  have hz' : (fun a => win4_2.index t4_0 a * main_v109.ty.shape.size a) = fun _ => 0 := funext fun a => by fin_cases a <;> decide
  exact Memref.read_access_unit_zero (Elt Ideal) main_v109 hz' (fun a => by rw [congrFun hz' a]; simp) (V c main_v109)

theorem blk3 (c : Dev nD) (t : Fin cfg4.N) : (iblk4 (F := Ideal) V c 3 t : S64x1.Idx → EReal) = V c main_arg11 := by
  obtain rfl : t = t4_0 := fin_N4 t
  have hz' : (fun a => win4_3.index t4_0 a * main_arg11.ty.shape.size a) = fun _ => 0 := funext fun a => by fin_cases a <;> decide
  exact Memref.read_access_unit_zero (Elt Ideal) main_arg11 hz' (fun a => by rw [congrFun hz' a]; simp) (V c main_arg11)

theorem blk4 (c : Dev nD) (t : Fin cfg4.N) : (iblk4 (F := Ideal) V c 4 t : S1x1.Idx → EReal) = V c main_v110 := by
  obtain rfl : t = t4_0 := fin_N4 t
  have hz' : (fun a => win4_4.index t4_0 a * main_v110.ty.shape.size a) = fun _ => 0 := funext fun a => by fin_cases a <;> decide
  exact Memref.read_access_unit_zero (Elt Ideal) main_v110 hz' (fun a => by rw [congrFun hz' a]; simp) (V c main_v110)

/-! ## What the one point writes back, and the array after the region -/

/-- The point's write-back is the score column, read through the output's (whole) block. -/
theorem flushed_eq (c : Dev nD) (t : Fin cfg4.N) :
    (dat4 (F := Ideal) V c).flushed 5 t = ((cfg4.win 5).blk t).view.read (Elt Ideal) (scores V c) := by
  show (cfg4.win 5).cut (grid4.coords t) ((dat4 (F := Ideal) V c).after 5 t) = _
  rw [after4_5, blk0, blk1, blk2, blk3, blk4]
  unfold out4_5
  rw [View.canon_unit_zero hz]
  simp only [View.ld_unit_zero (S := S1024x128) hz, View.ld_unit_zero (S := S128x64) hz, View.ld_unit_zero (S := S1x64) hz,
    View.ld_unit_zero (S := S64x1) hz, View.ld_unit_zero (S := S1x1) hz]
  obtain rfl : t = t4_0 := fin_N4 t
  have hz' : (fun a => win4_5.index t4_0 a * main_v111.ty.shape.size a) = fun _ => 0 := funext fun a => by fin_cases a <;> decide
  refine Eq.trans ?_ (Memref.read_access_unit_zero (Elt Ideal) main_v111 hz' (fun a => by rw [congrFun hz' a]; simp) (scores V c)).symm
  exact pay_eq_scores V c

/-- The output's one block is the whole score array: it starts at offset zero and has the array's extents on both axes. -/
theorem mem_out_blk (i : S1024x1.Idx) : i ∈ ((cfg4.win 5).blk t4_0).view.set := by
  show i ∈ ((View.whole main_v111).slice (win4_5.rect t4_0)).set
  rw [View.set_slice_whole, Rect.mem_set_unit]
  have hoff : ∀ a : Fin 2, win4_5.index t4_0 a * win4_5.size a = 0 := by decide +kernel
  have hext : ∀ a : Fin 2, win4_5.xsize (grid4.coords t4_0) a = S1024x1.size a := by decide +kernel
  intro a
  show win4_5.index t4_0 a * win4_5.size a ≤ (i a).val
    ∧ (i a).val < win4_5.index t4_0 a * win4_5.size a + win4_5.xsize (grid4.coords t4_0) a
  rw [hoff a, hext a, Nat.zero_add]
  exact ⟨Nat.zero_le _, (i a).isLt⟩

/-- So the array ends holding the score column. -/
theorem final (c : Dev nD) : (dat4 (F := Ideal) V c).arrAt 5 cfg4.N = scores V c :=
  (dat4 (F := Ideal) V c).arrAt_eq_of_cover 5 (scores V c) (fun t _ => flushed_eq V c t)
    fun i => ⟨t4_0, flush4_5 t4_0, mem_out_blk i⟩

/-- REGION 4's VALUE: after the region the score array holds, at graph `gph`, the classifier of the pooled row. -/
theorem region4_value (c : Dev nD) (gph : Fin 1024) :
    ((dat4 (F := Ideal) V c).arrAt 5 cfg4.N : S1024x1.Idx → EReal) (ix2 gph (0 : Fin 1))
      = (∑ j : Fin 64, max ((∑ k : Fin 128, A0 V c (ix2 gph k) * A1 V c (ix2 k j)) + A2 V c (ix2 (0 : Fin 1) j)) Cert.Spec.Z0
            * A3 V c (ix2 j (0 : Fin 1)))
          + A4 V c (ix2 (0 : Fin 1) (0 : Fin 1)) :=
  congrFun (final V c) (ix2 gph (0 : Fin 1))

end Region

end Cert.KernelIdeal.Hand4

end
-- ==== Proof.KernelValue.lean ====
/-
  The value of the idealized kernel program's result, read back through its eleven segments: six stretches of host
  operations and five pipelined regions. Going forward: the edge columns, the normalisation column and the first
  weight matrix (stretch 0); the scaled linear output of layer 0 (region 0); three times an aggregation (a stretch)
  followed by a region that rescales, adds the bias, normalises, (rectifies, multiplies by the next weights and
  scales again | pools by one-hot products); the mean (stretch 4), the classifier (region 4), the flat scores
  (stretch 5). At every step the buffer read is what an earlier segment left, carried unchanged across the segments
  between. The result is the specification's kernel-order function `Cert.Spec.kerScores` of the arguments.
-/
import proofs.«406701_j21981642621452_2_alg».proof.Proof.Gen.KernelIdeal.Frame
import proofs.«406701_j21981642621452_2_alg».proof.Proof.Spec
import proofs.«406701_j21981642621452_2_alg».proof.Proof.Adapt
import proofs.«406701_j21981642621452_2_alg».proof.Proof.LibGather
import proofs.«406701_j21981642621452_2_alg».proof.Proof.KernelKeep
import proofs.«406701_j21981642621452_2_alg».proof.Proof.KernelHost
import proofs.«406701_j21981642621452_2_alg».proof.Proof.Region0
import proofs.«406701_j21981642621452_2_alg».proof.Proof.Region1
import proofs.«406701_j21981642621452_2_alg».proof.Proof.Region2
import proofs.«406701_j21981642621452_2_alg».proof.Proof.Region3
import proofs.«406701_j21981642621452_2_alg».proof.Proof.Region4
import Idealize.ShloMosaic.Lib.ValueIdx

set_option maxRecDepth 16384

noncomputable section

open scoped BigOperators

namespace Cert.KernelIdeal.HandValue

open Cert.KernelIdeal Cert.KernelIdeal.Gen Cert.KernelIdeal.HandHost Cert.Spec
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-! ## The arguments, as arrays of their literal shapes -/

abbrev argX : FArr S50000x128 := m ((c : Thread nD τ).loc main_arg0)
abbrev argE : IArr S2x800000 := m ((c : Thread nD τ).loc main_arg1)
abbrev argB : IArr S50000 := m ((c : Thread nD τ).loc main_arg2)
abbrev argW : FArr S3x128x128 := m ((c : Thread nD τ).loc main_arg3)
abbrev argBs : FArr S3x128 := m ((c : Thread nD τ).loc main_arg4)
abbrev argG : FArr S3x128 := m ((c : Thread nD τ).loc main_arg5)
abbrev argBe : FArr S3x128 := m ((c : Thread nD τ).loc main_arg6)
abbrev argMu : FArr S3x128 := m ((c : Thread nD τ).loc main_arg7)
abbrev argVa : FArr S3x128 := m ((c : Thread nD τ).loc main_arg8)
abbrev argW1 : FArr S128x64 := m ((c : Thread nD τ).loc main_arg9)
abbrev argB1 : FArr S64 := m ((c : Thread nD τ).loc main_arg10)
abbrev argW2 : FArr S64x1 := m ((c : Thread nD τ).loc main_arg11)
abbrev argB2 : FArr S1 := m ((c : Thread nD τ).loc main_arg12)

/-- The three columns of words the mathematics speaks of: the wrapped source id, the raw destination id and the
    wrapped destination id of every edge. -/
def kSw : Col 850000 := fun e => wrapWord (srcIds (argE m c) (ix1 e))
def kD : Col 850000 := fun e => dstIds (argE m c) (ix1 e)
def kDw : Col 850000 := fun e => wrapWord (dstIds (argE m c) (ix1 e))

/-- A destination id that names a row is its own wrap. -/
theorem kwrap (e : Fin 850000) (j : Fin 50000) (h : (kD m c e).toInt = (j.val : ℤ)) : (kDw m c e).toInt = (j.val : ℤ) := by
  unfold kDw
  rw [wrapWord_of_nonneg _ (by unfold kD at h; rw [h]; exact Int.natCast_nonneg _)]
  exact h

/-! ## The arguments at every boundary -/

/-- The arguments no region stages through an output window and no stretch writes. -/
abbrev IsArg (b : Ref sig .tc) : Prop :=
  b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12

theorem arg0_W1 : W1 m ρ c (Proc.devRef .tc main_arg0) = m ((c : Thread nD τ).loc main_arg0) :=
  (Keep.host0 m ρ c main_arg0 (by decide)).trans rfl
theorem arg_W1 (b : Ref sig .tc) (hb : IsArg b) : W1 m ρ c (Proc.devRef .tc b) = m ((c : Thread nD τ).loc b) := by
  rcases hb with rfl | rfl | rfl | rfl | rfl | rfl | rfl | rfl | rfl | rfl | rfl <;> exact (Keep.host0 m ρ c _ (by decide)).trans rfl
theorem arg_W2 (b : Ref sig .tc) (hb : IsArg b) : W2 m ρ c (Proc.devRef .tc b) = m ((c : Thread nD τ).loc b) := by
  rcases hb with rfl | rfl | rfl | rfl | rfl | rfl | rfl | rfl | rfl | rfl | rfl <;> exact (Keep.region0 m ρ c _ (by decide)).trans (arg_W1 m ρ c _ (by decide))
theorem arg_W3 (b : Ref sig .tc) (hb : IsArg b) : W3 m ρ c (Proc.devRef .tc b) = m ((c : Thread nD τ).loc b) := by
  rcases hb with rfl | rfl | rfl | rfl | rfl | rfl | rfl | rfl | rfl | rfl | rfl <;> exact (Keep.host1 m ρ c _ (by decide)).trans (arg_W2 m ρ c _ (by decide))
theorem arg_W4 (b : Ref sig .tc) (hb : IsArg b) : W4 m ρ c (Proc.devRef .tc b) = m ((c : Thread nD τ).loc b) := by
  rcases hb with rfl | rfl | rfl | rfl | rfl | rfl | rfl | rfl | rfl | rfl | rfl <;> exact (Keep.region1 m ρ c _ (by decide)).trans (arg_W3 m ρ c _ (by decide))
theorem arg_W5 (b : Ref sig .tc) (hb : IsArg b) : W5 m ρ c (Proc.devRef .tc b) = m ((c : Thread nD τ).loc b) := by
  rcases hb with rfl | rfl | rfl | rfl | rfl | rfl | rfl | rfl | rfl | rfl | rfl <;> exact (Keep.host2 m ρ c _ (by decide)).trans (arg_W4 m ρ c _ (by decide))
theorem arg_W6 (b : Ref sig .tc) (hb : IsArg b) : W6 m ρ c (Proc.devRef .tc b) = m ((c : Thread nD τ).loc b) := by
  rcases hb with rfl | rfl | rfl | rfl | rfl | rfl | rfl | rfl | rfl | rfl | rfl <;> exact (Keep.region2 m ρ c _ (by decide)).trans (arg_W5 m ρ c _ (by decide))
theorem arg_W7 (b : Ref sig .tc) (hb : IsArg b) : W7 m ρ c (Proc.devRef .tc b) = m ((c : Thread nD τ).loc b) := by
  rcases hb with rfl | rfl | rfl | rfl | rfl | rfl | rfl | rfl | rfl | rfl | rfl <;> exact (Keep.host3 m ρ c _ (by decide)).trans (arg_W6 m ρ c _ (by decide))
theorem arg_W8 (b : Ref sig .tc) (hb : IsArg b) : W8 m ρ c (Proc.devRef .tc b) = m ((c : Thread nD τ).loc b) := by
  rcases hb with rfl | rfl | rfl | rfl | rfl | rfl | rfl | rfl | rfl | rfl | rfl <;> exact (Keep.region3 m ρ c _ (by decide)).trans (arg_W7 m ρ c _ (by decide))
theorem arg_W9 (b : Ref sig .tc) (hb : IsArg b) : W9 m ρ c (Proc.devRef .tc b) = m ((c : Thread nD τ).loc b) := by
  rcases hb with rfl | rfl | rfl | rfl | rfl | rfl | rfl | rfl | rfl | rfl | rfl <;> exact (Keep.host4 m ρ c _ (by decide)).trans (arg_W8 m ρ c _ (by decide))

/-! ## The edge columns and the normalisation column at every boundary that reads them -/

theorem src_W1 : (W1 m ρ c (Proc.devRef .tc main_v5) : IArr S850000) = srcIds (argE m c) := after0_v5 (W0 m ρ c)
theorem dst_W1 : (W1 m ρ c (Proc.devRef .tc main_v6) : IArr S850000) = dstIds (argE m c) := after0_v6 (W0 m ρ c)
theorem src_W2 : (W2 m ρ c (Proc.devRef .tc main_v5) : IArr S850000) = srcIds (argE m c) :=
  (Keep.region0 m ρ c main_v5 (by decide)).trans (src_W1 m ρ c)
theorem dst_W2 : (W2 m ρ c (Proc.devRef .tc main_v6) : IArr S850000) = dstIds (argE m c) :=
  (Keep.region0 m ρ c main_v6 (by decide)).trans (dst_W1 m ρ c)
theorem src_W4 : (W4 m ρ c (Proc.devRef .tc main_v5) : IArr S850000) = srcIds (argE m c) :=
  (Keep.region1 m ρ c main_v5 (by decide)).trans ((Keep.host1 m ρ c main_v5 (by decide)).trans (src_W2 m ρ c))
theorem dst_W4 : (W4 m ρ c (Proc.devRef .tc main_v6) : IArr S850000) = dstIds (argE m c) :=
  (Keep.region1 m ρ c main_v6 (by decide)).trans ((Keep.host1 m ρ c main_v6 (by decide)).trans (dst_W2 m ρ c))
theorem src_W6 : (W6 m ρ c (Proc.devRef .tc main_v5) : IArr S850000) = srcIds (argE m c) :=
  (Keep.region2 m ρ c main_v5 (by decide)).trans ((Keep.host2 m ρ c main_v5 (by decide)).trans (src_W4 m ρ c))
theorem dst_W6 : (W6 m ρ c (Proc.devRef .tc main_v6) : IArr S850000) = dstIds (argE m c) :=
  (Keep.region2 m ρ c main_v6 (by decide)).trans ((Keep.host2 m ρ c main_v6 (by decide)).trans (dst_W4 m ρ c))

theorem col_W1 : (W1 m ρ c (Proc.devRef .tc main_v17) : FArr S50000x1) = dinvCol (dstIds (argE m c)) := after0_v17 (W0 m ρ c)
theorem col_W3 : (W3 m ρ c (Proc.devRef .tc main_v17) : FArr S50000x1) = dinvCol (dstIds (argE m c)) :=
  (Keep.host1 m ρ c main_v17 (by decide)).trans ((Keep.region0_col m ρ c).trans (col_W1 m ρ c))
theorem col_W5 : (W5 m ρ c (Proc.devRef .tc main_v17) : FArr S50000x1) = dinvCol (dstIds (argE m c)) :=
  (Keep.host2 m ρ c main_v17 (by decide)).trans ((Keep.region1_col m ρ c).trans (col_W3 m ρ c))
theorem col_W7 : (W7 m ρ c (Proc.devRef .tc main_v17) : FArr S50000x1) = dinvCol (dstIds (argE m c)) :=
  (Keep.host3 m ρ c main_v17 (by decide)).trans ((Keep.region2_col m ρ c).trans (col_W5 m ρ c))

/-- The normalisation column at a row is the specification's factor. -/
theorem col_apply (n : Fin 50000) : dinvCol (dstIds (argE m c)) (ix2 n (0 : Fin 1)) = dinv (kDw m c) n :=
  dinvCol_apply (dstIds (argE m c)) n

/-! ## The chain, forward -/

section Chain

/-- The specification's arguments, read off the launch memory. -/
abbrev sWs := m3 (argW m c)
abbrev sBs := m2 (argBs m c)
abbrev sG := m2 (argG m c)
abbrev sBe := m2 (argBe m c)
abbrev sMu := m2 (argMu m c)
abbrev sVa := m2 (argVa m c)
abbrev sX := m2 (argX m c)

/-- Region 0 leaves layer 0's scaled linear output. -/
theorem xs0_apply (n : Fin 50000) (h : Fin 128) :
    (W2 m ρ c (Proc.devRef .tc main_v20) : FArr S50000x128) (ix2 n h) = kerXs0 (kDw m c) (sWs m c) (sX m c) n h := by
  have a0 : (V1 m ρ c main_arg0 : FArr S50000x128) = argX m c := arg0_W1 m ρ c
  have a1 : (V1 m ρ c main_v19 : FArr S128x128) = weight0 (argW m c) := after0_v19 (W0 m ρ c)
  have a2 : (V1 m ρ c main_v17 : FArr S50000x1) = dinvCol (dstIds (argE m c)) := col_W1 m ρ c
  have e : (W2 m ρ c (Proc.devRef .tc main_v20) : FArr S50000x128)
      = Hand.Region0.wholeOut (argX m c) (weight0 (argW m c)) (dinvCol (dstIds (argE m c))) := by
    refine ((W2_arr m ρ c 3).trans (Hand.region0_array (V1 m ρ) c)).trans ?_
    rw [a0, a1, a2]
  rw [e, Hand.Region0.wholeOut_apply, col_apply]
  simp only [weight0_apply]
  rfl

/-- The aggregation of a scaled output: the host's gather and scatter-add are the specification's `aggK`. -/
theorem agg_apply (xs : FArr S50000x128) (j : Fin 50000) (h : Fin 128) :
    aggregate (srcIds (argE m c)) (dstIds (argE m c)) xs (ix2 j h) = aggK (kSw m c) (kD m c) (m2 xs) j h :=
  aggregate_apply (srcIds (argE m c)) (dstIds (argE m c)) xs j h

/-- One normalising region's arithmetic at an entry, in the specification's words: with the aggregated array `A`,
    the scaled bias-added value normalised by the layer's statistics. -/
theorem pre_apply (l : Fin 3) (xs : M2 50000 128) (n : Fin 50000) (k : Fin 128) :
    (((aggK (kSw m c) (kD m c) xs n k * dinv (kDw m c) n + argBs m c (ix2 l k)) - argMu m c (ix2 l k))
        * Ideal.rsqrt (argVa m c (ix2 l k) + EPS)) * argG m c (ix2 l k) + argBe m c (ix2 l k)
      = kerPre (kSw m c) (kD m c) (kDw m c) (sBs m c) (sG m c) (sBe m c) (sMu m c) (sVa m c) l xs n k := rfl

/-- Region 1 leaves layer 1's scaled linear output. -/
theorem xs1_apply (n : Fin 50000) (h : Fin 128) :
    (W4 m ρ c (Proc.devRef .tc main_v48) : FArr S50000x128) (ix2 n h)
      = kerXs1 (kSw m c) (kD m c) (kDw m c) (sWs m c) (sBs m c) (sG m c) (sBe m c) (sMu m c) (sVa m c) (sX m c) n h := by
  have a0 : (V3 m ρ c main_v30 : FArr S50000x128)
      = aggregate (srcIds (argE m c)) (dstIds (argE m c)) (W2 m ρ c (Proc.devRef .tc main_v20)) := by
    refine (after1_v30 (W2 m ρ c)).trans ?_
    rw [src_W2 m ρ c, dst_W2 m ρ c]
  have a1 : (V3 m ρ c main_v17 : FArr S50000x1) = dinvCol (dstIds (argE m c)) := col_W3 m ρ c
  have a2 : (V3 m ρ c main_v43 : FArr S1x128) = paramRow0 (argBs m c) := (after1_v43 (W2 m ρ c)).trans (by rw [arg_W2 m ρ c main_arg4 (by decide)])
  have a3 : (V3 m ρ c main_v44 : FArr S1x128) = paramRow0 (argG m c) := (after1_v44 (W2 m ρ c)).trans (by rw [arg_W2 m ρ c main_arg5 (by decide)])
  have a4 : (V3 m ρ c main_v45 : FArr S1x128) = paramRow0 (argBe m c) := (after1_v45 (W2 m ρ c)).trans (by rw [arg_W2 m ρ c main_arg6 (by decide)])
  have a5 : (V3 m ρ c main_v46 : FArr S1x128) = paramRow0 (argMu m c) := (after1_v46 (W2 m ρ c)).trans (by rw [arg_W2 m ρ c main_arg7 (by decide)])
  have a6 : (V3 m ρ c main_v47 : FArr S1x128) = paramRow0 (argVa m c) := (after1_v47 (W2 m ρ c)).trans (by rw [arg_W2 m ρ c main_arg8 (by decide)])
  have a7 : (V3 m ρ c main_v42 : FArr S128x128) = weight1 (argW m c) := (after1_v42 (W2 m ρ c)).trans (by rw [arg_W2 m ρ c main_arg3 (by decide)])
  have e : (W4 m ρ c (Proc.devRef .tc main_v48) : FArr S50000x128)
      = Hand1.wholeOut (aggregate (srcIds (argE m c)) (dstIds (argE m c)) (W2 m ρ c (Proc.devRef .tc main_v20)))
          (dinvCol (dstIds (argE m c))) (paramRow0 (argBs m c)) (paramRow0 (argG m c)) (paramRow0 (argBe m c))
          (paramRow0 (argMu m c)) (paramRow0 (argVa m c)) (weight1 (argW m c)) := by
    refine ((W4_arr m ρ c 8).trans (Hand1.region1_array (V3 m ρ) c)).trans ?_
    rw [a0, a1, a2, a3, a4, a5, a6, a7]
  rw [e, Hand1.wholeOut_apply, col_apply]
  simp only [weight1_apply, paramRow0_apply, agg_apply]
  have hx : m2 (W2 m ρ c (Proc.devRef .tc main_v20) : FArr S50000x128) = kerXs0 (kDw m c) (sWs m c) (sX m c) :=
    funext fun n' => funext fun k' => xs0_apply m ρ c n' k'
  rw [hx]
  rfl

/-- Region 2 leaves layer 2's scaled linear output. -/
theorem xs2_apply (n : Fin 50000) (h : Fin 128) :
    (W6 m ρ c (Proc.devRef .tc main_v76) : FArr S50000x128) (ix2 n h)
      = kerXs2 (kSw m c) (kD m c) (kDw m c) (sWs m c) (sBs m c) (sG m c) (sBe m c) (sMu m c) (sVa m c) (sX m c) n h := by
  have a0 : (V5 m ρ c main_v58 : FArr S50000x128)
      = aggregate (srcIds (argE m c)) (dstIds (argE m c)) (W4 m ρ c (Proc.devRef .tc main_v48)) := by
    refine (after2_v58 (W4 m ρ c)).trans ?_
    rw [src_W4 m ρ c, dst_W4 m ρ c]
  have a1 : (V5 m ρ c main_v17 : FArr S50000x1) = dinvCol (dstIds (argE m c)) := col_W5 m ρ c
  have a2 : (V5 m ρ c main_v71 : FArr S1x128) = paramRow1 (argBs m c) := (after2_v71 (W4 m ρ c)).trans (by rw [arg_W4 m ρ c main_arg4 (by decide)])
  have a3 : (V5 m ρ c main_v72 : FArr S1x128) = paramRow1 (argG m c) := (after2_v72 (W4 m ρ c)).trans (by rw [arg_W4 m ρ c main_arg5 (by decide)])
  have a4 : (V5 m ρ c main_v73 : FArr S1x128) = paramRow1 (argBe m c) := (after2_v73 (W4 m ρ c)).trans (by rw [arg_W4 m ρ c main_arg6 (by decide)])
  have a5 : (V5 m ρ c main_v74 : FArr S1x128) = paramRow1 (argMu m c) := (after2_v74 (W4 m ρ c)).trans (by rw [arg_W4 m ρ c main_arg7 (by decide)])
  have a6 : (V5 m ρ c main_v75 : FArr S1x128) = paramRow1 (argVa m c) := (after2_v75 (W4 m ρ c)).trans (by rw [arg_W4 m ρ c main_arg8 (by decide)])
  have a7 : (V5 m ρ c main_v70 : FArr S128x128) = weight2 (argW m c) := (after2_v70 (W4 m ρ c)).trans (by rw [arg_W4 m ρ c main_arg3 (by decide)])
  have e : (W6 m ρ c (Proc.devRef .tc main_v76) : FArr S50000x128)
      = Hand2.wholeOut (aggregate (srcIds (argE m c)) (dstIds (argE m c)) (W4 m ρ c (Proc.devRef .tc main_v48)))
          (dinvCol (dstIds (argE m c))) (paramRow1 (argBs m c)) (paramRow1 (argG m c)) (paramRow1 (argBe m c))
          (paramRow1 (argMu m c)) (paramRow1 (argVa m c)) (weight2 (argW m c)) := by
    refine ((W6_arr m ρ c 8).trans (Hand2.region2_array (V5 m ρ) c)).trans ?_
    rw [a0, a1, a2, a3, a4, a5, a6, a7]
  rw [e, Hand2.wholeOut_apply, col_apply]
  simp only [weight2_apply, paramRow1_apply, agg_apply]
  have hx : m2 (W4 m ρ c (Proc.devRef .tc main_v48) : FArr S50000x128)
      = kerXs1 (kSw m c) (kD m c) (kDw m c) (sWs m c) (sBs m c) (sG m c) (sBe m c) (sMu m c) (sVa m c) (sX m c) :=
    funext fun n' => funext fun k' => xs1_apply m ρ c n' k'
  rw [hx]
  rfl

/-- Region 3's normalised rows are the specification's last pre-activation layer. -/
theorem rowY_apply (n : Fin 50000) (h : Fin 128) :
    Hand3.rowY (aggregate (srcIds (argE m c)) (dstIds (argE m c)) (W6 m ρ c (Proc.devRef .tc main_v76)))
        (dinvCol (dstIds (argE m c))) (paramRow2 (argBs m c)) (paramRow2 (argG m c)) (paramRow2 (argBe m c))
        (paramRow2 (argMu m c)) (paramRow2 (argVa m c)) n h
      = kerY3 (kSw m c) (kD m c) (kDw m c) (sWs m c) (sBs m c) (sG m c) (sBe m c) (sMu m c) (sVa m c) (sX m c) n h := by
  unfold Hand3.rowY
  rw [col_apply]
  simp only [paramRow2_apply, agg_apply]
  have hx : m2 (W6 m ρ c (Proc.devRef .tc main_v76) : FArr S50000x128)
      = kerXs2 (kSw m c) (kD m c) (kDw m c) (sWs m c) (sBs m c) (sG m c) (sBe m c) (sMu m c) (sVa m c) (sX m c) :=
    funext fun n' => funext fun k' => xs2_apply m ρ c n' k'
  rw [hx]
  rfl

/-- What region 3 finds: the aggregated rows, the column, the layer's parameter rows, the graph ids. -/
theorem region3_inputs :
    (V7 m ρ c main_v86 : FArr S50000x128) = aggregate (srcIds (argE m c)) (dstIds (argE m c)) (W6 m ρ c (Proc.devRef .tc main_v76))
    ∧ (V7 m ρ c main_v17 : FArr S50000x1) = dinvCol (dstIds (argE m c))
    ∧ (V7 m ρ c main_v97 : FArr S1x128) = paramRow2 (argBs m c)
    ∧ (V7 m ρ c main_v98 : FArr S1x128) = paramRow2 (argG m c)
    ∧ (V7 m ρ c main_v99 : FArr S1x128) = paramRow2 (argBe m c)
    ∧ (V7 m ρ c main_v100 : FArr S1x128) = paramRow2 (argMu m c)
    ∧ (V7 m ρ c main_v101 : FArr S1x128) = paramRow2 (argVa m c)
    ∧ (V7 m ρ c main_v102 : IArr S50000x1) = batchCol (argB m c) := by
  refine ⟨?_, col_W7 m ρ c, ?_, ?_, ?_, ?_, ?_, ?_⟩
  · refine (after3_v86 (W6 m ρ c)).trans ?_
    rw [src_W6 m ρ c, dst_W6 m ρ c]
  · exact (after3_v97 (W6 m ρ c)).trans (by rw [arg_W6 m ρ c main_arg4 (by decide)])
  · exact (after3_v98 (W6 m ρ c)).trans (by rw [arg_W6 m ρ c main_arg5 (by decide)])
  · exact (after3_v99 (W6 m ρ c)).trans (by rw [arg_W6 m ρ c main_arg6 (by decide)])
  · exact (after3_v100 (W6 m ρ c)).trans (by rw [arg_W6 m ρ c main_arg7 (by decide)])
  · exact (after3_v101 (W6 m ρ c)).trans (by rw [arg_W6 m ρ c main_arg8 (by decide)])
  · exact (after3_v102 (W6 m ρ c)).trans (by rw [arg_W6 m ρ c main_arg2 (by decide)])

/-- Region 3 leaves the pooled sums and the counts. -/
theorem sums_apply (gph : Fin 1024) (h : Fin 128) :
    (W8 m ρ c (Proc.devRef .tc main_v103_0) : FArr S1024x128) (ix2 gph h)
      = sumsK (v1 (argB m c)) (kerY3 (kSw m c) (kD m c) (kDw m c) (sWs m c) (sBs m c) (sG m c) (sBe m c) (sMu m c) (sVa m c) (sX m c)) gph h := by
  obtain ⟨a0, a1, a2, a3, a4, a5, a6, a7⟩ := region3_inputs m ρ c
  have e : (W8 m ρ c (Proc.devRef .tc main_v103_0) : FArr S1024x128)
      = Hand3.sumsOut (aggregate (srcIds (argE m c)) (dstIds (argE m c)) (W6 m ρ c (Proc.devRef .tc main_v76)))
          (dinvCol (dstIds (argE m c))) (paramRow2 (argBs m c)) (paramRow2 (argG m c)) (paramRow2 (argBe m c))
          (paramRow2 (argMu m c)) (paramRow2 (argVa m c)) (batchCol (argB m c)) := by
    refine ((W8_arr m ρ c 8).trans (Hand3.region3_sums_array (V7 m ρ) c)).trans ?_
    rw [a0, a1, a2, a3, a4, a5, a6, a7]
  rw [e]
  refine (Hand3.sumsOut_apply _ _ _ _ _ _ _ _ gph h).trans ?_
  unfold sumsK
  refine Finset.sum_congr rfl fun n _ => ?_
  rw [rowY_apply m ρ c n h, batchCol_apply]
  rfl

theorem cnt_apply (gph : Fin 1024) :
    (W8 m ρ c (Proc.devRef .tc main_v103_1) : FArr S1x1024) (ix2 (0 : Fin 1) gph) = cntK (v1 (argB m c)) gph := by
  obtain ⟨-, -, -, -, -, -, -, a7⟩ := region3_inputs m ρ c
  have e : (W8 m ρ c (Proc.devRef .tc main_v103_1) : FArr S1x1024) = Hand3.cntOut (batchCol (argB m c)) := by
    refine ((W8_arr m ρ c 9).trans (Hand3.region3_cnt_array (V7 m ρ) c)).trans ?_
    rw [a7]
  rw [e]
  refine (Hand3.cntOut_apply _ gph).trans ?_
  unfold cntK
  refine Finset.sum_congr rfl fun n _ => ?_
  rw [batchCol_apply]
  rfl

/-- Stretch 4 and region 4: the mean, then the classifier. -/
theorem scores_apply (gph : Fin 1024) :
    (W10 m ρ c (Proc.devRef .tc main_v111) : FArr S1024x1) (ix2 gph (0 : Fin 1))
      = kerScores (kSw m c) (kD m c) (kDw m c) (v1 (argB m c)) (sWs m c) (sBs m c) (sG m c) (sBe m c) (sMu m c) (sVa m c)
          (m2 (argW1 m c)) (v1 (argB1 m c)) (m2 (argW2 m c)) (argB2 m c (ix1 (0 : Fin 1))) (sX m c) gph := by
  have a0 : (V9 m ρ c main_v108 : FArr S1024x128)
      = meanPool (W8 m ρ c (Proc.devRef .tc main_v103_0)) (W8 m ρ c (Proc.devRef .tc main_v103_1)) := after4_v108 (W8 m ρ c)
  have a1 : (V9 m ρ c main_arg9 : FArr S128x64) = argW1 m c := arg_W9 m ρ c main_arg9 (by decide)
  have a2 : (V9 m ρ c main_v109 : FArr S1x64) = biasRow (argB1 m c) := (after4_v109 (W8 m ρ c)).trans (by rw [arg_W8 m ρ c main_arg10 (by decide)])
  have a3 : (V9 m ρ c main_arg11 : FArr S64x1) = argW2 m c := arg_W9 m ρ c main_arg11 (by decide)
  have a4 : (V9 m ρ c main_v110 : FArr S1x1) = biasOne (argB2 m c) := (after4_v110 (W8 m ρ c)).trans (by rw [arg_W8 m ρ c main_arg12 (by decide)])
  have e : (W10 m ρ c (Proc.devRef .tc main_v111) : FArr S1024x1) (ix2 gph (0 : Fin 1))
      = (∑ j : Fin 64, max ((∑ k : Fin 128, meanPool (W8 m ρ c (Proc.devRef .tc main_v103_0)) (W8 m ρ c (Proc.devRef .tc main_v103_1)) (ix2 gph k) * argW1 m c (ix2 k j)) + biasRow (argB1 m c) (ix2 (0 : Fin 1) j)) Z0 * argW2 m c (ix2 j (0 : Fin 1))) + biasOne (argB2 m c) (ix2 (0 : Fin 1) (0 : Fin 1)) := by
    have h4 := Hand4.region4_value (V9 m ρ) c gph
    dsimp only [Hand4.A0, Hand4.A1, Hand4.A2, Hand4.A3, Hand4.A4] at h4
    rw [a0, a1, a2, a3, a4] at h4
    exact (congrFun (W10_arr m ρ c 5) (ix2 gph (0 : Fin 1))).trans h4
  rw [e]
  have hc := cnt_apply m ρ c gph
  unfold kerScores classify pooled
  refine congrArg₂ (· + ·) (Finset.sum_congr rfl fun j _ => ?_) (biasOne_apply _)
  refine congrArg₂ (· * ·) (congrArg₂ max (congrArg₂ (· + ·) (Finset.sum_congr rfl fun k _ => ?_) (biasRow_apply _ j)) rfl) rfl
  rw [meanPool_apply, sums_apply m ρ c gph k, hc]
  rfl

/-- THE VALUE: the result buffer after the last stretch is the specification's kernel-order scores. -/
theorem result_apply (gph : Fin 1024) :
    (W11 m ρ c (Proc.devRef .tc main_v112) : FArr S1024) (ix1 gph)
      = kerScores (kSw m c) (kD m c) (kDw m c) (v1 (argB m c)) (sWs m c) (sBs m c) (sG m c) (sBe m c) (sMu m c) (sVa m c)
          (m2 (argW1 m c)) (v1 (argB1 m c)) (m2 (argW2 m c)) (argB2 m c (ix1 (0 : Fin 1))) (sX m c) gph := by
  rw [show (W11 m ρ c (Proc.devRef .tc main_v112) : FArr S1024) = flatScores (W10 m ρ c (Proc.devRef .tc main_v111)) from after5_v112 (W10 m ρ c),
    flatScores_apply]
  exact scores_apply m ρ c gph

end Chain

end Cert.KernelIdeal.HandValue

end
-- ==== Proof.RefAgg.lean ====
/-
  The reference's index-dependent operations, read at an index in the specification's vocabulary.

  The reference appends a self loop to every node's edge list: the raw source and destination words are two columns
  of `850000` words. Each is wrapped (`w < 0 ? w + 50000 : w`) before it indexes a table. Four things are read here.

  * The wrap leaves a word that reads as a row number `j < 50000` alone, so wherever the raw destination reads `j` the
    wrapped one does too.
  * The degree count is a scatter-add of ones at the wrapped destinations onto zeros, and the normalisation factor is its
    reciprocal square root, element by element: this is the specification's `dinv` of the wrapped destination column.
  * One layer's aggregation, for any table `xw` of rows: a scatter-add, at the RAW destination words, of the rows
    gathered at the wrapped sources, each multiplied by `dinv[source] * dinv[destination]`, both factors gathered from
    the normalisation vector at wrapped words. A gather clamps its row number into the table; a scatter drops an update
    whose word names no row. Element `(j, h)` is therefore zero plus the sum over the edges whose raw destination reads
    `j` of `xw[clamp s, h] * (dinv[clamp s] * dinv[clamp d])`: the specification's `aggR`.
  * The reference recomputes the index columns and the normalisation in every layer from the same edge list by the same
    operations, so layers 1 and 2 aggregate with the very columns of layer 0.
-/
import proofs.«406701_j21981642621452_2_alg».proof.Proof.Gen.ReferenceIdeal.Read
import proofs.«406701_j21981642621452_2_alg».proof.Proof.Spec
import proofs.«406701_j21981642621452_2_alg».proof.Proof.Adapt
import proofs.«406701_j21981642621452_2_alg».proof.Proof.LibSegmentSum
import proofs.«406701_j21981642621452_2_alg».proof.Proof.LibScatterVec
import proofs.«406701_j21981642621452_2_alg».proof.Proof.LibGather
import Idealize.ShloMosaic.Lib.ValueIdx
import Idealize.ShloMosaic.Lib.Pipeline.Value
import Idealize.ShloMosaic.Lib.IdealHost

noncomputable section

open scoped BigOperators

namespace Cert.ReferenceIdeal.Hand

open Cert.ReferenceIdeal Cert.ReferenceIdeal.Gen Cert.ReferenceIdeal.Read Cert.Spec Idealize.ShloMosaic
  Idealize.ShloMosaic.ValueIdx

/-! ## The four index columns -/

/-- The raw source word of every edge (the edge list's first row, then one self loop per node). -/
def rS (x1 : (⟨S2x800000, .i32⟩ : BufTy).Contents (Elt Ideal)) : Col 850000 :=
  fun e => val_main_v10 (F := Ideal) x1 (ix1 e)
/-- The raw destination word of every edge. -/
def rD (x1 : (⟨S2x800000, .i32⟩ : BufTy).Contents (Elt Ideal)) : Col 850000 :=
  fun e => val_main_v11 (F := Ideal) x1 (ix1 e)
/-- The wrapped destination word of every edge. -/
def rDw (x1 : (⟨S2x800000, .i32⟩ : BufTy).Contents (Elt Ideal)) : Col 850000 :=
  fun e => val_main_v17 (F := Ideal) x1 (ix1 e)
/-- The wrapped source word of every edge. -/
def rSw (x1 : (⟨S2x800000, .i32⟩ : BufTy).Contents (Elt Ideal)) : Col 850000 :=
  fun e => val_main_v26 (F := Ideal) x1 (ix1 e)

/-! ## Two broadcasts read at an index -/

/-- A vector of `850000` elements made a column `[850000, 1]`, at row `e`: the vector's element `e`. -/
theorem col_apply {α : Type} (y : S850000.Idx → α) (e : Fin 850000) :
    broadcastInDim S850000x1 ![0] bcast_S850000_S850000x1_0 y (ix2 e (0 : Fin 1)) = y (ix1 e) :=
  broadcastInDim_apply _ bcast_S850000_S850000x1_0 y (ix2 e (0 : Fin 1)) (ix1 e) (fun a => match a with
    | ⟨0, _⟩ => by show e.val = if (850000 : Nat) = 1 then 0 else e.val; rw [if_neg (by decide)])

/-- A column `[850000, 1]` spread over 128 columns, at `(e, h)`: the column's row `e`. -/
theorem wide_apply {α : Type} (y : S850000x1.Idx → α) (e : Fin 850000) (h : Fin 128) :
    broadcastInDim S850000x128 ![0, 1] bcast_S850000x1_S850000x128_0_1 y (ix2 e h) = y (ix2 e (0 : Fin 1)) :=
  broadcastInDim_apply _ bcast_S850000x1_S850000x128_0_1 y (ix2 e h) (ix2 e (0 : Fin 1)) (fun a => match a with
    | ⟨0, _⟩ => by show e.val = if (850000 : Nat) = 1 then 0 else e.val; rw [if_neg (by decide)]
    | ⟨1, _⟩ => by show 0 = if (1 : Nat) = 1 then 0 else h.val; rw [if_pos rfl])

/-! ## The wrap -/

/-- Where the raw destination reads non-negative, the wrap does nothing. -/
theorem rDw_eq_of_nonneg (x1 : (⟨S2x800000, .i32⟩ : BufTy).Contents (Elt Ideal)) (e : Fin 850000)
    (hx : 0 ≤ (rD x1 e).toInt) : rDw x1 e = rD x1 e := by
  show val_main_v17 (F := Ideal) x1 (ix1 e) = val_main_v11 (F := Ideal) x1 (ix1 e)
  rw [val_main_v17_apply, val_main_v14_apply, val_main_v13_apply, val_main_c_apply]
  exact Cert.LibGather.select_slt_zero_of_nonneg _ hx _ _

theorem rwrap (x1 : (⟨S2x800000, .i32⟩ : BufTy).Contents (Elt Ideal)) (e : Fin 850000) (j : Fin 50000) :
    (rD x1 e).toInt = (j.val : ℤ) → (rDw x1 e).toInt = (j.val : ℤ) := by
  intro hj
  rw [rDw_eq_of_nonneg x1 e (by rw [hj]; omega)]
  exact hj

/-! ## The degree count and the normalisation factor -/

/-- The reference's vector scatter-add at `j`, for any operands: the operand's element plus the updates whose index
    word reads `j`. -/
theorem vecScatter_apply (x : (⟨S50000, .f32⟩ : BufTy).Contents (Elt Ideal))
    (idx : (⟨S850000x1, .i32⟩ : BufTy).Contents (Elt Ideal)) (u : (⟨S850000, .f32⟩ : BufTy).Contents (Elt Ideal))
    (j : Fin 50000) :
    Host.scatterAdd (F := Ideal) (φ := .f32) scatter_S50000_S850000x1_S850000_n_0_0_1 x idx u (ix1 j)
      = x (ix1 j) + ∑ e : Fin 850000, if (idx (ix2 e (0 : Fin 1))).toInt = (j.val : ℤ) then u (ix1 e) else 0 :=
  Cert.LibScatterVec.vecScatterAdd_apply scatter_S50000_S850000x1_S850000_n_0_0_1_wf x idx u j

/-- The wrapped destination column the degree scatter reads, at row `e`. -/
theorem v18_at (x1 : (⟨S2x800000, .i32⟩ : BufTy).Contents (Elt Ideal)) (e : Fin 850000) :
    val_main_v18 (F := Ideal) x1 (ix2 e (0 : Fin 1)) = rDw x1 e := by
  unfold val_main_v18
  exact col_apply _ e

/-- The degree count at `j`: zero plus a one for every edge whose wrapped destination reads `j`. -/
theorem deg_apply (x1 : (⟨S2x800000, .i32⟩ : BufTy).Contents (Elt Ideal)) (j : Fin 50000) :
    val_main_v20 (F := Ideal) x1 (ix1 j) = Cert.Spec.deg (rDw x1) j := by
  unfold val_main_v20
  rw [vecScatter_apply]
  unfold Cert.Spec.deg
  refine congrArg₂ (· + ·) ?_ (Finset.sum_congr rfl fun e _ => ?_)
  · exact (val_main_v12_apply _).trans (val_main_cst_apply _)
  · exact if_congr (by rw [v18_at]) ((val_main_v19_apply _).trans (val_main_cst_1_apply _)) rfl

theorem dinv_apply (x1 : (⟨S2x800000, .i32⟩ : BufTy).Contents (Elt Ideal)) (j : Fin 50000) :
    val_main_v21 (F := Ideal) x1 (ix1 j) = Cert.Spec.dinv (rDw x1) j := by
  unfold Cert.Spec.dinv
  rw [val_main_v21_apply, Ideal.hostUnary_rsqrt_def, deg_apply]

/-! ## The two gathers of the normalisation vector, and their product -/

/-- The reference's element gather at `e`, for any operands: the operand at the row number word, clamped. -/
theorem vecGather_at (x : (⟨S50000, .f32⟩ : BufTy).Contents (Elt Ideal))
    (idx : (⟨S850000x1, .i32⟩ : BufTy).Contents (Elt Ideal)) (e : Fin 850000) :
    Host.gather gather_S50000_S850000x1_S850000_n_0_n_n_0_1_1 x idx (ix1 e) = x (ix1 (cr (idx (ix2 e (0 : Fin 1))))) :=
  Cert.LibGather.vecGather_apply (by norm_num) gather_S50000_S850000x1_S850000_n_0_n_n_0_1_1_wf x idx e

/-- The reference's row gather at `(e, h)`, for any operands: column `h` of the row whose number is the word, clamped. -/
theorem rowGather_at (x : (⟨S50000x128, .f32⟩ : BufTy).Contents (Elt Ideal))
    (idx : (⟨S850000x1, .i32⟩ : BufTy).Contents (Elt Ideal)) (e : Fin 850000) (h : Fin 128) :
    Host.gather gather_S50000x128_S850000x1_S850000x128_1_0_n_n_0_1_1128 x idx (ix2 e h)
      = x (ix2 (cr (idx (ix2 e (0 : Fin 1)))) h) :=
  Cert.LibGather.rowGather_apply (by norm_num) gather_S50000x128_S850000x1_S850000x128_1_0_n_n_0_1_1128_wf x idx e h

/-- The wrapped source column the first normalisation gather reads, at row `e`. -/
theorem v27_at (x1 : (⟨S2x800000, .i32⟩ : BufTy).Contents (Elt Ideal)) (e : Fin 850000) :
    val_main_v27 (F := Ideal) x1 (ix2 e (0 : Fin 1)) = rSw x1 e := by
  unfold val_main_v27
  exact col_apply _ e

/-- The wrapped destination column the second normalisation gather reads (the wrap computed a second time, by the same
    operations on the same words), at row `e`. -/
theorem v34_at (x1 : (⟨S2x800000, .i32⟩ : BufTy).Contents (Elt Ideal)) (e : Fin 850000) :
    val_main_v34 (F := Ideal) x1 (ix2 e (0 : Fin 1)) = rDw x1 e := by
  unfold val_main_v34
  exact col_apply _ e

/-- The wrapped source column the row gather reads (the wrap computed once more), at row `e`. -/
theorem v43_at (x1 : (⟨S2x800000, .i32⟩ : BufTy).Contents (Elt Ideal)) (e : Fin 850000) :
    val_main_v43 (F := Ideal) x1 (ix2 e (0 : Fin 1)) = rSw x1 e := by
  unfold val_main_v43
  exact col_apply _ e

/-- The raw destination column the aggregation scatter reads, at row `e`. -/
theorem v48_at (x1 : (⟨S2x800000, .i32⟩ : BufTy).Contents (Elt Ideal)) (e : Fin 850000) :
    val_main_v48 (F := Ideal) x1 (ix2 e (0 : Fin 1)) = rD x1 e := by
  unfold val_main_v48
  exact col_apply _ e

/-- The edge weight `dinv[source] * dinv[destination]`, spread along the row, at `(e, h)`. -/
theorem norm_at (x1 : (⟨S2x800000, .i32⟩ : BufTy).Contents (Elt Ideal)) (e : Fin 850000) (h : Fin 128) :
    val_main_v45 (F := Ideal) x1 (ix2 e h)
      = Cert.Spec.dinv (rDw x1) (cr (rSw x1 e)) * Cert.Spec.dinv (rDw x1) (cr (rDw x1 e)) := by
  unfold val_main_v45
  rw [wide_apply]
  unfold val_main_v37
  rw [col_apply]
  unfold val_main_v36
  rw [mulf_apply]
  unfold val_main_v28 val_main_v35
  rw [vecGather_at, vecGather_at, v27_at, v34_at, dinv_apply, dinv_apply]

/-! ## One layer's aggregation -/

/-- The reference's row scatter-add at `(j, h)`, for any operands. -/
theorem rowScatter_apply (x : (⟨S50000x128, .f32⟩ : BufTy).Contents (Elt Ideal))
    (idx : (⟨S850000x1, .i32⟩ : BufTy).Contents (Elt Ideal)) (u : (⟨S850000x128, .f32⟩ : BufTy).Contents (Elt Ideal))
    (j : Fin 50000) (h : Fin 128) :
    Host.scatterAdd (F := Ideal) (φ := .f32) scatter_S50000x128_S850000x1_S850000x128_1_0_0_1 x idx u (ix2 j h)
      = x (ix2 j h) + ∑ e : Fin 850000, if (idx (ix2 e (0 : Fin 1))).toInt = (j.val : ℤ) then u (ix2 e h) else 0 :=
  Cert.LibSegmentSum.rowScatterAdd_apply scatter_S50000x128_S850000x1_S850000x128_1_0_0_1_wf x idx u j h

theorem agg_generic (x1 : (⟨S2x800000, .i32⟩ : BufTy).Contents (Elt Ideal))
    (xw : (⟨S50000x128, .f32⟩ : BufTy).Contents (Elt Ideal)) (j : Fin 50000) (h : Fin 128) :
    Host.scatterAdd (F := Ideal) (φ := .f32) scatter_S50000x128_S850000x1_S850000x128_1_0_0_1 (val_main_v47 (F := Ideal))
        (val_main_v48 (F := Ideal) x1)
        (mulf (F := Ideal) (φ := .f32) (Host.gather gather_S50000x128_S850000x1_S850000x128_1_0_n_n_0_1_1128 xw (val_main_v43 (F := Ideal) x1))
          (val_main_v45 (F := Ideal) x1)) (ix2 j h)
      = Cert.Spec.aggR (rSw x1) (rD x1) (rDw x1) (Cert.Spec.dinv (rDw x1)) (m2 xw) j h := by
  rw [rowScatter_apply]
  unfold Cert.Spec.aggR
  refine congrArg₂ (· + ·) ?_ (Finset.sum_congr rfl fun e _ => ?_)
  · exact (val_main_v47_apply _).trans (val_main_cst_8_apply _)
  · refine if_congr (by rw [v48_at]) ?_ rfl
    rw [mulf_apply, rowGather_at, v43_at, norm_at, m2_apply]

/-! ## Layer 0 -/

/-- Layer 0's weight matrix is slab 0 of the weights. -/
theorem w0_at (x3 : (⟨S3x128x128, .f32⟩ : BufTy).Contents (Elt Ideal)) (k h : Fin 128) :
    val_main_v5 (F := Ideal) x3 (ix2 k h) = x3 (ix3 (0 : Fin 3) k h) := by
  rw [val_main_v5_apply, val_main_v4_apply]
  refine congrArg x3 (funext fun a => Fin.ext ?_)
  have hk := k.isLt
  have hh := h.isLt
  match a with
  | ⟨0, _⟩ => rfl
  | ⟨1, _⟩ => show (k.val * 128 + h.val) / 128 % 128 = k.val; omega
  | ⟨2, _⟩ => show (k.val * 128 + h.val) % 128 = h.val; omega

/-- Layer 0's linear map is the specification's. -/
theorem xw0_at (x0 : (⟨S50000x128, .f32⟩ : BufTy).Contents (Elt Ideal))
    (x3 : (⟨S3x128x128, .f32⟩ : BufTy).Contents (Elt Ideal)) :
    m2 (val_main_v8 (F := Ideal) x0 x3) = Cert.Spec.mm (m2 x0) (m3 x3) 0 := by
  funext n h
  rw [m2_apply, val_main_v8_apply]
  unfold Cert.Spec.mm
  refine Finset.sum_congr rfl fun k _ => ?_
  have el : lidx_main_v8 (ix2 n h) k = ix2 n k := by
    funext a; match a with | ⟨0, _⟩ => rfl | ⟨1, _⟩ => rfl
  have er : ridx_main_v8 (ix2 n h) k = ix2 k h := by
    funext a; match a with | ⟨0, _⟩ => rfl | ⟨1, _⟩ => rfl
  rw [el, er, w0_at, m2_apply, m3_apply]

theorem agg0 (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (j : Fin 50000) (h : Fin 128) :
    val_main_v49 (F := Ideal) x0 x1 x3 (ix2 j h)
      = Cert.Spec.aggR (rSw x1) (rD x1) (rDw x1) (Cert.Spec.dinv (rDw x1)) (Cert.Spec.mm (m2 x0) (m3 x3) 0) j h := by
  unfold val_main_v49 val_main_v46 val_main_v44
  rw [agg_generic, xw0_at]

/-! ## Layers 1 and 2 use layer 0's columns -/

theorem l1_cols (x1 : (⟨S2x800000, .i32⟩ : BufTy).Contents (Elt Ideal)) :
    val_main_v116 (F := Ideal) x1 = val_main_v43 (F := Ideal) x1 ∧ val_main_v118 (F := Ideal) x1 = val_main_v45 (F := Ideal) x1
      ∧ val_main_v120 (F := Ideal) = val_main_v47 (F := Ideal) ∧ val_main_v121 (F := Ideal) x1 = val_main_v48 (F := Ideal) x1 :=
  ⟨rfl, rfl, rfl, rfl⟩

theorem l2_cols (x1 : (⟨S2x800000, .i32⟩ : BufTy).Contents (Elt Ideal)) :
    val_main_v189 (F := Ideal) x1 = val_main_v43 (F := Ideal) x1 ∧ val_main_v191 (F := Ideal) x1 = val_main_v45 (F := Ideal) x1
      ∧ val_main_v193 (F := Ideal) = val_main_v47 (F := Ideal) ∧ val_main_v194 (F := Ideal) x1 = val_main_v48 (F := Ideal) x1 :=
  ⟨rfl, rfl, rfl, rfl⟩

theorem agg1 (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 x5 x6 x7 x8 : (⟨S3x128, .f32⟩ : BufTy).Contents (Elt Ideal))
    (j : Fin 50000) (h : Fin 128) :
    val_main_v122 (F := Ideal) x0 x1 x3 x4 x5 x6 x7 x8 (ix2 j h)
      = Cert.Spec.aggR (rSw x1) (rD x1) (rDw x1) (Cert.Spec.dinv (rDw x1))
          (m2 (val_main_v81 (F := Ideal) x0 x1 x3 x4 x5 x6 x7 x8)) j h := by
  unfold val_main_v122 val_main_v119 val_main_v117
  rw [(l1_cols x1).1, (l1_cols x1).2.1, (l1_cols x1).2.2.1, (l1_cols x1).2.2.2]
  exact agg_generic x1 _ j h

theorem agg2 (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 x5 x6 x7 x8 : (⟨S3x128, .f32⟩ : BufTy).Contents (Elt Ideal))
    (j : Fin 50000) (h : Fin 128) :
    val_main_v195 (F := Ideal) x0 x1 x3 x4 x5 x6 x7 x8 (ix2 j h)
      = Cert.Spec.aggR (rSw x1) (rD x1) (rDw x1) (Cert.Spec.dinv (rDw x1))
          (m2 (val_main_v154 (F := Ideal) x0 x1 x3 x4 x5 x6 x7 x8)) j h := by
  unfold val_main_v195 val_main_v192 val_main_v190
  rw [(l2_cols x1).1, (l2_cols x1).2.1, (l2_cols x1).2.2.1, (l2_cols x1).2.2.2]
  exact agg_generic x1 _ j h

end Cert.ReferenceIdeal.Hand

end
-- ==== Proof.RefLayers.lean ====
/-
  The three layers of the reference network, read entry by entry.

  Every layer of the reference does the same four things to a [50000, 128] array of node rows: it multiplies the rows
  by the layer's weight matrix, aggregates the products along the edges (each gathered row weighted by the two
  normalisation factors of its edge, then summed into the edge's destination row), adds the layer's bias row, and
  normalises every column with the layer's running mean and variance, scale and shift; the first two layers then
  clip below at zero. The aggregation of each layer is identified elsewhere with the specification's aggregation;
  this module reads everything around it: the five parameter rows of each layer (a row of a [3, 128] array stretched
  over all node rows), the pointwise arithmetic, and the linear map of the next layer, a contraction over the 128
  columns against one slice of the [3, 128, 128] weight array. Put together, the three layers' outputs are the
  specification's refH1, refH2 and refH3 of the input features, each layer taking the previous one's output.
-/
import proofs.«406701_j21981642621452_2_alg».proof.Proof.RefAgg
import proofs.«406701_j21981642621452_2_alg».proof.Proof.Gen.ReferenceIdeal.Read
import proofs.«406701_j21981642621452_2_alg».proof.Proof.Spec
import proofs.«406701_j21981642621452_2_alg».proof.Proof.Adapt
import Idealize.ShloMosaic.Lib.ValueIdx
import Idealize.ShloMosaic.Lib.Pipeline.Value

noncomputable section

open scoped BigOperators

namespace Cert.ReferenceIdeal.Hand

open Cert.ReferenceIdeal Cert.ReferenceIdeal.Read Cert.Spec Idealize.ShloMosaic Idealize.ShloMosaic.ValueIdx

/-! ## The parameter rows of layer 0

Each per-layer parameter is a row of a [3, 128] array: the program slices row 0 out, drops the unit axis, and stretches the
128 numbers back over a leading unit axis and then over the 50000 node rows. Read at node n, column k, such a stretched
row is the parameter array at (0, k), whatever n is. -/

/-- The stretched bias row of layer 0. -/
theorem bias0 (x4 : (⟨S3x128, .f32⟩ : BufTy).Contents (Elt Ideal)) (n : Fin 50000) (k : Fin 128) :
    val_main_v51 (F := Ideal) x4 (ix2 n k) = x4 (ix2 (0 : Fin 3) k) := by
  rw [val_main_v51_apply, val_main_v50_apply, val_main_v7_apply, val_main_v6_apply]
  refine congrArg x4 (funext fun a => Fin.ext ?_)
  match a with
  | ⟨0, _⟩ => rfl
  | ⟨1, _⟩ => exact Nat.mod_eq_of_lt k.isLt

/-- The stretched running-mean row of layer 0. -/
theorem mean0 (x7 : (⟨S3x128, .f32⟩ : BufTy).Contents (Elt Ideal)) (n : Fin 50000) (k : Fin 128) :
    val_main_v62 (F := Ideal) x7 (ix2 n k) = x7 (ix2 (0 : Fin 3) k) := by
  rw [val_main_v62_apply, val_main_v61_apply, val_main_v58_apply, val_main_v57_apply]
  refine congrArg x7 (funext fun a => Fin.ext ?_)
  match a with
  | ⟨0, _⟩ => rfl
  | ⟨1, _⟩ => exact Nat.mod_eq_of_lt k.isLt

/-- The stretched row of reciprocal roots of layer 0: the variance row plus epsilon, under the reciprocal square root. -/
theorem rsq0 (x8 : (⟨S3x128, .f32⟩ : BufTy).Contents (Elt Ideal)) (n : Fin 50000) (k : Fin 128) :
    val_main_v68 (F := Ideal) x8 (ix2 n k) = Ideal.rsqrt ((x8 (ix2 (0 : Fin 3) k) : EReal) + EPS) := by
  rw [val_main_v68_apply, val_main_v67_apply, val_main_v66_apply, val_main_v65_apply, val_main_v60_apply, val_main_v59_apply,
    val_main_v64_apply, val_main_cst_9_apply]
  refine congrArg (fun t => Ideal.rsqrt ((x8 t : EReal) + EPS)) (funext fun a => Fin.ext ?_)
  match a with
  | ⟨0, _⟩ => rfl
  | ⟨1, _⟩ => exact Nat.mod_eq_of_lt k.isLt

/-- The stretched scale row of layer 0. -/
theorem gamma0 (x5 : (⟨S3x128, .f32⟩ : BufTy).Contents (Elt Ideal)) (n : Fin 50000) (k : Fin 128) :
    val_main_v71 (F := Ideal) x5 (ix2 n k) = x5 (ix2 (0 : Fin 3) k) := by
  rw [val_main_v71_apply, val_main_v70_apply, val_main_v54_apply, val_main_v53_apply]
  refine congrArg x5 (funext fun a => Fin.ext ?_)
  match a with
  | ⟨0, _⟩ => rfl
  | ⟨1, _⟩ => exact Nat.mod_eq_of_lt k.isLt

/-- The stretched shift row of layer 0. -/
theorem beta0 (x6 : (⟨S3x128, .f32⟩ : BufTy).Contents (Elt Ideal)) (n : Fin 50000) (k : Fin 128) :
    val_main_v74 (F := Ideal) x6 (ix2 n k) = x6 (ix2 (0 : Fin 3) k) := by
  rw [val_main_v74_apply, val_main_v73_apply, val_main_v56_apply, val_main_v55_apply]
  refine congrArg x6 (funext fun a => Fin.ext ?_)
  match a with
  | ⟨0, _⟩ => rfl
  | ⟨1, _⟩ => exact Nat.mod_eq_of_lt k.isLt

/-! ## Layer 0

The aggregated rows plus the bias, normalised column by column, clipped below at zero. -/

/-- The first hidden layer, entry by entry. -/
theorem h1 (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 x5 x6 x7 x8 : (⟨S3x128, .f32⟩ : BufTy).Contents (Elt Ideal))
    (n : Fin 50000) (k : Fin 128) :
    val_main_v76 (F := Ideal) x0 x1 x3 x4 x5 x6 x7 x8 (ix2 n k)
      = Cert.Spec.refH1 (rSw x1) (rD x1) (rDw x1) (m3 x3) (m2 x4) (m2 x5) (m2 x6) (m2 x7) (m2 x8) (m2 x0) n k := by
  rw [val_main_v76_apply, val_main_v75_apply, val_main_v72_apply, val_main_v69_apply, val_main_v63_apply, val_main_v52_apply,
    agg0, bias0, mean0, rsq0, gamma0, beta0, val_main_call0_v0_apply, val_main_call0_cst_apply]
  rfl

/-! ## The weights of layer 1 and its linear map -/

/-- Layer 1's weight matrix is slice 1 of the weight array. -/
theorem weights1 (x3 : (⟨S3x128x128, .f32⟩ : BufTy).Contents (Elt Ideal)) (k h : Fin 128) :
    val_main_v78 (F := Ideal) x3 (ix2 k h) = x3 (ix3 (1 : Fin 3) k h) := by
  rw [val_main_v78_apply, val_main_v77_apply]
  refine congrArg x3 (funext fun a => Fin.ext ?_)
  have hk := k.isLt
  have hh := h.isLt
  match a with
  | ⟨0, _⟩ => rfl
  | ⟨1, _⟩ => show (k.val * 128 + h.val) / 128 % 128 = k.val; omega
  | ⟨2, _⟩ => show (k.val * 128 + h.val) % 128 = h.val; omega

/-- The first hidden layer times layer 1's weights. -/
theorem xw1 (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 x5 x6 x7 x8 : (⟨S3x128, .f32⟩ : BufTy).Contents (Elt Ideal))
    (n : Fin 50000) (h : Fin 128) :
    val_main_v81 (F := Ideal) x0 x1 x3 x4 x5 x6 x7 x8 (ix2 n h)
      = Cert.Spec.mm (Cert.Spec.refH1 (rSw x1) (rD x1) (rDw x1) (m3 x3) (m2 x4) (m2 x5) (m2 x6) (m2 x7) (m2 x8) (m2 x0)) (m3 x3) 1 n h := by
  rw [val_main_v81_apply]
  refine Finset.sum_congr rfl fun k _ => ?_
  have el : lidx_main_v81 (ix2 n h) k = ix2 n k :=
    funext fun a => Fin.ext (by match a with | ⟨0, _⟩ => rfl | ⟨1, _⟩ => rfl)
  have er : ridx_main_v81 (ix2 n h) k = ix2 k h :=
    funext fun a => Fin.ext (by match a with | ⟨0, _⟩ => rfl | ⟨1, _⟩ => rfl)
  rw [el, er, h1, weights1]
  rfl

/-! ## The parameter rows of layer 1

The same five stretched rows, now sliced at row 1 of each parameter array. -/

/-- The stretched bias row of layer 1. -/
theorem bias1 (x4 : (⟨S3x128, .f32⟩ : BufTy).Contents (Elt Ideal)) (n : Fin 50000) (k : Fin 128) :
    val_main_v124 (F := Ideal) x4 (ix2 n k) = x4 (ix2 (1 : Fin 3) k) := by
  rw [val_main_v124_apply, val_main_v123_apply, val_main_v80_apply, val_main_v79_apply]
  refine congrArg x4 (funext fun a => Fin.ext ?_)
  match a with
  | ⟨0, _⟩ => rfl
  | ⟨1, _⟩ => exact Nat.mod_eq_of_lt k.isLt

/-- The stretched running-mean row of layer 1. -/
theorem mean1 (x7 : (⟨S3x128, .f32⟩ : BufTy).Contents (Elt Ideal)) (n : Fin 50000) (k : Fin 128) :
    val_main_v135 (F := Ideal) x7 (ix2 n k) = x7 (ix2 (1 : Fin 3) k) := by
  rw [val_main_v135_apply, val_main_v134_apply, val_main_v131_apply, val_main_v130_apply]
  refine congrArg x7 (funext fun a => Fin.ext ?_)
  match a with
  | ⟨0, _⟩ => rfl
  | ⟨1, _⟩ => exact Nat.mod_eq_of_lt k.isLt

/-- The stretched row of reciprocal roots of layer 1. -/
theorem rsq1 (x8 : (⟨S3x128, .f32⟩ : BufTy).Contents (Elt Ideal)) (n : Fin 50000) (k : Fin 128) :
    val_main_v141 (F := Ideal) x8 (ix2 n k) = Ideal.rsqrt ((x8 (ix2 (1 : Fin 3) k) : EReal) + EPS) := by
  rw [val_main_v141_apply, val_main_v140_apply, val_main_v139_apply, val_main_v138_apply, val_main_v133_apply, val_main_v132_apply,
    val_main_v137_apply, val_main_cst_21_apply]
  refine congrArg (fun t => Ideal.rsqrt ((x8 t : EReal) + EPS)) (funext fun a => Fin.ext ?_)
  match a with
  | ⟨0, _⟩ => rfl
  | ⟨1, _⟩ => exact Nat.mod_eq_of_lt k.isLt

/-- The stretched scale row of layer 1. -/
theorem gamma1 (x5 : (⟨S3x128, .f32⟩ : BufTy).Contents (Elt Ideal)) (n : Fin 50000) (k : Fin 128) :
    val_main_v144 (F := Ideal) x5 (ix2 n k) = x5 (ix2 (1 : Fin 3) k) := by
  rw [val_main_v144_apply, val_main_v143_apply, val_main_v127_apply, val_main_v126_apply]
  refine congrArg x5 (funext fun a => Fin.ext ?_)
  match a with
  | ⟨0, _⟩ => rfl
  | ⟨1, _⟩ => exact Nat.mod_eq_of_lt k.isLt

/-- The stretched shift row of layer 1. -/
theorem beta1 (x6 : (⟨S3x128, .f32⟩ : BufTy).Contents (Elt Ideal)) (n : Fin 50000) (k : Fin 128) :
    val_main_v147 (F := Ideal) x6 (ix2 n k) = x6 (ix2 (1 : Fin 3) k) := by
  rw [val_main_v147_apply, val_main_v146_apply, val_main_v129_apply, val_main_v128_apply]
  refine congrArg x6 (funext fun a => Fin.ext ?_)
  match a with
  | ⟨0, _⟩ => rfl
  | ⟨1, _⟩ => exact Nat.mod_eq_of_lt k.isLt

/-! ## Layer 1

Its aggregation gathers rows of the product just identified, so the aggregated array is the specification's
aggregation of the first hidden layer times layer 1's weights. -/

/-- The second hidden layer, entry by entry. -/
theorem h2 (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 x5 x6 x7 x8 : (⟨S3x128, .f32⟩ : BufTy).Contents (Elt Ideal))
    (n : Fin 50000) (k : Fin 128) :
    val_main_v149 (F := Ideal) x0 x1 x3 x4 x5 x6 x7 x8 (ix2 n k)
      = Cert.Spec.refH2 (rSw x1) (rD x1) (rDw x1) (m3 x3) (m2 x4) (m2 x5) (m2 x6) (m2 x7) (m2 x8) (m2 x0) n k := by
  have product : m2 (val_main_v81 (F := Ideal) x0 x1 x3 x4 x5 x6 x7 x8)
      = Cert.Spec.mm (Cert.Spec.refH1 (rSw x1) (rD x1) (rDw x1) (m3 x3) (m2 x4) (m2 x5) (m2 x6) (m2 x7) (m2 x8) (m2 x0)) (m3 x3) 1 :=
    funext fun i => funext fun j => xw1 x0 x1 x3 x4 x5 x6 x7 x8 i j
  rw [val_main_v149_apply, val_main_v148_apply, val_main_v145_apply, val_main_v142_apply, val_main_v136_apply, val_main_v125_apply,
    agg1, product, bias1, mean1, rsq1, gamma1, beta1, val_main_call1_v0_apply, val_main_call1_cst_apply]
  rfl

/-! ## The weights of layer 2 and its linear map -/

/-- Layer 2's weight matrix is slice 2 of the weight array. -/
theorem weights2 (x3 : (⟨S3x128x128, .f32⟩ : BufTy).Contents (Elt Ideal)) (k h : Fin 128) :
    val_main_v151 (F := Ideal) x3 (ix2 k h) = x3 (ix3 (2 : Fin 3) k h) := by
  rw [val_main_v151_apply, val_main_v150_apply]
  refine congrArg x3 (funext fun a => Fin.ext ?_)
  have hk := k.isLt
  have hh := h.isLt
  match a with
  | ⟨0, _⟩ => rfl
  | ⟨1, _⟩ => show (k.val * 128 + h.val) / 128 % 128 = k.val; omega
  | ⟨2, _⟩ => show (k.val * 128 + h.val) % 128 = h.val; omega

/-- The second hidden layer times layer 2's weights. -/
theorem xw2 (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 x5 x6 x7 x8 : (⟨S3x128, .f32⟩ : BufTy).Contents (Elt Ideal))
    (n : Fin 50000) (h : Fin 128) :
    val_main_v154 (F := Ideal) x0 x1 x3 x4 x5 x6 x7 x8 (ix2 n h)
      = Cert.Spec.mm (Cert.Spec.refH2 (rSw x1) (rD x1) (rDw x1) (m3 x3) (m2 x4) (m2 x5) (m2 x6) (m2 x7) (m2 x8) (m2 x0)) (m3 x3) 2 n h := by
  rw [val_main_v154_apply]
  refine Finset.sum_congr rfl fun k _ => ?_
  have el : lidx_main_v154 (ix2 n h) k = ix2 n k :=
    funext fun a => Fin.ext (by match a with | ⟨0, _⟩ => rfl | ⟨1, _⟩ => rfl)
  have er : ridx_main_v154 (ix2 n h) k = ix2 k h :=
    funext fun a => Fin.ext (by match a with | ⟨0, _⟩ => rfl | ⟨1, _⟩ => rfl)
  rw [el, er, h2, weights2]
  rfl

/-! ## The parameter rows of layer 2

Sliced at row 2. -/

/-- The stretched bias row of layer 2. -/
theorem bias2 (x4 : (⟨S3x128, .f32⟩ : BufTy).Contents (Elt Ideal)) (n : Fin 50000) (k : Fin 128) :
    val_main_v197 (F := Ideal) x4 (ix2 n k) = x4 (ix2 (2 : Fin 3) k) := by
  rw [val_main_v197_apply, val_main_v196_apply, val_main_v153_apply, val_main_v152_apply]
  refine congrArg x4 (funext fun a => Fin.ext ?_)
  match a with
  | ⟨0, _⟩ => rfl
  | ⟨1, _⟩ => exact Nat.mod_eq_of_lt k.isLt

/-- The stretched running-mean row of layer 2. -/
theorem mean2 (x7 : (⟨S3x128, .f32⟩ : BufTy).Contents (Elt Ideal)) (n : Fin 50000) (k : Fin 128) :
    val_main_v208 (F := Ideal) x7 (ix2 n k) = x7 (ix2 (2 : Fin 3) k) := by
  rw [val_main_v208_apply, val_main_v207_apply, val_main_v204_apply, val_main_v203_apply]
  refine congrArg x7 (funext fun a => Fin.ext ?_)
  match a with
  | ⟨0, _⟩ => rfl
  | ⟨1, _⟩ => exact Nat.mod_eq_of_lt k.isLt

/-- The stretched row of reciprocal roots of layer 2. -/
theorem rsq2 (x8 : (⟨S3x128, .f32⟩ : BufTy).Contents (Elt Ideal)) (n : Fin 50000) (k : Fin 128) :
    val_main_v214 (F := Ideal) x8 (ix2 n k) = Ideal.rsqrt ((x8 (ix2 (2 : Fin 3) k) : EReal) + EPS) := by
  rw [val_main_v214_apply, val_main_v213_apply, val_main_v212_apply, val_main_v211_apply, val_main_v206_apply, val_main_v205_apply,
    val_main_v210_apply, val_main_cst_33_apply]
  refine congrArg (fun t => Ideal.rsqrt ((x8 t : EReal) + EPS)) (funext fun a => Fin.ext ?_)
  match a with
  | ⟨0, _⟩ => rfl
  | ⟨1, _⟩ => exact Nat.mod_eq_of_lt k.isLt

/-- The stretched scale row of layer 2. -/
theorem gamma2 (x5 : (⟨S3x128, .f32⟩ : BufTy).Contents (Elt Ideal)) (n : Fin 50000) (k : Fin 128) :
    val_main_v217 (F := Ideal) x5 (ix2 n k) = x5 (ix2 (2 : Fin 3) k) := by
  rw [val_main_v217_apply, val_main_v216_apply, val_main_v200_apply, val_main_v199_apply]
  refine congrArg x5 (funext fun a => Fin.ext ?_)
  match a with
  | ⟨0, _⟩ => rfl
  | ⟨1, _⟩ => exact Nat.mod_eq_of_lt k.isLt

/-- The stretched shift row of layer 2. -/
theorem beta2 (x6 : (⟨S3x128, .f32⟩ : BufTy).Contents (Elt Ideal)) (n : Fin 50000) (k : Fin 128) :
    val_main_v220 (F := Ideal) x6 (ix2 n k) = x6 (ix2 (2 : Fin 3) k) := by
  rw [val_main_v220_apply, val_main_v219_apply, val_main_v202_apply, val_main_v201_apply]
  refine congrArg x6 (funext fun a => Fin.ext ?_)
  match a with
  | ⟨0, _⟩ => rfl
  | ⟨1, _⟩ => exact Nat.mod_eq_of_lt k.isLt

/-! ## Layer 2

The last layer is normalised and not clipped. -/

/-- The third layer's output, entry by entry. -/
theorem h3 (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 x5 x6 x7 x8 : (⟨S3x128, .f32⟩ : BufTy).Contents (Elt Ideal))
    (n : Fin 50000) (k : Fin 128) :
    val_main_v221 (F := Ideal) x0 x1 x3 x4 x5 x6 x7 x8 (ix2 n k)
      = Cert.Spec.refH3 (rSw x1) (rD x1) (rDw x1) (m3 x3) (m2 x4) (m2 x5) (m2 x6) (m2 x7) (m2 x8) (m2 x0) n k := by
  have product : m2 (val_main_v154 (F := Ideal) x0 x1 x3 x4 x5 x6 x7 x8)
      = Cert.Spec.mm (Cert.Spec.refH2 (rSw x1) (rD x1) (rDw x1) (m3 x3) (m2 x4) (m2 x5) (m2 x6) (m2 x7) (m2 x8) (m2 x0)) (m3 x3) 2 :=
    funext fun i => funext fun j => xw2 x0 x1 x3 x4 x5 x6 x7 x8 i j
  rw [val_main_v221_apply, val_main_v218_apply, val_main_v215_apply, val_main_v209_apply, val_main_v198_apply,
    agg2, product, bias2, mean2, rsq2, gamma2, beta2]
  rfl

end Cert.ReferenceIdeal.Hand

end
-- ==== Proof.RefTail.lean ====
/-
  The reference's pool and classifier, read at an index.

  After the third layer the reference holds one row of 128 features per node. It sums the rows of each graph (a row
  scatter-add onto zeros at the node's graph id), counts the nodes of each graph (a scatter-add of ones onto zeros at
  the same ids), divides each sum by its count raised to at least one, and applies a two-layer classifier:
  `relu(mean · W1 + b1) · W2 + b2`. An id outside `[0, 1024)` names no graph and its row is dropped by both sums.
  Read at graph `gph` the result is `Spec.refScores` of the program's arguments.
-/
import proofs.«406701_j21981642621452_2_alg».proof.Proof.RefLayers
import proofs.«406701_j21981642621452_2_alg».proof.Proof.RefAgg
import proofs.«406701_j21981642621452_2_alg».proof.Proof.Gen.ReferenceIdeal.Read
import proofs.«406701_j21981642621452_2_alg».proof.Proof.Spec
import proofs.«406701_j21981642621452_2_alg».proof.Proof.Adapt
import proofs.«406701_j21981642621452_2_alg».proof.Proof.LibSegmentSum
import proofs.«406701_j21981642621452_2_alg».proof.Proof.LibScatterVec
import Idealize.ShloMosaic.Lib.ValueIdx
import Idealize.ShloMosaic.Lib.Pipeline.Value
import Idealize.ShloMosaic.Lib.IdealHost

noncomputable section

open scoped BigOperators

namespace Cert.ReferenceIdeal.Hand

open Cert.ReferenceIdeal Cert.ReferenceIdeal.Read Cert.Spec Idealize.ShloMosaic Idealize.ShloMosaic.ValueIdx
open Idealize.ShloMosaic.TcCoe Idealize.SL.Sem

/-! ## The two segment sums of the pool

Both are scatter-adds onto zeros whose index column is the graph id of each node: row `gph` of the result is the float
zero plus the sum of the update rows whose id word, read signed, is exactly `gph`. -/

/-- The index column of the pool's scatters at row `n` is node `n`'s graph id. -/
theorem idx_v223 (n : Fin 50000) : idx_main_v223 (ix2 n (0 : Fin 1)) = ix1 n :=
  funext fun a => match a with | ⟨0, _⟩ => rfl

theorem idx_v227 (n : Fin 50000) : idx_main_v227 (ix2 n (0 : Fin 1)) = ix1 n :=
  funext fun a => match a with | ⟨0, _⟩ => rfl

/-- A row scatter-add of `u` onto the zero array `[1024, 128]`: the zero plus the rows of `u` whose id is `gph`. -/
theorem rowScatter_zeros_apply (idx : (⟨S50000x1, .i32⟩ : BufTy).Contents (Elt Ideal))
    (u : (⟨S50000x128, .f32⟩ : BufTy).Contents (Elt Ideal)) (gph : Fin 1024) (h : Fin 128) :
    Host.scatterAdd (F := Ideal) (φ := .f32) scatter_S1024x128_S50000x1_S50000x128_1_0_0_1 (val_main_v222 (F := Ideal)) idx u (ix2 gph h)
      = Z0 + ∑ n : Fin 50000, if (idx (ix2 n (0 : Fin 1))).toInt = (gph.val : ℤ) then u (ix2 n h) else 0 := by
  refine (Cert.LibSegmentSum.rowScatterAdd_apply (M := 1024) (D := 128) (E := 50000)
    Facts₀.scatter_S1024x128_S50000x1_S50000x128_1_0_0_1_wf (val_main_v222 (F := Ideal)) idx u gph h).trans ?_
  rw [val_main_v222_apply, val_main_cst_34_apply]
  rfl

/-- A vector scatter-add of `u` onto the zero vector `[1024]`: the zero plus the entries of `u` whose id is `gph`. -/
theorem vecScatter_zeros_apply (idx : (⟨S50000x1, .i32⟩ : BufTy).Contents (Elt Ideal))
    (u : (⟨S50000, .f32⟩ : BufTy).Contents (Elt Ideal)) (gph : Fin 1024) :
    Host.scatterAdd (F := Ideal) (φ := .f32) scatter_S1024_S50000x1_S50000_n_0_0_1 (val_main_v226 (F := Ideal)) idx u (ix1 gph)
      = Z0 + ∑ n : Fin 50000, if (idx (ix2 n (0 : Fin 1))).toInt = (gph.val : ℤ) then u (ix1 n) else 0 := by
  refine (Cert.LibScatterVec.vecScatterAdd_apply (M := 1024) (E := 50000)
    Facts₀.scatter_S1024_S50000x1_S50000_n_0_0_1_wf (val_main_v226 (F := Ideal)) idx u gph).trans ?_
  rw [val_main_v226_apply, val_main_cst_36_apply]
  rfl

/-- The per-graph sums of the last layer's rows. -/
theorem sums_apply (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 : (⟨S3x128x128, .f32⟩ : BufTy).Contents (Elt Ideal))
    (x4 x5 x6 x7 x8 : (⟨S3x128, .f32⟩ : BufTy).Contents (Elt Ideal)) (gph : Fin 1024) (h : Fin 128) :
    val_main_v224 (F := Ideal) x0 x1 x2 x3 x4 x5 x6 x7 x8 (ix2 gph h)
      = Cert.Spec.sumsR (v1 x2) (Cert.Spec.refH3 (rSw x1) (rD x1) (rDw x1) (m3 x3) (m2 x4) (m2 x5) (m2 x6) (m2 x7) (m2 x8) (m2 x0)) gph h := by
  unfold val_main_v224
  refine (rowScatter_zeros_apply _ _ gph h).trans ?_
  unfold Cert.Spec.sumsR
  refine congrArg (Z0 + ·) (Finset.sum_congr rfl fun n _ => ?_)
  rw [val_main_v223_apply, idx_v223, h3]
  rfl

/-- The per-graph node counts, as sums of float ones. -/
theorem cnt_apply (x2 : (⟨S50000, .i32⟩ : BufTy).Contents (Elt Ideal)) (gph : Fin 1024) :
    val_main_v228 (F := Ideal) x2 (ix1 gph) = Cert.Spec.cntR (v1 x2) gph := by
  unfold val_main_v228
  refine (vecScatter_zeros_apply _ _ gph).trans ?_
  unfold Cert.Spec.cntR
  refine congrArg (Z0 + ·) (Finset.sum_congr rfl fun n _ => ?_)
  rw [val_main_v227_apply, idx_v227, val_main_v225_apply, val_main_cst_35_apply]
  rfl

/-! ## The mean and the classifier

Index equations: each composed index function of the generated stages, at an index built from coordinates, is again
an index built from coordinates. -/

theorem idx_v243 (gph : Fin 1024) : idx_main_v243 (ix1 gph) = ix2 gph (0 : Fin 1) :=
  funext fun a => match a with
    | ⟨0, _⟩ => Fin.ext (Nat.div_one _)
    | ⟨1, _⟩ => rfl

theorem idx_v241_v240 (i : S1024x1.Idx) : idx_main_v240 (idx_main_v241 i) = ix1 (0 : Fin 1) :=
  funext fun a => match a with | ⟨0, _⟩ => rfl

theorem lidx_v239 (gph : Fin 1024) (j : Fin 64) : lidx_main_v239 (ix2 gph (0 : Fin 1)) j = ix2 gph j :=
  funext fun a => match a with
    | ⟨0, _⟩ => rfl
    | ⟨1, _⟩ => rfl

theorem ridx_v239 (gph : Fin 1024) (j : Fin 64) : ridx_main_v239 (ix2 gph (0 : Fin 1)) j = ix2 j (0 : Fin 1) :=
  funext fun a => match a with
    | ⟨0, _⟩ => rfl
    | ⟨1, _⟩ => rfl

theorem idx_v236_v235 (gph : Fin 1024) (j : Fin 64) : idx_main_v235 (idx_main_v236 (ix2 gph j)) = ix1 j :=
  funext fun a => match a with | ⟨0, _⟩ => rfl

theorem lidx_v234 (gph : Fin 1024) (j : Fin 64) (k : Fin 128) : lidx_main_v234 (ix2 gph j) k = ix2 gph k :=
  funext fun a => match a with
    | ⟨0, _⟩ => rfl
    | ⟨1, _⟩ => rfl

theorem ridx_v234 (gph : Fin 1024) (j : Fin 64) (k : Fin 128) : ridx_main_v234 (ix2 gph j) k = ix2 k j :=
  funext fun a => match a with
    | ⟨0, _⟩ => rfl
    | ⟨1, _⟩ => rfl

theorem idx_v232_v231 (gph : Fin 1024) (k : Fin 128) : idx_main_v231 (idx_main_v232 (ix2 gph k)) = ix1 gph :=
  funext fun a => match a with | ⟨0, _⟩ => rfl

/-- The mean: the per-graph sum over the count, the count raised to at least one. -/
theorem mean_apply (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 : (⟨S3x128x128, .f32⟩ : BufTy).Contents (Elt Ideal))
    (x4 x5 x6 x7 x8 : (⟨S3x128, .f32⟩ : BufTy).Contents (Elt Ideal)) (gph : Fin 1024) (k : Fin 128) :
    val_main_v233 (F := Ideal) x0 x1 x2 x3 x4 x5 x6 x7 x8 (ix2 gph k)
      = Cert.Spec.pooled (Cert.Spec.sumsR (v1 x2) (Cert.Spec.refH3 (rSw x1) (rD x1) (rDw x1) (m3 x3) (m2 x4) (m2 x5) (m2 x6) (m2 x7) (m2 x8) (m2 x0)))
          (Cert.Spec.cntR (v1 x2)) gph k := by
  rw [val_main_v233_apply, sums_apply, val_main_v232_apply, val_main_v231_apply, idx_v232_v231, val_main_v230_apply,
    cnt_apply, val_main_v229_apply, val_main_cst_37_apply]
  rfl

/-- The first classifier layer after its relu. -/
theorem hidden_apply (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 : (⟨S3x128x128, .f32⟩ : BufTy).Contents (Elt Ideal))
    (x4 x5 x6 x7 x8 : (⟨S3x128, .f32⟩ : BufTy).Contents (Elt Ideal)) (x9 : (⟨S128x64, .f32⟩ : BufTy).Contents (Elt Ideal))
    (x10 : (⟨S64, .f32⟩ : BufTy).Contents (Elt Ideal)) (gph : Fin 1024) (j : Fin 64) :
    val_main_v238 (F := Ideal) x0 x1 x2 x3 x4 x5 x6 x7 x8 x9 x10 (ix2 gph j)
      = max ((∑ k : Fin 128, Cert.Spec.pooled (Cert.Spec.sumsR (v1 x2) (Cert.Spec.refH3 (rSw x1) (rD x1) (rDw x1) (m3 x3) (m2 x4) (m2 x5) (m2 x6) (m2 x7) (m2 x8) (m2 x0)))
          (Cert.Spec.cntR (v1 x2)) gph k * m2 x9 k j) + v1 x10 j) Z0 := by
  rw [val_main_v238_apply, val_main_v237_apply, val_main_v234_apply, val_main_v236_apply, val_main_v235_apply,
    idx_v236_v235, val_main_call2_v0_apply, val_main_call2_cst_apply]
  simp only [lidx_v234, ridx_v234, mean_apply]
  rfl

/-- THE REFERENCE'S RESULT at graph `gph` is the specification's score. -/
theorem ref_scores (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 : (⟨S3x128x128, .f32⟩ : BufTy).Contents (Elt Ideal))
    (x4 x5 x6 x7 x8 : (⟨S3x128, .f32⟩ : BufTy).Contents (Elt Ideal)) (x9 : (⟨S128x64, .f32⟩ : BufTy).Contents (Elt Ideal))
    (x10 : (⟨S64, .f32⟩ : BufTy).Contents (Elt Ideal)) (x11 : (⟨S64x1, .f32⟩ : BufTy).Contents (Elt Ideal))
    (x12 : (⟨S1, .f32⟩ : BufTy).Contents (Elt Ideal)) (gph : Fin 1024) :
    val_main_v243 (F := Ideal) x0 x1 x2 x3 x4 x5 x6 x7 x8 x9 x10 x11 x12 (ix1 gph)
      = Cert.Spec.refScores (rSw x1) (rD x1) (rDw x1) (v1 x2) (m3 x3) (m2 x4) (m2 x5) (m2 x6) (m2 x7) (m2 x8) (m2 x9) (v1 x10) (m2 x11)
          (x12 (ix1 (0 : Fin 1))) (m2 x0) gph := by
  rw [val_main_v243_apply, idx_v243, val_main_v242_apply, val_main_v239_apply, val_main_v241_apply, val_main_v240_apply,
    idx_v241_v240]
  simp only [lidx_v239, ridx_v239, hidden_apply]
  rfl

/-- The run's result term is the last stage. -/
theorem res_eq (m : (ℓ : Loc nD τ sig) → Buf (Elt Ideal) ℓ) (c : Dev nD) :
    Cert.ReferenceIdeal.Value.res_main_v243 (F := Ideal) m c
      = val_main_v243 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) :=
  val_main_v243_eq m c

end Cert.ReferenceIdeal.Hand

end
-- ==== Proof.LibIdealReal.lean ====
/-
  General lemmas: the extended-real operations of the ideal float instance on REAL operands give the real result.
  A finite sum of real numbers embedded in the extended reals is the embedded sum; the ideal quotient of two reals with
  a nonzero divisor is the real quotient; the ideal logarithm of a positive real is the real logarithm; an ordered
  compare of two reals is the bit of the real order; a one-bit word widened to 32 bits and converted to a float is the
  real 1 or 0; a maximum over a nonempty finite family of reals starting from minus infinity is the real maximum.
-/
import Idealize.ShloMosaic.PureOps.Ideal
import Idealize.ShloMosaic.PureOps.Ideal.Laws

noncomputable section

namespace Idealize.ShloMosaic.IdealReal

open Idealize.ShloMosaic

/-- A finite sum of embedded reals is the embedded sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals, the divisor nonzero, is the real quotient. -/
theorem div_coe_coe (x y : ℝ) (hy : y ≠ 0) : Ideal.div (x : EReal) (y : EReal) = ((x / y : ℝ) : EReal) := by
  rw [Ideal.div_coe hy, ← EReal.coe_mul]
  congr 1
  field_simp

/-- The ideal logarithm of a positive real is the real logarithm. -/
theorem log_coe_pos {x : ℝ} (hx : 0 < x) : Ideal.log (x : EReal) = ((Real.log x : ℝ) : EReal) := by
  rw [Ideal.log_coe, if_neg (not_le.mpr hx)]

/-- The ideal exponential of a real is the real exponential. -/
theorem exp_coe' (x : ℝ) : Ideal.exp (x : EReal) = ((Real.exp x : ℝ) : EReal) := Ideal.exp_coe x

theorem cmp_ogt_coe (x y : ℝ) : Ideal.cmp .ogt (x : EReal) (y : EReal) = if y < x then 1#1 else 0#1 := by
  unfold Ideal.cmp
  by_cases h : y < x
  · simp [h, EReal.coe_lt_coe_iff]
  · simp [h, EReal.coe_lt_coe_iff]

theorem cmp_oge_coe (x y : ℝ) : Ideal.cmp .oge (x : EReal) (y : EReal) = if y ≤ x then 1#1 else 0#1 := by
  unfold Ideal.cmp
  by_cases h : y ≤ x
  · simp [h, EReal.coe_le_coe_iff]
  · simp [h, EReal.coe_le_coe_iff]

/-- A one-bit word widened to 32 bits and converted (signed) to a float is the real 1 or 0. -/
theorem sitofp_setWidth_bit (b : BitVec 1) :
    (FloatOps.sitofp (F := Ideal) .f32 (b.setWidth 32) : EReal) = if b = 1#1 then ((1 : ℝ) : EReal) else ((0 : ℝ) : EReal) := by
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · show ((((0#1 : BitVec 1).setWidth 32).toInt : ℝ) : EReal) = _
    simp
  · show ((((1#1 : BitVec 1).setWidth 32).toInt : ℝ) : EReal) = _
    norm_num [BitVec.toInt]

/-- The maximum of embedded reals is the embedded maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A product with an embedded 1-or-0 selects. -/
theorem coe_ite {p : Prop} [Decidable p] (a b : ℝ) :
    (if p then ((a : ℝ) : EReal) else ((b : ℝ) : EReal)) = (((if p then a else b) : ℝ) : EReal) := by
  split <;> rfl

end Idealize.ShloMosaic.IdealReal

end
-- ==== Proof.Bridge.lean ====
/-
  The kernel order and the reference order of the three-layer graph convolution network agree over the extended reals.

  The one law. For a destination row `j` some edge scatters to, the wrapped destination word of that edge reads `j`
  too, so the degree of `j` is the embedded real of a count that is at least one, and `dinv j` is a nonnegative real.
  Multiplication by a nonnegative finite extended real distributes over any finite sum of extended reals, so the factor
  `dinv j` moves out of the aggregation. For a row no edge scatters to, both aggregations are sums of zeros.
  The layers follow by unfolding; the pool follows because the one-hot entry is the real 1 or 0 of the word equality.
-/
import proofs.«406701_j21981642621452_2_alg».proof.Proof.Spec
import proofs.«406701_j21981642621452_2_alg».proof.Proof.LibIdealReal
import Idealize.ShloMosaic.PureOps.Ideal
import Idealize.ShloMosaic.Lib.IdealHost
import Mathlib.Data.EReal.Operations

noncomputable section

open scoped BigOperators

namespace Cert.Spec

open Idealize.ShloMosaic

/-! ## Constants -/

theorem Z0_eq : Z0 = 0 := Ideal.ofBits_zero_f32
theorem ONE_eq : ONE = 1 := Ideal.ofBits_one_f32

/-! ## Sums of extended reals times a nonnegative finite factor -/

/-- Multiplication by a nonnegative finite extended real distributes over a finite sum. -/
theorem sum_mul_of_nonneg_of_ne_top {ι : Type*} (s : Finset ι) (a : ι → EReal) {c : EReal} (h0 : 0 ≤ c) (ht : c ≠ ⊤) :
    (∑ i ∈ s, a i) * c = ∑ i ∈ s, a i * c := by
  classical
  induction s using Finset.induction_on with
  | empty => rw [Finset.sum_empty, Finset.sum_empty, zero_mul]
  | insert i s hi ih =>
    rw [Finset.sum_insert hi, Finset.sum_insert hi, EReal.right_distrib_of_nonneg_of_ne_top h0 ht, ih]

/-! ## The clamped row of a word that reads a row -/

theorem cr_eq_of_toInt (w : BitVec 32) (j : Fin 50000) (hw : w.toInt = (j.val : ℤ)) : cr w = j := by
  apply Fin.ext
  show min w.toInt.toNat (50000 - 1) = j.val
  rw [hw, Int.toNat_natCast]
  have := j.isLt
  omega

/-! ## The degree of a row some wrapped word reads -/

/-- The degree count is the embedded real of a sum of real ones and zeros. -/
theorem deg_eq_coe (dw : Col 850000) (j : Fin 50000) :
    deg dw j = ((∑ e : Fin 850000, (if (dw e).toInt = (j.val : ℤ) then (1 : ℝ) else 0) : ℝ) : EReal) := by
  unfold deg
  rw [Z0_eq, ONE_eq, zero_add, ← IdealReal.coe_sum]
  refine Finset.sum_congr rfl fun e _ => ?_
  split <;> rfl

/-- If some wrapped word reads `j`, the normalisation factor of `j` is nonnegative and finite. -/
theorem dinv_nonneg_ne_top (dw : Col 850000) (j : Fin 50000) (e0 : Fin 850000) (h0 : (dw e0).toInt = (j.val : ℤ)) :
    0 ≤ dinv dw j ∧ dinv dw j ≠ ⊤ := by
  have hpos : (0 : ℝ) < ∑ e : Fin 850000, (if (dw e).toInt = (j.val : ℤ) then (1 : ℝ) else 0) := by
    have hle : (if (dw e0).toInt = (j.val : ℤ) then (1 : ℝ) else 0)
        ≤ ∑ e : Fin 850000, (if (dw e).toInt = (j.val : ℤ) then (1 : ℝ) else 0) :=
      Finset.single_le_sum (f := fun e : Fin 850000 => if (dw e).toInt = (j.val : ℤ) then (1 : ℝ) else 0)
        (fun e _ => by split <;> norm_num) (Finset.mem_univ e0)
    rw [if_pos h0] at hle
    linarith
  unfold dinv
  rw [deg_eq_coe, Ideal.rsqrt_coe, if_neg (not_lt.mpr hpos.le), if_neg hpos.ne']
  refine ⟨?_, EReal.coe_ne_top _⟩
  exact EReal.coe_nonneg.mpr (inv_nonneg.mpr (Real.sqrt_nonneg _))

/-! ## The one law -/

theorem agg_law (sw d dw : Col 850000)
    (hwrap : ∀ (e : Fin 850000) (j : Fin 50000), (d e).toInt = (j.val : ℤ) → (dw e).toInt = (j.val : ℤ))
    (xw : M2 50000 128) (j : Fin 50000) (h : Fin 128) :
    aggR sw d dw (dinv dw) xw j h = aggK sw d (fun n k => xw n k * dinv dw n) j h * dinv dw j := by
  unfold aggR aggK
  rw [Z0_eq, zero_add, zero_add]
  by_cases hex : ∃ e0 : Fin 850000, (d e0).toInt = (j.val : ℤ)
  · obtain ⟨e0, he0⟩ := hex
    obtain ⟨hc0, hct⟩ := dinv_nonneg_ne_top dw j e0 (hwrap e0 j he0)
    rw [sum_mul_of_nonneg_of_ne_top _ _ hc0 hct]
    refine Finset.sum_congr rfl fun e _ => ?_
    by_cases hP : (d e).toInt = (j.val : ℤ)
    · rw [if_pos hP, if_pos hP, cr_eq_of_toInt (dw e) j (hwrap e j hP), mul_assoc]
    · rw [if_neg hP, if_neg hP, zero_mul]
  · have hno : ∀ e : Fin 850000, ¬ (d e).toInt = (j.val : ℤ) := fun e he => hex ⟨e, he⟩
    rw [Finset.sum_eq_zero (fun e _ => if_neg (hno e)), Finset.sum_eq_zero (fun e _ => if_neg (hno e)), zero_mul]

/-! ## The layers -/

section Layers
variable (sw d dw : Col 850000)
  (hwrap : ∀ (e : Fin 850000) (j : Fin 50000), (d e).toInt = (j.val : ℤ) → (dw e).toInt = (j.val : ℤ))
  (Ws : Fin 3 → Fin 128 → Fin 128 → EReal) (bs g be mu va : M2 3 128)

include hwrap

/-- One reference layer is the kernel layer of the scaled linear output. -/
theorem refPre_eq_kerPre (l : Fin 3) (A : M2 50000 128) :
    refPre sw d dw Ws bs g be mu va l A = kerPre sw d dw bs g be mu va l (kerLin dw Ws l A) := by
  funext n k
  unfold refPre kerPre
  rw [agg_law sw d dw hwrap (mm A Ws l) n k]
  rfl

theorem refH1_eq (X : M2 50000 128) :
    refH1 sw d dw Ws bs g be mu va X = fun n k => relu (kerPre sw d dw bs g be mu va 0 (kerXs0 dw Ws X) n k) := by
  funext n k
  unfold refH1
  rw [refPre_eq_kerPre sw d dw hwrap]
  rfl

theorem refH2_eq (X : M2 50000 128) :
    refH2 sw d dw Ws bs g be mu va X
      = fun n k => relu (kerPre sw d dw bs g be mu va 1 (kerXs1 sw d dw Ws bs g be mu va X) n k) := by
  funext n k
  unfold refH2
  rw [refPre_eq_kerPre sw d dw hwrap, refH1_eq sw d dw hwrap]
  rfl

theorem kerY3_eq_refH3 (X : M2 50000 128) :
    kerY3 sw d dw Ws bs g be mu va X = refH3 sw d dw Ws bs g be mu va X := by
  unfold refH3
  rw [refPre_eq_kerPre sw d dw hwrap, refH2_eq sw d dw hwrap]
  rfl

end Layers

/-! ## The pool -/

/-- A word reads a graph id below 1024 exactly when it is that id's word. -/
theorem toInt_eq_iff_eq_ofNat (b : BitVec 32) (gph : Fin 1024) :
    b = BitVec.ofNat 32 gph.val ↔ b.toInt = (gph.val : ℤ) := by
  have hg := gph.isLt
  have hb := b.isLt
  constructor
  · intro hb'
    rw [hb', BitVec.toInt_eq_toNat_cond, BitVec.toNat_ofNat]
    have : gph.val % 2 ^ 32 = gph.val := Nat.mod_eq_of_lt (by omega)
    rw [this]
    split <;> omega
  · intro hb'
    apply BitVec.eq_of_toNat_eq
    rw [BitVec.toNat_ofNat]
    have : gph.val % 2 ^ 32 = gph.val := Nat.mod_eq_of_lt (by omega)
    rw [this]
    rw [BitVec.toInt_eq_toNat_cond] at hb'
    split at hb' <;> omega

/-- The one-hot entry is the extended real 1 or 0 of the word reading the graph id. -/
theorem oneHot_eq (b : BitVec 32) (gph : Fin 1024) :
    oneHot b gph = if b.toInt = (gph.val : ℤ) then 1 else 0 := by
  unfold oneHot
  rw [IdealReal.sitofp_setWidth_bit]
  have hbit : (IntOp.cmpi .eq b (BitVec.ofNat 32 gph.val) = 1#1) ↔ b.toInt = (gph.val : ℤ) := by
    rw [← toInt_eq_iff_eq_ofNat]
    show BitVec.ofBool (b == BitVec.ofNat 32 gph.val) = 1#1 ↔ b = BitVec.ofNat 32 gph.val
    by_cases hb : b = BitVec.ofNat 32 gph.val
    · have h1 : (b == BitVec.ofNat 32 gph.val) = true := beq_iff_eq.mpr hb
      rw [h1]
      exact iff_of_true rfl hb
    · have h1 : (b == BitVec.ofNat 32 gph.val) = false := beq_false_of_ne hb
      rw [h1]
      exact iff_of_false (by decide) hb
  by_cases hP : b.toInt = (gph.val : ℤ)
  · rw [if_pos (hbit.mpr hP), if_pos hP]; rfl
  · rw [if_neg (fun hc => hP (hbit.mp hc)), if_neg hP]; rfl

theorem sumsK_eq_sumsR (B : Col 50000) (Y : M2 50000 128) : sumsK B Y = sumsR B Y := by
  funext gph h
  unfold sumsK sumsR
  rw [Z0_eq, zero_add]
  refine Finset.sum_congr rfl fun n _ => ?_
  rw [oneHot_eq]
  by_cases hP : (B n).toInt = (gph.val : ℤ)
  · rw [if_pos hP, if_pos hP, one_mul]
  · rw [if_neg hP, if_neg hP, zero_mul]

theorem cntK_eq_cntR (B : Col 50000) : cntK B = cntR B := by
  funext gph
  unfold cntK cntR
  rw [Z0_eq, ONE_eq, zero_add]
  refine Finset.sum_congr rfl fun n _ => ?_
  rw [oneHot_eq]

/-! ## The scores -/

theorem kerScores_eq_refScores (sw d dw : Col 850000)
    (hwrap : ∀ (e : Fin 850000) (j : Fin 50000), (d e).toInt = (j.val : ℤ) → (dw e).toInt = (j.val : ℤ))
    (B : Col 50000) (Ws : Fin 3 → Fin 128 → Fin 128 → EReal) (bs g be mu va : M2 3 128)
    (W1 : M2 128 64) (b1 : Fin 64 → EReal) (W2 : M2 64 1) (b2 : EReal) (X : M2 50000 128) :
    kerScores sw d dw B Ws bs g be mu va W1 b1 W2 b2 X = refScores sw d dw B Ws bs g be mu va W1 b1 W2 b2 X := by
  unfold kerScores refScores
  rw [sumsK_eq_sumsR, cntK_eq_cntR, kerY3_eq_refH3 sw d dw hwrap]

end Cert.Spec

end
-- ==== Proof.Final.lean ====
/-
  The two programs compute one function. The idealized kernel program's result is the specification's kernel-order
  scores of the arguments (the value read back through its eleven segments); the idealized reference's result is the
  specification's reference-order scores (its operations read one at a time); both programs build the same three
  columns of edge words from the edge list, and on those the two orders agree (the one law: a sum of terms each
  scaled by a non-negative real factor is the scaled sum, and the factor of a row some edge lands on is such a real).
-/
import proofs.«406701_j21981642621452_2_alg».proof.Defs
import proofs.«406701_j21981642621452_2_alg».proof.Proof.Gen.Pre_finite_inputs
import proofs.«406701_j21981642621452_2_alg».proof.Proof.KernelRun
import proofs.«406701_j21981642621452_2_alg».proof.Proof.KernelValue
import proofs.«406701_j21981642621452_2_alg».proof.Proof.RefTail
import proofs.«406701_j21981642621452_2_alg».proof.Proof.Bridge

set_option maxRecDepth 16384

noncomputable section

namespace Cert.Proof.Final

open Idealize.ShloMosaic Idealize.ShloMosaic.ValueIdx Idealize.ShloMosaic.TcCoe Idealize.SL.Sem Cert.Spec

/-- Both programs build the wrapped source column by the same operations on the edge list … -/
theorem srcw_eq (m : (ℓ : Loc Cert.KernelIdeal.nD Cert.KernelIdeal.τ Cert.KernelIdeal.sig) → Buf (Elt Ideal) ℓ) (c : Dev Cert.KernelIdeal.nD) :
    Cert.ReferenceIdeal.Hand.rSw (Cert.KernelIdeal.HandValue.argE m c) = Cert.KernelIdeal.HandValue.kSw m c := rfl
/-- … the raw destination column … -/
theorem dst_eq (m : (ℓ : Loc Cert.KernelIdeal.nD Cert.KernelIdeal.τ Cert.KernelIdeal.sig) → Buf (Elt Ideal) ℓ) (c : Dev Cert.KernelIdeal.nD) :
    Cert.ReferenceIdeal.Hand.rD (Cert.KernelIdeal.HandValue.argE m c) = Cert.KernelIdeal.HandValue.kD m c := rfl
/-- … and the wrapped destination column. -/
theorem dstw_eq (m : (ℓ : Loc Cert.KernelIdeal.nD Cert.KernelIdeal.τ Cert.KernelIdeal.sig) → Buf (Elt Ideal) ℓ) (c : Dev Cert.KernelIdeal.nD) :
    Cert.ReferenceIdeal.Hand.rDw (Cert.KernelIdeal.HandValue.argE m c) = Cert.KernelIdeal.HandValue.kDw m c := rfl

theorem algebraic : Cert.algebraic_KernelIdeal_ReferenceIdeal := by
  intro m ρ m' ρ' _ hagree
  refine ⟨fun c => Cert.KernelIdeal.Gen.W11 m ρ c (Proc.devRef .tc Cert.KernelIdeal.main_v112), Cert.KernelIdeal.Launch2.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Hand.res_eq, h0, h1, h2, h3, h4, h5, h6, h7, h8, h9, h10, h11, h12]
  funext i
  obtain ⟨gph, rfl⟩ : ∃ g : Fin 1024, i = ix1 g := ⟨i 0, eq_ix1 i⟩
  rw [Cert.ReferenceIdeal.Hand.ref_scores]
  refine Eq.trans ?_ (Cert.KernelIdeal.HandValue.result_apply m ρ c gph).symm
  rw [srcw_eq m c, dst_eq m c, dstw_eq m c]
  have key := congrFun (kerScores_eq_refScores (Cert.KernelIdeal.HandValue.kSw m c) (Cert.KernelIdeal.HandValue.kD m c) (Cert.KernelIdeal.HandValue.kDw m c)
    (Cert.KernelIdeal.HandValue.kwrap m c) (v1 (Cert.KernelIdeal.HandValue.argB m c)) (Cert.KernelIdeal.HandValue.sWs m c)
    (Cert.KernelIdeal.HandValue.sBs m c) (Cert.KernelIdeal.HandValue.sG m c) (Cert.KernelIdeal.HandValue.sBe m c)
    (Cert.KernelIdeal.HandValue.sMu m c) (Cert.KernelIdeal.HandValue.sVa m c) (m2 (Cert.KernelIdeal.HandValue.argW1 m c))
    (v1 (Cert.KernelIdeal.HandValue.argB1 m c)) (m2 (Cert.KernelIdeal.HandValue.argW2 m c))
    (Cert.KernelIdeal.HandValue.argB2 m c (ix1 (0 : Fin 1))) (Cert.KernelIdeal.HandValue.sX m c)) gph
  rw [key]

end Cert.Proof.Final

end
-- ==== Proof.lean ====
/-
  The certificate: a three-layer graph convolution network with eval-mode batch normalisation, a mean pool over graphs
  and a two-layer classifier, as five pipelined kernels among host operations, against its plain reference. The three
  frames are the generated ones (the reference's is its generated run with the result dropped); the ideal pass rewrote
  nothing, so there is nothing to preserve; and at the ideal instance the two programs end with the same scores
  (`Cert.Proof.Final.algebraic`): the kernel scales rows by the degree factor before the gather and the sum after
  the scatter where the reference multiplies every gathered row by both factors, and pools by one-hot products where the
  reference sums segments — equal on the extended reals because the factor of a row that receives an edge is a
  non-negative real.
-/
import proofs.«406701_j21981642621452_2_alg».proof.Defs
import proofs.«406701_j21981642621452_2_alg».proof.Proof.Gen.Kernel
import proofs.«406701_j21981642621452_2_alg».proof.Proof.Gen.Kernel.Skeleton
import proofs.«406701_j21981642621452_2_alg».proof.Proof.Gen.Kernel.Launch
import proofs.«406701_j21981642621452_2_alg».proof.Proof.Gen.Kernel.Points
import proofs.«406701_j21981642621452_2_alg».proof.Proof.Gen.Kernel.Frame
import proofs.«406701_j21981642621452_2_alg».proof.Proof.Gen.KernelIdeal
import proofs.«406701_j21981642621452_2_alg».proof.Proof.Gen.KernelIdeal.Skeleton
import proofs.«406701_j21981642621452_2_alg».proof.Proof.Gen.KernelIdeal.Launch
import proofs.«406701_j21981642621452_2_alg».proof.Proof.Gen.KernelIdeal.Points
import proofs.«406701_j21981642621452_2_alg».proof.Proof.Gen.KernelIdeal.Frame
import proofs.«406701_j21981642621452_2_alg».proof.Proof.Gen.ReferenceIdeal
import proofs.«406701_j21981642621452_2_alg».proof.Proof.Gen.ReferenceIdeal.Run
import proofs.«406701_j21981642621452_2_alg».proof.Proof.Gen.Pre_finite_inputs
import proofs.«406701_j21981642621452_2_alg».proof.Proof.Final
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Final.algebraic⟩

end Cert.Proof

end
